-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x5 : Shape := ⟨2, ![500000, 5]⟩
abbrev S2x16000000 : Shape := ⟨2, ![2, 16000000]⟩
abbrev S5x5 : Shape := ⟨2, ![5, 5]⟩
abbrev S5 : Shape := ⟨1, ![5]⟩
abbrev S5x8 : Shape := ⟨2, ![5, 8]⟩
abbrev S8 : Shape := ⟨1, ![8]⟩
abbrev S_ : Shape := ⟨0, ![]⟩

class Facts : Prop where
  bcast_S_S500000x5 : S_.BroadcastsInDim S500000x5 (![] : Fin 0 → Fin S500000x5.rank)
  reducesTo_S500000x5_S_d0_1 : S500000x5.ReducesTo [0, 1] S_
  h_S_ : 0 < S_.numel
  bcast_S_S5x5 : S_.BroadcastsInDim S5x5 (![] : Fin 0 → Fin S5x5.rank)
  reducesTo_S5x5_S_d0_1 : S5x5.ReducesTo [0, 1] S_
  bcast_S_S5 : S_.BroadcastsInDim S5 (![] : Fin 0 → Fin S5.rank)
  reducesTo_S5_S_d0 : S5.ReducesTo [0] S_
  bcast_S_S5x8 : S_.BroadcastsInDim S5x8 (![] : Fin 0 → Fin S5x8.rank)
  reducesTo_S5x8_S_d0_1 : S5x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S8 .f32) (main_v13 : IVec S_ 1) (main_v16 : IVec S5x8 1) : IVec S_ 1 :=
  let main_c_5 : IVec S_ 1 := constantI S_ 1 1#1
  let main_v17 : IVec S_ 1 := (fun x v => Host.reduce IntOp.andi x v reducesTo_S5x8_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S500000x5 .f32) (main_arg1 : IVec S2x16000000 32) (main_arg2 : FVec F S5x5 .f32) (main_arg3 : FVec F S5 .f32) (main_arg4 : FVec F S5x8 .f32) (main_arg5 : FVec F S8 .f32) : IVec S_ 1 :=
  let main_v0 : FVec F S500000x5 .f32 := Host.absf main_arg0
  let main_cst : FVec F S_ .f32 := constant S_ .f32 0x7F800000#32
  let main_v1 : FVec F S500000x5 .f32 := broadcastInDim S500000x5 ![] bcast_S_S500000x5 main_cst
  let main_v2 : IVec S500000x5 1 := cmpf .olt main_v0 main_v1
  let main_c : IVec S_ 1 := constantI S_ 1 1#1
  let main_v3 : IVec S_ 1 := (fun x v => Host.reduce IntOp.andi x v reducesTo_S500000x5_S_d0_1 h_S_) main_v2 main_c
  let main_v4 : FVec F S5x5 .f32 := Host.absf main_arg2
  let main_cst_0 : FVec F S_ .f32 := constant S_ .f32 0x7F800000#32
  let main_v5 : FVec F S5x5 .f32 := broadcastInDim S5x5 ![] bcast_S_S5x5 main_cst_0
  let main_v6 : IVec S5x5 1 := cmpf .olt main_v4 main_v5
  let main_c_1 : IVec S_ 1 := constantI S_ 1 1#1
  let main_v7 : IVec S_ 1 := (fun x v => Host.reduce IntOp.andi x v reducesTo_S5x5_S_d0_1 h_S_) main_v6 main_c_1
  let main_v8 : IVec S_ 1 := andi main_v3 main_v7
  let main_v9 : FVec F S5 .f32 := Host.absf main_arg3
  let main_cst_2 : FVec F S_ .f32 := constant S_ .f32 0x7F800000#32
  let main_v10 : FVec F S5 .f32 := broadcastInDim S5 ![] bcast_S_S5 main_cst_2
  let main_v11 : IVec S5 1 := cmpf .olt main_v9 main_v10
  let main_c_3 : IVec S_ 1 := constantI S_ 1 1#1
  let main_v12 : IVec S_ 1 := (fun x v => Host.reduce IntOp.andi x v reducesTo_S5_S_d0 h_S_) main_v11 main_c_3
  let main_v13 : IVec S_ 1 := andi main_v8 main_v12
  let main_v14 : FVec F S5x8 .f32 := Host.absf main_arg4
  let main_cst_4 : FVec F S_ .f32 := constant S_ .f32 0x7F800000#32
  let main_v15 : FVec F S5x8 .f32 := broadcastInDim S5x8 ![] bcast_S_S5x8 main_cst_4
  let main_v16 : IVec S5x8 1 := cmpf .olt main_v14 main_v15
  fn_part1 (F := F) main_arg5 main_v13 main_v16
-- ==== Kernel.lean ====
abbrev S500000x5 : Shape := ⟨2, ![500000, 5]⟩
abbrev S2x16000000 : Shape := ⟨2, ![2, 16000000]⟩
abbrev S5x5 : Shape := ⟨2, ![5, 5]⟩
abbrev S5 : Shape := ⟨1, ![5]⟩
abbrev S5x8 : Shape := ⟨2, ![5, 8]⟩
abbrev S8 : Shape := ⟨1, ![8]⟩
abbrev S1x16000000 : Shape := ⟨2, ![1, 16000000]⟩
abbrev S16000000 : Shape := ⟨1, ![16000000]⟩
abbrev S500000 : Shape := ⟨1, ![500000]⟩
abbrev S16500000 : Shape := ⟨1, ![16500000]⟩
abbrev S_ : Shape := ⟨0, ![]⟩
abbrev S16500000x1 : Shape := ⟨2, ![16500000, 1]⟩
abbrev S5000x5 : Shape := ⟨2, ![5000, 5]⟩
abbrev S16500000x5 : Shape := ⟨2, ![16500000, 5]⟩
abbrev S4000x5 : Shape := ⟨2, ![4000, 5]⟩
abbrev S16504000x5 : Shape := ⟨2, ![16504000, 5]⟩
abbrev S4000x1 : Shape := ⟨2, ![4000, 1]⟩
abbrev S16504000x1 : Shape := ⟨2, ![16504000, 1]⟩
abbrev S8000x5 : Shape := ⟨2, ![8000, 5]⟩
abbrev S8000x1 : Shape := ⟨2, ![8000, 1]⟩
abbrev S1x5 : Shape := ⟨2, ![1, 5]⟩
abbrev S500000x8 : Shape := ⟨2, ![500000, 8]⟩
abbrev S5000x8 : Shape := ⟨2, ![5000, 8]⟩
abbrev S16500000x8 : Shape := ⟨2, ![16500000, 8]⟩
abbrev S4000x8 : Shape := ⟨2, ![4000, 8]⟩
abbrev S16504000x8 : Shape := ⟨2, ![16504000, 8]⟩
abbrev S8000x8 : Shape := ⟨2, ![8000, 8]⟩
abbrev S1x8 : Shape := ⟨2, ![1, 8]⟩
abbrev S5000 : Shape := ⟨1, ![5000]⟩
abbrev S5000x1 : Shape := ⟨2, ![5000, 1]⟩

abbrev nBuf : Space → Nat
  | .hbm => 95
  | .vmem => 32
  | .smem => 0
  | _ => 0

abbrev bufTy : (tb : Table) → Fin (tcTables nBuf tb) → BufTy
  | .hbm, ⟨0, _⟩ => ⟨S500000x5, .f32⟩
  | .hbm, ⟨1, _⟩ => ⟨S2x16000000, .i32⟩
  | .hbm, ⟨2, _⟩ => ⟨S5x5, .f32⟩
  | .hbm, ⟨3, _⟩ => ⟨S5, .f32⟩
  | .hbm, ⟨4, _⟩ => ⟨S5x8, .f32⟩
  | .hbm, ⟨5, _⟩ => ⟨S8, .f32⟩
  | .hbm, ⟨6, _⟩ => ⟨S1x16000000, .i32⟩
  | .hbm, ⟨7, _⟩ => ⟨S16000000, .i32⟩
  | .hbm, ⟨8, _⟩ => ⟨S1x16000000, .i32⟩
  | .hbm, ⟨9, _⟩ => ⟨S16000000, .i32⟩
  | .hbm, ⟨10, _⟩ => ⟨S500000, .i32⟩
  | .hbm, ⟨11, _⟩ => ⟨S16500000, .i32⟩
  | .hbm, ⟨12, _⟩ => ⟨S16500000, .i32⟩
  | .hbm, ⟨13, _⟩ => ⟨S_, .f32⟩
  | .hbm, ⟨14, _⟩ => ⟨S16500000, .f32⟩
  | .hbm, ⟨15, _⟩ => ⟨S_, .f32⟩
  | .hbm, ⟨16, _⟩ => ⟨S500000, .f32⟩
  | .hbm, ⟨17, _⟩ => ⟨S16500000x1, .i32⟩
  | .hbm, ⟨18, _⟩ => ⟨S500000, .f32⟩
  | .hbm, ⟨19, _⟩ => ⟨S_, .f32⟩
  | .hbm, ⟨20, _⟩ => ⟨S500000, .f32⟩
  | .hbm, ⟨21, _⟩ => ⟨S500000, .i1⟩
  | .hbm, ⟨22, _⟩ => ⟨S500000, .f32⟩
  | .hbm, ⟨23, _⟩ => ⟨S_, .f32⟩
  | .hbm, ⟨24, _⟩ => ⟨S_, .f32⟩
  | .hbm, ⟨25, _⟩ => ⟨S500000, .f32⟩
  | .hbm, ⟨26, _⟩ => ⟨S500000, .f32⟩
  | .hbm, ⟨27, _⟩ => ⟨S_, .i32⟩
  | .hbm, ⟨28, _⟩ => ⟨S16500000, .i32⟩
  | .hbm, ⟨29, _⟩ => ⟨S16500000, .i1⟩
  | .hbm, ⟨30, _⟩ => ⟨S_, .i32⟩
  | .hbm, ⟨31, _⟩ => ⟨S16500000, .i32⟩
  | .hbm, ⟨32, _⟩ => ⟨S16500000, .i32⟩
  | .hbm, ⟨33, _⟩ => ⟨S16500000, .i32⟩
  | .hbm, ⟨34, _⟩ => ⟨S16500000x1, .i32⟩
  | .hbm, ⟨35, _⟩ => ⟨S16500000, .f32⟩
  | .hbm, ⟨36, _⟩ => ⟨S_, .i32⟩
  | .hbm, ⟨37, _⟩ => ⟨S16500000, .i32⟩
  | .hbm, ⟨38, _⟩ => ⟨S16500000, .i1⟩
  | .hbm, ⟨39, _⟩ => ⟨S_, .i32⟩
  | .hbm, ⟨40, _⟩ => ⟨S16500000, .i32⟩
  | .hbm, ⟨41, _⟩ => ⟨S16500000, .i32⟩
  | .hbm, ⟨42, _⟩ => ⟨S16500000, .i32⟩
  | .hbm, ⟨43, _⟩ => ⟨S16500000x1, .i32⟩
  | .hbm, ⟨44, _⟩ => ⟨S16500000, .f32⟩
  | .hbm, ⟨45, _⟩ => ⟨S16500000, .f32⟩
  | .hbm, ⟨46, _⟩ => ⟨S16500000x1, .f32⟩
  | .hbm, ⟨47, _⟩ => ⟨S500000x5, .f32⟩
  | .hbm, ⟨48, _⟩ => ⟨S_, .i32⟩
  | .hbm, ⟨49, _⟩ => ⟨S16500000, .i32⟩
  | .hbm, ⟨50, _⟩ => ⟨S16500000, .i1⟩
  | .hbm, ⟨51, _⟩ => ⟨S_, .i32⟩
  | .hbm, ⟨52, _⟩ => ⟨S16500000, .i32⟩
  | .hbm, ⟨53, _⟩ => ⟨S16500000, .i32⟩
  | .hbm, ⟨54, _⟩ => ⟨S16500000, .i32⟩
  | .hbm, ⟨55, _⟩ => ⟨S16500000x1, .i32⟩
  | .hbm, ⟨56, _⟩ => ⟨S16500000x5, .f32⟩
  | .hbm, ⟨57, _⟩ => ⟨S_, .f32⟩
  | .hbm, ⟨58, _⟩ => ⟨S4000x5, .f32⟩
  | .hbm, ⟨59, _⟩ => ⟨S16504000x5, .f32⟩
  | .hbm, ⟨60, _⟩ => ⟨S_, .f32⟩
  | .hbm, ⟨61, _⟩ => ⟨S4000x1, .f32⟩
  | .hbm, ⟨62, _⟩ => ⟨S16504000x1, .f32⟩
  | .hbm, ⟨63, _⟩ => ⟨S16504000x5, .f32⟩
  | .hbm, ⟨64, _⟩ => ⟨S16500000x5, .f32⟩
  | .hbm, ⟨65, _⟩ => ⟨S_, .f32⟩
  | .hbm, ⟨66, _⟩ => ⟨S500000x5, .f32⟩
  | .hbm, ⟨67, _⟩ => ⟨S16500000x1, .i32⟩
  | .hbm, ⟨68, _⟩ => ⟨S500000x5, .f32⟩
  | .hbm, ⟨69, _⟩ => ⟨S1x5, .f32⟩
  | .hbm, ⟨70, _⟩ => ⟨S500000x5, .f32⟩
  | .hbm, ⟨71, _⟩ => ⟨S500000x8, .f32⟩
  | .hbm, ⟨72, _⟩ => ⟨S_, .i32⟩
  | .hbm, ⟨73, _⟩ => ⟨S16500000, .i32⟩
  | .hbm, ⟨74, _⟩ => ⟨S16500000, .i1⟩
  | .hbm, ⟨75, _⟩ => ⟨S_, .i32⟩
  | .hbm, ⟨76, _⟩ => ⟨S16500000, .i32⟩
  | .hbm, ⟨77, _⟩ => ⟨S16500000, .i32⟩
  | .hbm, ⟨78, _⟩ => ⟨S16500000, .i32⟩
  | .hbm, ⟨79, _⟩ => ⟨S16500000x1, .i32⟩
  | .hbm, ⟨80, _⟩ => ⟨S16500000x8, .f32⟩
  | .hbm, ⟨81, _⟩ => ⟨S_, .f32⟩
  | .hbm, ⟨82, _⟩ => ⟨S4000x8, .f32⟩
  | .hbm, ⟨83, _⟩ => ⟨S16504000x8, .f32⟩
  | .hbm, ⟨84, _⟩ => ⟨S_, .f32⟩
  | .hbm, ⟨85, _⟩ => ⟨S4000x1, .f32⟩
  | .hbm, ⟨86, _⟩ => ⟨S16504000x1, .f32⟩
  | .hbm, ⟨87, _⟩ => ⟨S16504000x8, .f32⟩
  | .hbm, ⟨88, _⟩ => ⟨S16500000x8, .f32⟩
  | .hbm, ⟨89, _⟩ => ⟨S_, .f32⟩
  | .hbm, ⟨90, _⟩ => ⟨S500000x8, .f32⟩
  | .hbm, ⟨91, _⟩ => ⟨S16500000x1, .i32⟩
  | .hbm, ⟨92, _⟩ => ⟨S500000x8, .f32⟩
  | .hbm, ⟨93, _⟩ => ⟨S1x8, .f32⟩
  | .hbm, ⟨94, _⟩ => ⟨S500000x8, .f32⟩
  | .local _ .vmem, ⟨0, _⟩ => ⟨S5000x5, .f32⟩
  | .local _ .vmem, ⟨1, _⟩ => ⟨S5000x5, .f32⟩
  | .local _ .vmem, ⟨2, _⟩ => ⟨S5x5, .f32⟩
  | .local _ .vmem, ⟨3, _⟩ => ⟨S5000x5, .f32⟩
  | .local _ .vmem, ⟨4, _⟩ => ⟨S5000x5, .f32⟩
  | .local _ .vmem, ⟨5, _⟩ => ⟨S8000x5, .f32⟩
  | .local _ .vmem, ⟨6, _⟩ => ⟨S8000x5, .f32⟩
  | .local _ .vmem, ⟨7, _⟩ => ⟨S8000x1, .f32⟩
  | .local _ .vmem, ⟨8, _⟩ => ⟨S8000x1, .f32⟩
  | .local _ .vmem, ⟨9, _⟩ => ⟨S8000x5, .f32⟩
  | .local _ .vmem, ⟨10, _⟩ => ⟨S8000x5, .f32⟩
  | .local _ .vmem, ⟨11, _⟩ => ⟨S5000x5, .f32⟩
  | .local _ .vmem, ⟨12, _⟩ => ⟨S5000x5, .f32⟩
  | .local _ .vmem, ⟨13, _⟩ => ⟨S1x5, .f32⟩
  | .local _ .vmem, ⟨14, _⟩ => ⟨S5000x5, .f32⟩
  | .local _ .vmem, ⟨15, _⟩ => ⟨S5000x5, .f32⟩
  | .local _ .vmem, ⟨16, _⟩ => ⟨S5000x5, .f32⟩
  | .local _ .vmem, ⟨17, _⟩ => ⟨S5000x5, .f32⟩
  | .local _ .vmem, ⟨18, _⟩ => ⟨S5x8, .f32⟩
  | .local _ .vmem, ⟨19, _⟩ => ⟨S5000x8, .f32⟩
  | .local _ .vmem, ⟨20, _⟩ => ⟨S5000x8, .f32⟩
  | .local _ .vmem, ⟨21, _⟩ => ⟨S8000x8, .f32⟩
  | .local _ .vmem, ⟨22, _⟩ => ⟨S8000x8, .f32⟩
  | .local _ .vmem, ⟨23, _⟩ => ⟨S8000x1, .f32⟩
  | .local _ .vmem, ⟨24, _⟩ => ⟨S8000x1, .f32⟩
  | .local _ .vmem, ⟨25, _⟩ => ⟨S8000x8, .f32⟩
  | .local _ .vmem, ⟨26, _⟩ => ⟨S8000x8, .f32⟩
  | .local _ .vmem, ⟨27, _⟩ => ⟨S5000x8, .f32⟩
  | .local _ .vmem, ⟨28, _⟩ => ⟨S5000x8, .f32⟩
  | .local _ .vmem, ⟨29, _⟩ => ⟨S1x8, .f32⟩
  | .local _ .vmem, ⟨30, _⟩ => ⟨S5000x8, .f32⟩
  | .local _ .vmem, ⟨31, _⟩ => ⟨S5000x8, .f32⟩
  | _, _ => ⟨S500000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_c_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_13 : Ref sig .tc := ⟨.hbm, 81, rfl⟩
abbrev main_v58 : Ref sig .tc := ⟨.hbm, 82, rfl⟩
abbrev main_v59 : Ref sig .tc := ⟨.hbm, 83, rfl⟩
abbrev main_cst_14 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_15 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![2063], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x5 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x5 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x5 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x5 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x5 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x5 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S5x8 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x8 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![2063], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x8 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8000x8 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x8 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x8 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x8 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  concatenates_S16000000_S500000_S16500000_d0 : Shape.Concatenates [S16000000, S500000] S16500000 0
  bcast_S_S16500000 : S_.BroadcastsInDim S16500000 (![] : Fin 0 → Fin S16500000.rank)
  bcast_S_S500000 : S_.BroadcastsInDim S500000 (![] : Fin 0 → Fin S500000.rank)
  bcast_S16500000_S16500000x1_0 : S16500000.BroadcastsInDim S16500000x1 (![0] : Fin 1 → Fin S16500000x1.rank)
  shapeCasts_S16500000_S16500000x1 : S16500000.ShapeCasts S16500000x1
  inb_S5000x5_S5000x5_0_0 : ∀ a, (![0, 0] : Fin 2 → Nat) a + S5000x5.size a ≤ S5000x5.size a
  h_S5000x5 : 0 < S5000x5.numel
  bitsLt_bf16_f32 : FTy.bits .bf16 < FTy.bits .f32
  inb_S5x5_S5x5_0_0 : ∀ a, (![0, 0] : Fin 2 → Nat) a + S5x5.size a ≤ S5x5.size a
  h_S5x5 : 0 < S5x5.numel
  bcast_S_S4000x5 : S_.BroadcastsInDim S4000x5 (![] : Fin 0 → Fin S4000x5.rank)
  concatenates_S16500000x5_S4000x5_S16504000x5_d0 : Shape.Concatenates [S16500000x5, S4000x5] S16504000x5 0
  bcast_S_S4000x1 : S_.BroadcastsInDim S4000x1 (![] : Fin 0 → Fin S4000x1.rank)
  concatenates_S16500000x1_S4000x1_S16504000x1_d0 : Shape.Concatenates [S16500000x1, S4000x1] S16504000x1 0
  inb_S8000x5_S8000x5_0_0 : ∀ a, (![0, 0] : Fin 2 → Nat) a + S8000x5.size a ≤ S8000x5.size a
  h_S8000x5 : 0 < S8000x5.numel
  shapeCasts_S8000x5_S8000x5 : S8000x5.ShapeCasts S8000x5
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x5 : S8000x1.Broadcasts S8000x5
  slices_S16504000x5_S16500000x5_0_0 : S16504000x5.Slices ![0, 0] S16500000x5
  bcast_S_S500000x5 : S_.BroadcastsInDim S500000x5 (![] : Fin 0 → Fin S500000x5.rank)
  shapeCasts_S5_S1x5 : S5.ShapeCasts S1x5
  shapeCasts_S5000x5_S5000x5 : S5000x5.ShapeCasts S5000x5
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S5000x5 : S1x5.Broadcasts S5000x5
  inb_S5x8_S5x8_0_0 : ∀ a, (![0, 0] : Fin 2 → Nat) a + S5x8.size a ≤ S5x8.size a
  h_S5x8 : 0 < S5x8.numel
  inb_S5000x8_S5000x8_0_0 : ∀ a, (![0, 0] : Fin 2 → Nat) a + S5000x8.size a ≤ S5000x8.size a
  h_S5000x8 : 0 < S5000x8.numel
  bcast_S_S4000x8 : S_.BroadcastsInDim S4000x8 (![] : Fin 0 → Fin S4000x8.rank)
  concatenates_S16500000x8_S4000x8_S16504000x8_d0 : Shape.Concatenates [S16500000x8, S4000x8] S16504000x8 0
  inb_S8000x8_S8000x8_0_0 : ∀ a, (![0, 0] : Fin 2 → Nat) a + S8000x8.size a ≤ S8000x8.size a
  h_S8000x8 : 0 < S8000x8.numel
  shapeCasts_S8000x8_S8000x8 : S8000x8.ShapeCasts S8000x8
  broadcasts_S8000x1_S8000x8 : S8000x1.Broadcasts S8000x8
  slices_S16504000x8_S16500000x8_0_0 : S16504000x8.Slices ![0, 0] S16500000x8
  bcast_S_S500000x8 : S_.BroadcastsInDim S500000x8 (![] : Fin 0 → Fin S500000x8.rank)
  shapeCasts_S8_S1x8 : S8.ShapeCasts S1x8
  shapeCasts_S5000x8_S5000x8 : S5000x8.ShapeCasts S5000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  reduces_S5000x8_S5000 : S5000x8.Reduces [1] S5000
  shapeCasts_S5000_S5000x1 : S5000.ShapeCasts S5000x1
  broadcasts_S5000x1_S5000x8 : S5000x1.Broadcasts S5000x8
  scatter_S500000_S16500000x1_S16500000_n_0_0_1_wf : ScatterDims.WF S500000 S16500000x1 S16500000 [] [0] [0] 1
  gather_S500000_S16500000x1_S16500000_n_0_n_n_0_1_1_wf : GatherDims.WF S500000 S16500000x1 S16500000 [] [0] [] [0] [] 1 ![1]
  dot_S5000x5_S5x5_S5000x5_1_0_0_1_n_n_wf : DotDims.WF S5000x5 S5x5 S5000x5 [1] [0] [0] [1] [] []
  gather_S500000x5_S16500000x1_S16500000x5_1_0_n_n_0_1_15_wf : GatherDims.WF S500000x5 S16500000x1 S16500000x5 [1] [0] [] [0] [] 1 ![1, 5]
  scatter_S500000x5_S16500000x1_S16500000x5_1_0_0_1_wf : ScatterDims.WF S500000x5 S16500000x1 S16500000x5 [1] [0] [0] 1
  dot_S5000x5_S5x8_S5000x8_1_0_0_1_n_n_wf : DotDims.WF S5000x5 S5x8 S5000x8 [1] [0] [0] [1] [] []
  gather_S500000x8_S16500000x1_S16500000x8_1_0_n_n_0_1_18_wf : GatherDims.WF S500000x8 S16500000x1 S16500000x8 [1] [0] [] [0] [] 1 ![1, 8]
  scatter_S500000x8_S16500000x1_S16500000x8_1_0_0_1_wf : ScatterDims.WF S500000x8 S16500000x1 S16500000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x5.size a ≤ S500000x5.size a
  hwx0_0 : ∀ i : grid0.Coords, EltTy.bits .f32 = 32 ∨ (Rect.block (s := S500000x5) S5000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x5.size a ≤ S5x5.size a
  hwx0_1 : ∀ i : grid0.Coords, EltTy.bits .f32 = 32 ∨ (Rect.block (s := S5x5) S5x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x5.size a ≤ S500000x5.size a
  hwx0_2 : ∀ i : grid0.Coords, EltTy.bits .f32 = 32 ∨ (Rect.block (s := S500000x5) S5000x5.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x5.size a ≤ S16504000x5.size a
  hwx1_0 : ∀ i : grid1.Coords, EltTy.bits .f32 = 32 ∨ (Rect.block (s := S16504000x5) S8000x5.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S16504000x1.size a
  hwx1_1 : ∀ i : grid1.Coords, EltTy.bits .f32 = 32 ∨ (Rect.block (s := S16504000x1) S8000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x5.size a ≤ S16504000x5.size a
  hwx1_2 : ∀ i : grid1.Coords, EltTy.bits .f32 = 32 ∨ (Rect.block (s := S16504000x5) S8000x5.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x5.size a ≤ S500000x5.size a
  hwx2_0 : ∀ i : grid2.Coords, EltTy.bits .f32 = 32 ∨ (Rect.block (s := S500000x5) S5000x5.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x5.size a ≤ S1x5.size a
  hwx2_1 : ∀ i : grid2.Coords, EltTy.bits .f32 = 32 ∨ (Rect.block (s := S1x5) S1x5.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x5.size a ≤ S500000x5.size a
  hwx2_2 : ∀ i : grid2.Coords, EltTy.bits .f32 = 32 ∨ (Rect.block (s := S500000x5) S5000x5.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x5.size a ≤ S500000x5.size a
  hwx3_0 : ∀ i : grid3.Coords, EltTy.bits .f32 = 32 ∨ (Rect.block (s := S500000x5) S5000x5.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S5x8.size a ≤ S5x8.size a
  hwx3_1 : ∀ i : grid3.Coords, EltTy.bits .f32 = 32 ∨ (Rect.block (s := S5x8) S5x8.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x8.size a ≤ S500000x8.size a
  hwx3_2 : ∀ i : grid3.Coords, EltTy.bits .f32 = 32 ∨ (Rect.block (s := S500000x8) S5000x8.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x8.size a ≤ S16504000x8.size a
  hwx4_0 : ∀ i : grid4.Coords, EltTy.bits .f32 = 32 ∨ (Rect.block (s := S16504000x8) S8000x8.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x1.size a ≤ S16504000x1.size a
  hwx4_1 : ∀ i : grid4.Coords, EltTy.bits .f32 = 32 ∨ (Rect.block (s := S16504000x1) S8000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x8.size a ≤ S16504000x8.size a
  hwx4_2 : ∀ i : grid4.Coords, EltTy.bits .f32 = 32 ∨ (Rect.block (s := S16504000x8) S8000x8.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x8.size a ≤ S500000x8.size a
  hwx5_0 : ∀ i : grid5.Coords, EltTy.bits .f32 = 32 ∨ (Rect.block (s := S500000x8) S5000x8.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x8.size a ≤ S1x8.size a
  hwx5_1 : ∀ i : grid5.Coords, EltTy.bits .f32 = 32 ∨ (Rect.block (s := S1x8) S1x8.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x8.size a ≤ S500000x8.size a
  hwx5_2 : ∀ i : grid5.Coords, EltTy.bits .f32 = 32 ∨ (Rect.block (s := S500000x8) S5000x8.size (cc5_transform_2 i) (hinb5_2 i)).WholeWords (EltTy.packing .f32)

variable [Facts₀]

def scatter_S500000_S16500000x1_S16500000_n_0_0_1 : ScatterDims S500000 S16500000x1 S16500000 where
  updateWindowDims := []
  insertedWindowDims := [0]
  scatterDimsToOperandDims := [0]
  indexVectorDim := 1
  wf := scatter_S500000_S16500000x1_S16500000_n_0_0_1_wf
def gather_S500000_S16500000x1_S16500000_n_0_n_n_0_1_1 : GatherDims S500000 S16500000x1 S16500000 where
  offsetDims := []
  collapsedSliceDims := [0]
  operandBatchingDims := []
  startIndicesBatchingDims := []
  startIndexMap := [0]
  indexVectorDim := 1
  sliceSizes := ![1]
  wf := gather_S500000_S16500000x1_S16500000_n_0_n_n_0_1_1_wf
def dot_S5000x5_S5x5_S5000x5_1_0_0_1_n_n : DotDims S5000x5 S5x5 S5000x5 where
  lhsContracting := [1]
  rhsContracting := [0]
  lhsNonContracting := [0]
  rhsNonContracting := [1]
  lhsBatch := []
  rhsBatch := []
  wf := dot_S5000x5_S5x5_S5000x5_1_0_0_1_n_n_wf
def gather_S500000x5_S16500000x1_S16500000x5_1_0_n_n_0_1_15 : GatherDims S500000x5 S16500000x1 S16500000x5 where
  offsetDims := [1]
  collapsedSliceDims := [0]
  operandBatchingDims := []
  startIndicesBatchingDims := []
  startIndexMap := [0]
  indexVectorDim := 1
  sliceSizes := ![1, 5]
  wf := gather_S500000x5_S16500000x1_S16500000x5_1_0_n_n_0_1_15_wf
def scatter_S500000x5_S16500000x1_S16500000x5_1_0_0_1 : ScatterDims S500000x5 S16500000x1 S16500000x5 where
  updateWindowDims := [1]
  insertedWindowDims := [0]
  scatterDimsToOperandDims := [0]
  indexVectorDim := 1
  wf := scatter_S500000x5_S16500000x1_S16500000x5_1_0_0_1_wf
def dot_S5000x5_S5x8_S5000x8_1_0_0_1_n_n : DotDims S5000x5 S5x8 S5000x8 where
  lhsContracting := [1]
  rhsContracting := [0]
  lhsNonContracting := [0]
  rhsNonContracting := [1]
  lhsBatch := []
  rhsBatch := []
  wf := dot_S5000x5_S5x8_S5000x8_1_0_0_1_n_n_wf
def gather_S500000x8_S16500000x1_S16500000x8_1_0_n_n_0_1_18 : GatherDims S500000x8 S16500000x1 S16500000x8 where
  offsetDims := [1]
  collapsedSliceDims := [0]
  operandBatchingDims := []
  startIndicesBatchingDims := []
  startIndexMap := [0]
  indexVectorDim := 1
  sliceSizes := ![1, 8]
  wf := gather_S500000x8_S16500000x1_S16500000x8_1_0_n_n_0_1_18_wf
def scatter_S500000x8_S16500000x1_S16500000x8_1_0_0_1 : ScatterDims S500000x8 S16500000x1 S16500000x8 where
  updateWindowDims := [1]
  insertedWindowDims := [0]
  scatterDimsToOperandDims := [0]
  indexVectorDim := 1
  wf := scatter_S500000x8_S16500000x1_S16500000x8_1_0_0_1_wf

abbrev win0_0 : Pipeline.Window sig grid0 :=
  Pipeline.Window.ofSpec (Memref.whole main_arg0) S5000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S5x5.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x5.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S8000x5.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S8000x5.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x5.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S1x5.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S5000x5.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v49) S5000x5.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S5x8.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S5000x8.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v59) S8000x8.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v61) S8000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v62) S8000x8.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v66) S5000x8.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v67) S1x8.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v68) S5000x8.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S500000x5 : Shape := ⟨2, ![500000, 5]⟩
abbrev S2x16000000 : Shape := ⟨2, ![2, 16000000]⟩
abbrev S5x5 : Shape := ⟨2, ![5, 5]⟩
abbrev S5 : Shape := ⟨1, ![5]⟩
abbrev S5x8 : Shape := ⟨2, ![5, 8]⟩
abbrev S8 : Shape := ⟨1, ![8]⟩
abbrev S500000 : Shape := ⟨1, ![500000]⟩
abbrev S1x16000000 : Shape := ⟨2, ![1, 16000000]⟩
abbrev S16000000 : Shape := ⟨1, ![16000000]⟩
abbrev S16500000 : Shape := ⟨1, ![16500000]⟩
abbrev S_ : Shape := ⟨0, ![]⟩
abbrev S16500000x1 : Shape := ⟨2, ![16500000, 1]⟩
abbrev S16500000x5 : Shape := ⟨2, ![16500000, 5]⟩
abbrev S1x5 : Shape := ⟨2, ![1, 5]⟩
abbrev S500000x8 : Shape := ⟨2, ![500000, 8]⟩
abbrev S16500000x8 : Shape := ⟨2, ![16500000, 8]⟩
abbrev S1x8 : Shape := ⟨2, ![1, 8]⟩
abbrev S500000x1 : Shape := ⟨2, ![500000, 1]⟩

abbrev nBuf : Space → Nat
  | .hbm => 104
  | .vmem => 0
  | .smem => 0
  | _ => 0

abbrev bufTy : (tb : Table) → Fin (tcTables nBuf tb) → BufTy
  | .hbm, ⟨0, _⟩ => ⟨S500000x5, .f32⟩
  | .hbm, ⟨1, _⟩ => ⟨S2x16000000, .i32⟩
  | .hbm, ⟨2, _⟩ => ⟨S5x5, .f32⟩
  | .hbm, ⟨3, _⟩ => ⟨S5, .f32⟩
  | .hbm, ⟨4, _⟩ => ⟨S5x8, .f32⟩
  | .hbm, ⟨5, _⟩ => ⟨S8, .f32⟩
  | .hbm, ⟨6, _⟩ => ⟨S500000, .i32⟩
  | .hbm, ⟨7, _⟩ => ⟨S1x16000000, .i32⟩
  | .hbm, ⟨8, _⟩ => ⟨S16000000, .i32⟩
  | .hbm, ⟨9, _⟩ => ⟨S16500000, .i32⟩
  | .hbm, ⟨10, _⟩ => ⟨S1x16000000, .i32⟩
  | .hbm, ⟨11, _⟩ => ⟨S16000000, .i32⟩
  | .hbm, ⟨12, _⟩ => ⟨S16500000, .i32⟩
  | .hbm, ⟨13, _⟩ => ⟨S_, .f32⟩
  | .hbm, ⟨14, _⟩ => ⟨S16500000, .f32⟩
  | .hbm, ⟨15, _⟩ => ⟨S_, .f32⟩
  | .hbm, ⟨16, _⟩ => ⟨S500000, .f32⟩
  | .hbm, ⟨17, _⟩ => ⟨S16500000x1, .i32⟩
  | .hbm, ⟨18, _⟩ => ⟨S500000, .f32⟩
  | .hbm, ⟨19, _⟩ => ⟨S_, .f32⟩
  | .hbm, ⟨20, _⟩ => ⟨S500000, .f32⟩
  | .hbm, ⟨21, _⟩ => ⟨S500000, .i1⟩
  | .hbm, ⟨22, _⟩ => ⟨S500000, .f32⟩
  | .hbm, ⟨23, _⟩ => ⟨S_, .f32⟩
  | .hbm, ⟨24, _⟩ => ⟨S_, .f32⟩
  | .hbm, ⟨25, _⟩ => ⟨S500000, .f32⟩
  | .hbm, ⟨26, _⟩ => ⟨S500000, .f32⟩
  | .hbm, ⟨27, _⟩ => ⟨S_, .i32⟩
  | .hbm, ⟨28, _⟩ => ⟨S16500000, .i32⟩
  | .hbm, ⟨29, _⟩ => ⟨S16500000, .i1⟩
  | .hbm, ⟨30, _⟩ => ⟨S_, .i32⟩
  | .hbm, ⟨31, _⟩ => ⟨S16500000, .i32⟩
  | .hbm, ⟨32, _⟩ => ⟨S16500000, .i32⟩
  | .hbm, ⟨33, _⟩ => ⟨S16500000, .i32⟩
  | .hbm, ⟨34, _⟩ => ⟨S16500000x1, .i32⟩
  | .hbm, ⟨35, _⟩ => ⟨S16500000, .f32⟩
  | .hbm, ⟨36, _⟩ => ⟨S_, .i32⟩
  | .hbm, ⟨37, _⟩ => ⟨S16500000, .i32⟩
  | .hbm, ⟨38, _⟩ => ⟨S16500000, .i1⟩
  | .hbm, ⟨39, _⟩ => ⟨S_, .i32⟩
  | .hbm, ⟨40, _⟩ => ⟨S16500000, .i32⟩
  | .hbm, ⟨41, _⟩ => ⟨S16500000, .i32⟩
  | .hbm, ⟨42, _⟩ => ⟨S16500000, .i32⟩
  | .hbm, ⟨43, _⟩ => ⟨S16500000x1, .i32⟩
  | .hbm, ⟨44, _⟩ => ⟨S16500000, .f32⟩
  | .hbm, ⟨45, _⟩ => ⟨S16500000, .f32⟩
  | .hbm, ⟨46, _⟩ => ⟨S500000x5, .f32⟩
  | .hbm, ⟨47, _⟩ => ⟨S_, .i32⟩
  | .hbm, ⟨48, _⟩ => ⟨S16500000, .i32⟩
  | .hbm, ⟨49, _⟩ => ⟨S16500000, .i1⟩
  | .hbm, ⟨50, _⟩ => ⟨S_, .i32⟩
  | .hbm, ⟨51, _⟩ => ⟨S16500000, .i32⟩
  | .hbm, ⟨52, _⟩ => ⟨S16500000, .i32⟩
  | .hbm, ⟨53, _⟩ => ⟨S16500000, .i32⟩
  | .hbm, ⟨54, _⟩ => ⟨S16500000x1, .i32⟩
  | .hbm, ⟨55, _⟩ => ⟨S16500000x5, .f32⟩
  | .hbm, ⟨56, _⟩ => ⟨S16500000x1, .f32⟩
  | .hbm, ⟨57, _⟩ => ⟨S16500000x5, .f32⟩
  | .hbm, ⟨58, _⟩ => ⟨S16500000x5, .f32⟩
  | .hbm, ⟨59, _⟩ => ⟨S_, .f32⟩
  | .hbm, ⟨60, _⟩ => ⟨S500000x5, .f32⟩
  | .hbm, ⟨61, _⟩ => ⟨S16500000x1, .i32⟩
  | .hbm, ⟨62, _⟩ => ⟨S500000x5, .f32⟩
  | .hbm, ⟨63, _⟩ => ⟨S1x5, .f32⟩
  | .hbm, ⟨64, _⟩ => ⟨S500000x5, .f32⟩
  | .hbm, ⟨65, _⟩ => ⟨S500000x5, .f32⟩
  | .hbm, ⟨66, _⟩ => ⟨S_, .f32⟩
  | .hbm, ⟨67, _⟩ => ⟨S500000x5, .f32⟩
  | .hbm, ⟨68, _⟩ => ⟨S500000x5, .f32⟩
  | .hbm, ⟨69, _⟩ => ⟨S500000x8, .f32⟩
  | .hbm, ⟨70, _⟩ => ⟨S_, .i32⟩
  | .hbm, ⟨71, _⟩ => ⟨S16500000, .i32⟩
  | .hbm, ⟨72, _⟩ => ⟨S16500000, .i1⟩
  | .hbm, ⟨73, _⟩ => ⟨S_, .i32⟩
  | .hbm, ⟨74, _⟩ => ⟨S16500000, .i32⟩
  | .hbm, ⟨75, _⟩ => ⟨S16500000, .i32⟩
  | .hbm, ⟨76, _⟩ => ⟨S16500000, .i32⟩
  | .hbm, ⟨77, _⟩ => ⟨S16500000x1, .i32⟩
  | .hbm, ⟨78, _⟩ => ⟨S16500000x8, .f32⟩
  | .hbm, ⟨79, _⟩ => ⟨S16500000x1, .f32⟩
  | .hbm, ⟨80, _⟩ => ⟨S16500000x8, .f32⟩
  | .hbm, ⟨81, _⟩ => ⟨S16500000x8, .f32⟩
  | .hbm, ⟨82, _⟩ => ⟨S_, .f32⟩
  | .hbm, ⟨83, _⟩ => ⟨S500000x8, .f32⟩
  | .hbm, ⟨84, _⟩ => ⟨S16500000x1, .i32⟩
  | .hbm, ⟨85, _⟩ => ⟨S500000x8, .f32⟩
  | .hbm, ⟨86, _⟩ => ⟨S1x8, .f32⟩
  | .hbm, ⟨87, _⟩ => ⟨S500000x8, .f32⟩
  | .hbm, ⟨88, _⟩ => ⟨S500000x8, .f32⟩
  | .hbm, ⟨89, _⟩ => ⟨S_, .f32⟩
  | .hbm, ⟨90, _⟩ => ⟨S500000, .f32⟩
  | .hbm, ⟨91, _⟩ => ⟨S_, .f32⟩
  | .hbm, ⟨92, _⟩ => ⟨S500000, .f32⟩
  | .hbm, ⟨93, _⟩ => ⟨S500000, .f32⟩
  | .hbm, ⟨94, _⟩ => ⟨S500000x1, .f32⟩
  | .hbm, ⟨95, _⟩ => ⟨S500000x8, .f32⟩
  | .hbm, ⟨96, _⟩ => ⟨S500000x8, .f32⟩
  | .hbm, ⟨97, _⟩ => ⟨S500000x8, .f32⟩
  | .hbm, ⟨98, _⟩ => ⟨S_, .f32⟩
  | .hbm, ⟨99, _⟩ => ⟨S500000, .f32⟩
  | .hbm, ⟨100, _⟩ => ⟨S500000x1, .f32⟩
  | .hbm, ⟨101, _⟩ => ⟨S500000x1, .f32⟩
  | .hbm, ⟨102, _⟩ => ⟨S500000x8, .f32⟩
  | .hbm, ⟨103, _⟩ => ⟨S500000x8, .f32⟩
  | _, _ => ⟨S500000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x16000000_S1x16000000_0_0 : S2x16000000.Slices ![0, 0] S1x16000000
  shapeCasts_S1x16000000_S16000000 : S1x16000000.ShapeCasts S16000000
  concatenates_S16000000_S500000_S16500000_d0 : Shape.Concatenates [S16000000, S500000] S16500000 0
  slices_S2x16000000_S1x16000000_1_0 : S2x16000000.Slices ![1, 0] S1x16000000
  bcast_S_S16500000 : S_.BroadcastsInDim S16500000 (![] : Fin 0 → Fin S16500000.rank)
  bcast_S_S500000 : S_.BroadcastsInDim S500000 (![] : Fin 0 → Fin S500000.rank)
  bcast_S16500000_S16500000x1_0 : S16500000.BroadcastsInDim S16500000x1 (![0] : Fin 1 → Fin S16500000x1.rank)
  bcast_S16500000x1_S16500000x5_0_1 : S16500000x1.BroadcastsInDim S16500000x5 (![0, 1] : Fin 2 → Fin S16500000x5.rank)
  bcast_S_S500000x5 : S_.BroadcastsInDim S500000x5 (![] : Fin 0 → Fin S500000x5.rank)
  bcast_S5_S1x5_1 : S5.BroadcastsInDim S1x5 (![1] : Fin 1 → Fin S1x5.rank)
  bcast_S1x5_S500000x5_0_1 : S1x5.BroadcastsInDim S500000x5 (![0, 1] : Fin 2 → Fin S500000x5.rank)
  bcast_S16500000x1_S16500000x8_0_1 : S16500000x1.BroadcastsInDim S16500000x8 (![0, 1] : Fin 2 → Fin S16500000x8.rank)
  bcast_S_S500000x8 : S_.BroadcastsInDim S500000x8 (![] : Fin 0 → Fin S500000x8.rank)
  bcast_S8_S1x8_1 : S8.BroadcastsInDim S1x8 (![1] : Fin 1 → Fin S1x8.rank)
  bcast_S1x8_S500000x8_0_1 : S1x8.BroadcastsInDim S500000x8 (![0, 1] : Fin 2 → Fin S500000x8.rank)
  reducesTo_S500000x8_S500000_d1 : S500000x8.ReducesTo [1] S500000
  h_S_ : 0 < S_.numel
  bcast_S500000_S500000x1_0 : S500000.BroadcastsInDim S500000x1 (![0] : Fin 1 → Fin S500000x1.rank)
  bcast_S500000x1_S500000x8_0_1 : S500000x1.BroadcastsInDim S500000x8 (![0, 1] : Fin 2 → Fin S500000x8.rank)
  scatter_S500000_S16500000x1_S16500000_n_0_0_1_wf : ScatterDims.WF S500000 S16500000x1 S16500000 [] [0] [0] 1
  gather_S500000_S16500000x1_S16500000_n_0_n_n_0_1_1_wf : GatherDims.WF S500000 S16500000x1 S16500000 [] [0] [] [0] [] 1 ![1]
  dot_S500000x5_S5x5_S500000x5_1_0_0_1_n_n_wf : DotDims.WF S500000x5 S5x5 S500000x5 [1] [0] [0] [1] [] []
  gather_S500000x5_S16500000x1_S16500000x5_1_0_n_n_0_1_15_wf : GatherDims.WF S500000x5 S16500000x1 S16500000x5 [1] [0] [] [0] [] 1 ![1, 5]
  scatter_S500000x5_S16500000x1_S16500000x5_1_0_0_1_wf : ScatterDims.WF S500000x5 S16500000x1 S16500000x5 [1] [0] [0] 1
  dot_S500000x5_S5x8_S500000x8_1_0_0_1_n_n_wf : DotDims.WF S500000x5 S5x8 S500000x8 [1] [0] [0] [1] [] []
  gather_S500000x8_S16500000x1_S16500000x8_1_0_n_n_0_1_18_wf : GatherDims.WF S500000x8 S16500000x1 S16500000x8 [1] [0] [] [0] [] 1 ![1, 8]
  scatter_S500000x8_S16500000x1_S16500000x8_1_0_0_1_wf : ScatterDims.WF S500000x8 S16500000x1 S16500000x8 [1] [0] [0] 1

variable [Facts₀]

def scatter_S500000_S16500000x1_S16500000_n_0_0_1 : ScatterDims S500000 S16500000x1 S16500000 where
  updateWindowDims := []
  insertedWindowDims := [0]
  scatterDimsToOperandDims := [0]
  indexVectorDim := 1
  wf := scatter_S500000_S16500000x1_S16500000_n_0_0_1_wf
def gather_S500000_S16500000x1_S16500000_n_0_n_n_0_1_1 : GatherDims S500000 S16500000x1 S16500000 where
  offsetDims := []
  collapsedSliceDims := [0]
  operandBatchingDims := []
  startIndicesBatchingDims := []
  startIndexMap := [0]
  indexVectorDim := 1
  sliceSizes := ![1]
  wf := gather_S500000_S16500000x1_S16500000_n_0_n_n_0_1_1_wf
def dot_S500000x5_S5x5_S500000x5_1_0_0_1_n_n : DotDims S500000x5 S5x5 S500000x5 where
  lhsContracting := [1]
  rhsContracting := [0]
  lhsNonContracting := [0]
  rhsNonContracting := [1]
  lhsBatch := []
  rhsBatch := []
  wf := dot_S500000x5_S5x5_S500000x5_1_0_0_1_n_n_wf
def gather_S500000x5_S16500000x1_S16500000x5_1_0_n_n_0_1_15 : GatherDims S500000x5 S16500000x1 S16500000x5 where
  offsetDims := [1]
  collapsedSliceDims := [0]
  operandBatchingDims := []
  startIndicesBatchingDims := []
  startIndexMap := [0]
  indexVectorDim := 1
  sliceSizes := ![1, 5]
  wf := gather_S500000x5_S16500000x1_S16500000x5_1_0_n_n_0_1_15_wf
def scatter_S500000x5_S16500000x1_S16500000x5_1_0_0_1 : ScatterDims S500000x5 S16500000x1 S16500000x5 where
  updateWindowDims := [1]
  insertedWindowDims := [0]
  scatterDimsToOperandDims := [0]
  indexVectorDim := 1
  wf := scatter_S500000x5_S16500000x1_S16500000x5_1_0_0_1_wf
def dot_S500000x5_S5x8_S500000x8_1_0_0_1_n_n : DotDims S500000x5 S5x8 S500000x8 where
  lhsContracting := [1]
  rhsContracting := [0]
  lhsNonContracting := [0]
  rhsNonContracting := [1]
  lhsBatch := []
  rhsBatch := []
  wf := dot_S500000x5_S5x8_S500000x8_1_0_0_1_n_n_wf
def gather_S500000x8_S16500000x1_S16500000x8_1_0_n_n_0_1_18 : GatherDims S500000x8 S16500000x1 S16500000x8 where
  offsetDims := [1]
  collapsedSliceDims := [0]
  operandBatchingDims := []
  startIndicesBatchingDims := []
  startIndexMap := [0]
  indexVectorDim := 1
  sliceSizes := ![1, 8]
  wf := gather_S500000x8_S16500000x1_S16500000x8_1_0_n_n_0_1_18_wf
def scatter_S500000x8_S16500000x1_S16500000x8_1_0_0_1 : ScatterDims S500000x8 S16500000x1 S16500000x8 where
  updateWindowDims := [1]
  insertedWindowDims := [0]
  scatterDimsToOperandDims := [0]
  indexVectorDim := 1
  wf := scatter_S500000x8_S16500000x1_S16500000x8_1_0_0_1_wf

class Facts : Prop extends Facts₀ where

variable [Facts]
-- ==== Proof.RefStages.lean ====
/-
  The reference's run, read in nine stretches of its 98 host operations, each from what it finds in the buffers it
  reads: the index vectors with the degree's test and inverse square root, the selection, the per-edge weight, each
  layer in two stretches (contraction, gather and scaling; then scatter-add and bias), and the row-wise log-softmax
  in two. Each stretch ends at the stage the operation-by-operation reading of the
  program names for that buffer, so the whole list ends with the result buffer at the last stage of the arguments.
-/
import proofs.«145865_j34368328302938_1_alg».proof.Proof.RefRun
import proofs.«145865_j34368328302938_1_alg».proof.Proof.RefRead
import Idealize.ShloMosaic.Lib.StableHlo.Run
import Idealize.ShloMosaic.Lib.Pipeline.Frame

set_option maxRecDepth 16384
-- the longer stretches are rewritten one operation and one buffer at a time
set_option maxHeartbeats 4000000

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-! ## The operation list in nine stretches -/

/-- Operations 0 to 17: the two index vectors, the in-degree, its positivity test and inverse square root. -/
abbrev ops1 : List (HloOp τ sig (Elt F)) :=
  [ nullary main_v0 (iotaInDim S500000 32 0),
    unary main_arg1 main_v1 ((extractStridedSlice S1x16000000 ![0, 0] · slices_S2x16000000_S1x16000000_0_0) : (⟨S2x16000000, .i32⟩ : BufTy).Contents (Elt F) → (⟨S1x16000000, .i32⟩ : BufTy).Contents (Elt F)),
    reshape main_v1 main_v2 rfl shapeCasts_S1x16000000_S16000000,
    binary main_v2 main_v0 main_v3 ((fun a b => concatenate S16500000 0 [⟨S16000000, a⟩, ⟨S500000, b⟩] concatenates_S16000000_S500000_S16500000_d0) : (⟨S16000000, .i32⟩ : BufTy).Contents (Elt F) → (⟨S500000, .i32⟩ : BufTy).Contents (Elt F) → (⟨S16500000, .i32⟩ : BufTy).Contents (Elt F)),
    unary main_arg1 main_v4 ((extractStridedSlice S1x16000000 ![1, 0] · slices_S2x16000000_S1x16000000_1_0) : (⟨S2x16000000, .i32⟩ : BufTy).Contents (Elt F) → (⟨S1x16000000, .i32⟩ : BufTy).Contents (Elt F)),
    reshape main_v4 main_v5 rfl shapeCasts_S1x16000000_S16000000,
    binary main_v5 main_v0 main_v6 ((fun a b => concatenate S16500000 0 [⟨S16000000, a⟩, ⟨S500000, b⟩] concatenates_S16000000_S500000_S16500000_d0) : (⟨S16000000, .i32⟩ : BufTy).Contents (Elt F) → (⟨S500000, .i32⟩ : BufTy).Contents (Elt F) → (⟨S16500000, .i32⟩ : BufTy).Contents (Elt F)),
    nullary main_cst (constant S_ .f32 0x3F800000#32),
    unary main_cst main_v7 (broadcastInDim S16500000 ![] bcast_S_S16500000 : (⟨S_, .f32⟩ : BufTy).Contents (Elt F) → (⟨S16500000, .f32⟩ : BufTy).Contents (Elt F)),
    nullary main_cst_0 (constant S_ .f32 0x00000000#32),
    unary main_cst_0 main_v8 (broadcastInDim S500000 ![] bcast_S_S500000 : (⟨S_, .f32⟩ : BufTy).Contents (Elt F) → (⟨S500000, .f32⟩ : BufTy).Contents (Elt F)),
    unary main_v6 main_v9 (broadcastInDim S16500000x1 ![0] bcast_S16500000_S16500000x1_0 : (⟨S16500000, .i32⟩ : BufTy).Contents (Elt F) → (⟨S16500000x1, .i32⟩ : BufTy).Contents (Elt F)),
    ternary main_v8 main_v9 main_v7 main_v10 ((fun x i u => Host.scatterAdd scatter_S500000_S16500000x1_S16500000_n_0_0_1 x i u) : (⟨S500000, .f32⟩ : BufTy).Contents (Elt F) → (⟨S16500000x1, .i32⟩ : BufTy).Contents (Elt F) → (⟨S16500000, .f32⟩ : BufTy).Contents (Elt F) → (⟨S500000, .f32⟩ : BufTy).Contents (Elt F)),
    nullary main_cst_1 (constant S_ .f32 0x00000000#32),
    unary main_cst_1 main_v11 (broadcastInDim S500000 ![] bcast_S_S500000 : (⟨S_, .f32⟩ : BufTy).Contents (Elt F) → (⟨S500000, .f32⟩ : BufTy).Contents (Elt F)),
    binary main_v10 main_v11 main_v12 (cmpf (F := F) .ogt : (⟨S500000, .f32⟩ : BufTy).Contents (Elt F) → (⟨S500000, .f32⟩ : BufTy).Contents (Elt F) → (⟨S500000, .i1⟩ : BufTy).Contents (Elt F)),
    unary main_v10 main_v13 (Host.rsqrt : (⟨S500000, .f32⟩ : BufTy).Contents (Elt F) → (⟨S500000, .f32⟩ : BufTy).Contents (Elt F)),
    nullary main_cst_2 (constant S_ .f32 0x00000000#32) ]
/-- Operations 18 to 20: the selection of the inverse square root where the degree is positive. -/
abbrev ops2 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S500000, .f32⟩) main_call0_v1) (broadcastInDim S500000 ![] bcast_S_S500000),
    TRef.ternary (TRef.of (T := ⟨S500000, .i1⟩) main_v12) (TRef.of (T := ⟨S500000, .f32⟩) main_v13) (TRef.of (T := ⟨S500000, .f32⟩) main_call0_v1) (TRef.of (T := ⟨S500000, .f32⟩) main_v14) select ]
/-- Operations 21 to 39: the two gathers of the selected quantity and their product, the per-edge weight. -/
abbrev ops3 : List (HloOp τ sig (Elt F)) :=
  [ nullary main_c (constantI S_ 32 0#32),
    unary main_c main_v15 (broadcastInDim S16500000 ![] bcast_S_S16500000 : (⟨S_, .i32⟩ : BufTy).Contents (Elt F) → (⟨S16500000, .i32⟩ : BufTy).Contents (Elt F)),
    binary main_v3 main_v15 main_v16 (cmpi .slt : (⟨S16500000, .i32⟩ : BufTy).Contents (Elt F) → (⟨S16500000, .i32⟩ : BufTy).Contents (Elt F) → (⟨S16500000, .i1⟩ : BufTy).Contents (Elt F)),
    nullary main_c_3 (constantI S_ 32 500000#32),
    unary main_c_3 main_v17 (broadcastInDim S16500000 ![] bcast_S_S16500000 : (⟨S_, .i32⟩ : BufTy).Contents (Elt F) → (⟨S16500000, .i32⟩ : BufTy).Contents (Elt F)),
    binary main_v3 main_v17 main_v18 (addi : (⟨S16500000, .i32⟩ : BufTy).Contents (Elt F) → (⟨S16500000, .i32⟩ : BufTy).Contents (Elt F) → (⟨S16500000, .i32⟩ : BufTy).Contents (Elt F)),
    ternary main_v16 main_v18 main_v3 main_v19 (select : (⟨S16500000, .i1⟩ : BufTy).Contents (Elt F) → (⟨S16500000, .i32⟩ : BufTy).Contents (Elt F) → (⟨S16500000, .i32⟩ : BufTy).Contents (Elt F) → (⟨S16500000, .i32⟩ : BufTy).Contents (Elt F)),
    unary main_v19 main_v20 (broadcastInDim S16500000x1 ![0] bcast_S16500000_S16500000x1_0 : (⟨S16500000, .i32⟩ : BufTy).Contents (Elt F) → (⟨S16500000x1, .i32⟩ : BufTy).Contents (Elt F)),
    binary main_v14 main_v20 main_v21 ((fun x i => Host.gather gather_S500000_S16500000x1_S16500000_n_0_n_n_0_1_1 x i) : (⟨S500000, .f32⟩ : BufTy).Contents (Elt F) → (⟨S16500000x1, .i32⟩ : BufTy).Contents (Elt F) → (⟨S16500000, .f32⟩ : BufTy).Contents (Elt F)),
    nullary main_c_4 (constantI S_ 32 0#32),
    unary main_c_4 main_v22 (broadcastInDim S16500000 ![] bcast_S_S16500000 : (⟨S_, .i32⟩ : BufTy).Contents (Elt F) → (⟨S16500000, .i32⟩ : BufTy).Contents (Elt F)),
    binary main_v6 main_v22 main_v23 (cmpi .slt : (⟨S16500000, .i32⟩ : BufTy).Contents (Elt F) → (⟨S16500000, .i32⟩ : BufTy).Contents (Elt F) → (⟨S16500000, .i1⟩ : BufTy).Contents (Elt F)),
    nullary main_c_5 (constantI S_ 32 500000#32),
    unary main_c_5 main_v24 (broadcastInDim S16500000 ![] bcast_S_S16500000 : (⟨S_, .i32⟩ : BufTy).Contents (Elt F) → (⟨S16500000, .i32⟩ : BufTy).Contents (Elt F)),
    binary main_v6 main_v24 main_v25 (addi : (⟨S16500000, .i32⟩ : BufTy).Contents (Elt F) → (⟨S16500000, .i32⟩ : BufTy).Contents (Elt F) → (⟨S16500000, .i32⟩ : BufTy).Contents (Elt F)),
    ternary main_v23 main_v25 main_v6 main_v26 (select : (⟨S16500000, .i1⟩ : BufTy).Contents (Elt F) → (⟨S16500000, .i32⟩ : BufTy).Contents (Elt F) → (⟨S16500000, .i32⟩ : BufTy).Contents (Elt F) → (⟨S16500000, .i32⟩ : BufTy).Contents (Elt F)),
    unary main_v26 main_v27 (broadcastInDim S16500000x1 ![0] bcast_S16500000_S16500000x1_0 : (⟨S16500000, .i32⟩ : BufTy).Contents (Elt F) → (⟨S16500000x1, .i32⟩ : BufTy).Contents (Elt F)),
    binary main_v14 main_v27 main_v28 ((fun x i => Host.gather gather_S500000_S16500000x1_S16500000_n_0_n_n_0_1_1 x i) : (⟨S500000, .f32⟩ : BufTy).Contents (Elt F) → (⟨S16500000x1, .i32⟩ : BufTy).Contents (Elt F) → (⟨S16500000, .f32⟩ : BufTy).Contents (Elt F)),
    binary main_v21 main_v28 main_v29 (mulf : (⟨S16500000, .f32⟩ : BufTy).Contents (Elt F) → (⟨S16500000, .f32⟩ : BufTy).Contents (Elt F) → (⟨S16500000, .f32⟩ : BufTy).Contents (Elt F)) ]
/-- Operations 40 to 52: layer 1: the dense contraction, the gather by source and the scaling by the edge weight. -/
abbrev ops4 : List (HloOp τ sig (Elt F)) :=
  [ binary main_arg0 main_arg2 main_v30 ((fun l r => Host.dotGeneral dot_S500000x5_S5x5_S500000x5_1_0_0_1_n_n none l r) : (⟨S500000x5, .f32⟩ : BufTy).Contents (Elt F) → (⟨S5x5, .f32⟩ : BufTy).Contents (Elt F) → (⟨S500000x5, .f32⟩ : BufTy).Contents (Elt F)),
    nullary main_c_6 (constantI S_ 32 0#32),
    unary main_c_6 main_v31 (broadcastInDim S16500000 ![] bcast_S_S16500000 : (⟨S_, .i32⟩ : BufTy).Contents (Elt F) → (⟨S16500000, .i32⟩ : BufTy).Contents (Elt F)),
    binary main_v3 main_v31 main_v32 (cmpi .slt : (⟨S16500000, .i32⟩ : BufTy).Contents (Elt F) → (⟨S16500000, .i32⟩ : BufTy).Contents (Elt F) → (⟨S16500000, .i1⟩ : BufTy).Contents (Elt F)),
    nullary main_c_7 (constantI S_ 32 500000#32),
    unary main_c_7 main_v33 (broadcastInDim S16500000 ![] bcast_S_S16500000 : (⟨S_, .i32⟩ : BufTy).Contents (Elt F) → (⟨S16500000, .i32⟩ : BufTy).Contents (Elt F)),
    binary main_v3 main_v33 main_v34 (addi : (⟨S16500000, .i32⟩ : BufTy).Contents (Elt F) → (⟨S16500000, .i32⟩ : BufTy).Contents (Elt F) → (⟨S16500000, .i32⟩ : BufTy).Contents (Elt F)),
    ternary main_v32 main_v34 main_v3 main_v35 (select : (⟨S16500000, .i1⟩ : BufTy).Contents (Elt F) → (⟨S16500000, .i32⟩ : BufTy).Contents (Elt F) → (⟨S16500000, .i32⟩ : BufTy).Contents (Elt F) → (⟨S16500000, .i32⟩ : BufTy).Contents (Elt F)),
    unary main_v35 main_v36 (broadcastInDim S16500000x1 ![0] bcast_S16500000_S16500000x1_0 : (⟨S16500000, .i32⟩ : BufTy).Contents (Elt F) → (⟨S16500000x1, .i32⟩ : BufTy).Contents (Elt F)),
    binary main_v30 main_v36 main_v37 ((fun x i => Host.gather gather_S500000x5_S16500000x1_S16500000x5_1_0_n_n_0_1_15 x i) : (⟨S500000x5, .f32⟩ : BufTy).Contents (Elt F) → (⟨S16500000x1, .i32⟩ : BufTy).Contents (Elt F) → (⟨S16500000x5, .f32⟩ : BufTy).Contents (Elt F)),
    unary main_v29 main_v38 (broadcastInDim S16500000x1 ![0] bcast_S16500000_S16500000x1_0 : (⟨S16500000, .f32⟩ : BufTy).Contents (Elt F) → (⟨S16500000x1, .f32⟩ : BufTy).Contents (Elt F)),
    unary main_v38 main_v39 (broadcastInDim S16500000x5 ![0, 1] bcast_S16500000x1_S16500000x5_0_1 : (⟨S16500000x1, .f32⟩ : BufTy).Contents (Elt F) → (⟨S16500000x5, .f32⟩ : BufTy).Contents (Elt F)),
    binary main_v37 main_v39 main_v40 (mulf : (⟨S16500000x5, .f32⟩ : BufTy).Contents (Elt F) → (⟨S16500000x5, .f32⟩ : BufTy).Contents (Elt F) → (⟨S16500000x5, .f32⟩ : BufTy).Contents (Elt F)) ]
/-- Operations 53 to 62: layer 1: the scatter-add by destination, the bias and the rectifier. -/
abbrev ops5 : List (HloOp τ sig (Elt F)) :=
  [ nullary main_cst_8 (constant S_ .f32 0x00000000#32),
    unary main_cst_8 main_v41 (broadcastInDim S500000x5 ![] bcast_S_S500000x5 : (⟨S_, .f32⟩ : BufTy).Contents (Elt F) → (⟨S500000x5, .f32⟩ : BufTy).Contents (Elt F)),
    unary main_v6 main_v42 (broadcastInDim S16500000x1 ![0] bcast_S16500000_S16500000x1_0 : (⟨S16500000, .i32⟩ : BufTy).Contents (Elt F) → (⟨S16500000x1, .i32⟩ : BufTy).Contents (Elt F)),
    ternary main_v41 main_v42 main_v40 main_v43 ((fun x i u => Host.scatterAdd scatter_S500000x5_S16500000x1_S16500000x5_1_0_0_1 x i u) : (⟨S500000x5, .f32⟩ : BufTy).Contents (Elt F) → (⟨S16500000x1, .i32⟩ : BufTy).Contents (Elt F) → (⟨S16500000x5, .f32⟩ : BufTy).Contents (Elt F) → (⟨S500000x5, .f32⟩ : BufTy).Contents (Elt F)),
    unary main_arg3 main_v44 (broadcastInDim S1x5 ![1] bcast_S5_S1x5_1 : (⟨S5, .f32⟩ : BufTy).Contents (Elt F) → (⟨S1x5, .f32⟩ : BufTy).Contents (Elt F)),
    unary main_v44 main_v45 (broadcastInDim S500000x5 ![0, 1] bcast_S1x5_S500000x5_0_1 : (⟨S1x5, .f32⟩ : BufTy).Contents (Elt F) → (⟨S500000x5, .f32⟩ : BufTy).Contents (Elt F)),
    binary main_v43 main_v45 main_v46 (addf : (⟨S500000x5, .f32⟩ : BufTy).Contents (Elt F) → (⟨S500000x5, .f32⟩ : BufTy).Contents (Elt F) → (⟨S500000x5, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S500000x5, .f32⟩) main_call1_v0) (broadcastInDim S500000x5 ![] bcast_S_S500000x5),
    TRef.binary (TRef.of (T := ⟨S500000x5, .f32⟩) main_v46) (TRef.of (T := ⟨S500000x5, .f32⟩) main_call1_v0) (TRef.of (T := ⟨S500000x5, .f32⟩) main_v47) maximumf ]
/-- Operations 63 to 75: layer 2: the dense contraction, the gather by source and the scaling by the edge weight. -/
abbrev ops6 : List (HloOp τ sig (Elt F)) :=
  [ binary main_v47 main_arg4 main_v48 ((fun l r => Host.dotGeneral dot_S500000x5_S5x8_S500000x8_1_0_0_1_n_n none l r) : (⟨S500000x5, .f32⟩ : BufTy).Contents (Elt F) → (⟨S5x8, .f32⟩ : BufTy).Contents (Elt F) → (⟨S500000x8, .f32⟩ : BufTy).Contents (Elt F)),
    nullary main_c_9 (constantI S_ 32 0#32),
    unary main_c_9 main_v49 (broadcastInDim S16500000 ![] bcast_S_S16500000 : (⟨S_, .i32⟩ : BufTy).Contents (Elt F) → (⟨S16500000, .i32⟩ : BufTy).Contents (Elt F)),
    binary main_v3 main_v49 main_v50 (cmpi .slt : (⟨S16500000, .i32⟩ : BufTy).Contents (Elt F) → (⟨S16500000, .i32⟩ : BufTy).Contents (Elt F) → (⟨S16500000, .i1⟩ : BufTy).Contents (Elt F)),
    nullary main_c_10 (constantI S_ 32 500000#32),
    unary main_c_10 main_v51 (broadcastInDim S16500000 ![] bcast_S_S16500000 : (⟨S_, .i32⟩ : BufTy).Contents (Elt F) → (⟨S16500000, .i32⟩ : BufTy).Contents (Elt F)),
    binary main_v3 main_v51 main_v52 (addi : (⟨S16500000, .i32⟩ : BufTy).Contents (Elt F) → (⟨S16500000, .i32⟩ : BufTy).Contents (Elt F) → (⟨S16500000, .i32⟩ : BufTy).Contents (Elt F)),
    ternary main_v50 main_v52 main_v3 main_v53 (select : (⟨S16500000, .i1⟩ : BufTy).Contents (Elt F) → (⟨S16500000, .i32⟩ : BufTy).Contents (Elt F) → (⟨S16500000, .i32⟩ : BufTy).Contents (Elt F) → (⟨S16500000, .i32⟩ : BufTy).Contents (Elt F)),
    unary main_v53 main_v54 (broadcastInDim S16500000x1 ![0] bcast_S16500000_S16500000x1_0 : (⟨S16500000, .i32⟩ : BufTy).Contents (Elt F) → (⟨S16500000x1, .i32⟩ : BufTy).Contents (Elt F)),
    binary main_v48 main_v54 main_v55 ((fun x i => Host.gather gather_S500000x8_S16500000x1_S16500000x8_1_0_n_n_0_1_18 x i) : (⟨S500000x8, .f32⟩ : BufTy).Contents (Elt F) → (⟨S16500000x1, .i32⟩ : BufTy).Contents (Elt F) → (⟨S16500000x8, .f32⟩ : BufTy).Contents (Elt F)),
    unary main_v29 main_v56 (broadcastInDim S16500000x1 ![0] bcast_S16500000_S16500000x1_0 : (⟨S16500000, .f32⟩ : BufTy).Contents (Elt F) → (⟨S16500000x1, .f32⟩ : BufTy).Contents (Elt F)),
    unary main_v56 main_v57 (broadcastInDim S16500000x8 ![0, 1] bcast_S16500000x1_S16500000x8_0_1 : (⟨S16500000x1, .f32⟩ : BufTy).Contents (Elt F) → (⟨S16500000x8, .f32⟩ : BufTy).Contents (Elt F)),
    binary main_v55 main_v57 main_v58 (mulf : (⟨S16500000x8, .f32⟩ : BufTy).Contents (Elt F) → (⟨S16500000x8, .f32⟩ : BufTy).Contents (Elt F) → (⟨S16500000x8, .f32⟩ : BufTy).Contents (Elt F)) ]
/-- Operations 76 to 82: layer 2: the scatter-add by destination and the bias. -/
abbrev ops7 : List (HloOp τ sig (Elt F)) :=
  [ nullary main_cst_11 (constant S_ .f32 0x00000000#32),
    unary main_cst_11 main_v59 (broadcastInDim S500000x8 ![] bcast_S_S500000x8 : (⟨S_, .f32⟩ : BufTy).Contents (Elt F) → (⟨S500000x8, .f32⟩ : BufTy).Contents (Elt F)),
    unary main_v6 main_v60 (broadcastInDim S16500000x1 ![0] bcast_S16500000_S16500000x1_0 : (⟨S16500000, .i32⟩ : BufTy).Contents (Elt F) → (⟨S16500000x1, .i32⟩ : BufTy).Contents (Elt F)),
    ternary main_v59 main_v60 main_v58 main_v61 ((fun x i u => Host.scatterAdd scatter_S500000x8_S16500000x1_S16500000x8_1_0_0_1 x i u) : (⟨S500000x8, .f32⟩ : BufTy).Contents (Elt F) → (⟨S16500000x1, .i32⟩ : BufTy).Contents (Elt F) → (⟨S16500000x8, .f32⟩ : BufTy).Contents (Elt F) → (⟨S500000x8, .f32⟩ : BufTy).Contents (Elt F)),
    unary main_arg5 main_v62 (broadcastInDim S1x8 ![1] bcast_S8_S1x8_1 : (⟨S8, .f32⟩ : BufTy).Contents (Elt F) → (⟨S1x8, .f32⟩ : BufTy).Contents (Elt F)),
    unary main_v62 main_v63 (broadcastInDim S500000x8 ![0, 1] bcast_S1x8_S500000x8_0_1 : (⟨S1x8, .f32⟩ : BufTy).Contents (Elt F) → (⟨S500000x8, .f32⟩ : BufTy).Contents (Elt F)),
    binary main_v61 main_v63 main_v64 (addf : (⟨S500000x8, .f32⟩ : BufTy).Contents (Elt F) → (⟨S500000x8, .f32⟩ : BufTy).Contents (Elt F) → (⟨S500000x8, .f32⟩ : BufTy).Contents (Elt F)) ]
/-- Operations 83 to 90: the log-softmax's row maximum and the shifted array. -/
abbrev ops8 : List (HloOp τ sig (Elt F)) :=
  [ TRef.nullary (TRef.of (T := ⟨S_, .f32⟩) main_call2_cst) (constant S_ .f32 0xFF800000#32),
    TRef.binary (TRef.of (T := ⟨S500000x8, .f32⟩) main_v64) (TRef.of (T := ⟨S_, .f32⟩) main_call2_cst) (TRef.of (T := ⟨S500000, .f32⟩) main_call2_v0) (fun x v => Host.reduce FloatOps.maximumf x v reducesTo_S500000x8_S500000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S500000, .f32⟩) main_call2_v1) (broadcastInDim S500000 ![] bcast_S_S500000),
    TRef.binary (TRef.of (T := ⟨S500000, .f32⟩) main_call2_v1) (TRef.of (T := ⟨S500000, .f32⟩) main_call2_v0) (TRef.of (T := ⟨S500000, .f32⟩) main_call2_v2) maximumf,
    TRef.unary (TRef.of (T := ⟨S500000, .f32⟩) main_call2_v2) (TRef.of (T := ⟨S500000x1, .f32⟩) main_call2_v3) (broadcastInDim S500000x1 ![0] bcast_S500000_S500000x1_0),
    TRef.unary (TRef.of (T := ⟨S500000x1, .f32⟩) main_call2_v3) (TRef.of (T := ⟨S500000x8, .f32⟩) main_call2_v4) (broadcastInDim S500000x8 ![0, 1] bcast_S500000x1_S500000x8_0_1),
    TRef.binary (TRef.of (T := ⟨S500000x8, .f32⟩) main_v64) (TRef.of (T := ⟨S500000x8, .f32⟩) main_call2_v4) (TRef.of (T := ⟨S500000x8, .f32⟩) main_call2_v5) subf ]
/-- Operations 91 to 97: the log-softmax's row sums of exponentials, their logarithm, the result. -/
abbrev ops9 : List (HloOp τ sig (Elt F)) :=
  [ TRef.unary (TRef.of (T := ⟨S500000x8, .f32⟩) main_call2_v5) (TRef.of (T := ⟨S500000x8, .f32⟩) main_call2_v6) Host.exp,
    TRef.nullary (TRef.of (T := ⟨S_, .f32⟩) main_call2_cst_1) (constant S_ .f32 0x00000000#32),
    TRef.binary (TRef.of (T := ⟨S500000x8, .f32⟩) main_call2_v6) (TRef.of (T := ⟨S_, .f32⟩) main_call2_cst_1) (TRef.of (T := ⟨S500000, .f32⟩) main_call2_v7) (fun x v => Host.reduceAdd x v reducesTo_S500000x8_S500000_d1 h_S_),
    TRef.unary (TRef.of (T := ⟨S500000, .f32⟩) main_call2_v7) (TRef.of (T := ⟨S500000x1, .f32⟩) main_call2_v8) (broadcastInDim S500000x1 ![0] bcast_S500000_S500000x1_0),
    TRef.unary (TRef.of (T := ⟨S500000x1, .f32⟩) main_call2_v8) (TRef.of (T := ⟨S500000x1, .f32⟩) main_call2_v9) Host.log,
    TRef.unary (TRef.of (T := ⟨S500000x1, .f32⟩) main_call2_v9) (TRef.of (T := ⟨S500000x8, .f32⟩) main_call2_v10) (broadcastInDim S500000x8 ![0, 1] bcast_S500000x1_S500000x8_0_1),
    TRef.binary (TRef.of (T := ⟨S500000x8, .f32⟩) main_call2_v5) (TRef.of (T := ⟨S500000x8, .f32⟩) main_call2_v10) (TRef.of (T := ⟨S500000x8, .f32⟩) main_v65) subf ]

/-- The program's operation list is the nine stretches end to end. -/
theorem ops_split : (Cert.ReferenceIdeal.ValueP.ops : List (HloOp τ sig (Elt F))) = ops1 ++ (ops2 ++ (ops3 ++ (ops4 ++ (ops5 ++ (ops6 ++ (ops7 ++ (ops8 ++ (ops9)))))))) := rfl

/-! ## Buffers a stretch does not write keep their contents -/

theorem keep1_arg0 (X : Valuation τ sig (Elt F)) : after ops1 X (Proc.devRef .tc main_arg0) = X (Proc.devRef .tc main_arg0) := by
  after_results <;> rfl
theorem keep1_arg2 (X : Valuation τ sig (Elt F)) : after ops1 X (Proc.devRef .tc main_arg2) = X (Proc.devRef .tc main_arg2) := by
  after_results <;> rfl
theorem keep1_arg3 (X : Valuation τ sig (Elt F)) : after ops1 X (Proc.devRef .tc main_arg3) = X (Proc.devRef .tc main_arg3) := by
  after_results <;> rfl
theorem keep1_arg4 (X : Valuation τ sig (Elt F)) : after ops1 X (Proc.devRef .tc main_arg4) = X (Proc.devRef .tc main_arg4) := by
  after_results <;> rfl
theorem keep1_arg5 (X : Valuation τ sig (Elt F)) : after ops1 X (Proc.devRef .tc main_arg5) = X (Proc.devRef .tc main_arg5) := by
  after_results <;> rfl
theorem keep2_v3 (X : Valuation τ sig (Elt F)) : after ops2 X (Proc.devRef .tc main_v3) = X (Proc.devRef .tc main_v3) := by
  after_results <;> rfl
theorem keep2_v6 (X : Valuation τ sig (Elt F)) : after ops2 X (Proc.devRef .tc main_v6) = X (Proc.devRef .tc main_v6) := by
  after_results <;> rfl
theorem keep2_arg0 (X : Valuation τ sig (Elt F)) : after ops2 X (Proc.devRef .tc main_arg0) = X (Proc.devRef .tc main_arg0) := by
  after_results <;> rfl
theorem keep2_arg2 (X : Valuation τ sig (Elt F)) : after ops2 X (Proc.devRef .tc main_arg2) = X (Proc.devRef .tc main_arg2) := by
  after_results <;> rfl
theorem keep2_arg3 (X : Valuation τ sig (Elt F)) : after ops2 X (Proc.devRef .tc main_arg3) = X (Proc.devRef .tc main_arg3) := by
  after_results <;> rfl
theorem keep2_arg4 (X : Valuation τ sig (Elt F)) : after ops2 X (Proc.devRef .tc main_arg4) = X (Proc.devRef .tc main_arg4) := by
  after_results <;> rfl
theorem keep2_arg5 (X : Valuation τ sig (Elt F)) : after ops2 X (Proc.devRef .tc main_arg5) = X (Proc.devRef .tc main_arg5) := by
  after_results <;> rfl
theorem keep3_v3 (X : Valuation τ sig (Elt F)) : after ops3 X (Proc.devRef .tc main_v3) = X (Proc.devRef .tc main_v3) := by
  after_results <;> rfl
theorem keep3_v6 (X : Valuation τ sig (Elt F)) : after ops3 X (Proc.devRef .tc main_v6) = X (Proc.devRef .tc main_v6) := by
  after_results <;> rfl
theorem keep3_arg0 (X : Valuation τ sig (Elt F)) : after ops3 X (Proc.devRef .tc main_arg0) = X (Proc.devRef .tc main_arg0) := by
  after_results <;> rfl
theorem keep3_arg2 (X : Valuation τ sig (Elt F)) : after ops3 X (Proc.devRef .tc main_arg2) = X (Proc.devRef .tc main_arg2) := by
  after_results <;> rfl
theorem keep3_arg3 (X : Valuation τ sig (Elt F)) : after ops3 X (Proc.devRef .tc main_arg3) = X (Proc.devRef .tc main_arg3) := by
  after_results <;> rfl
theorem keep3_arg4 (X : Valuation τ sig (Elt F)) : after ops3 X (Proc.devRef .tc main_arg4) = X (Proc.devRef .tc main_arg4) := by
  after_results <;> rfl
theorem keep3_arg5 (X : Valuation τ sig (Elt F)) : after ops3 X (Proc.devRef .tc main_arg5) = X (Proc.devRef .tc main_arg5) := by
  after_results <;> rfl
theorem keep4_v3 (X : Valuation τ sig (Elt F)) : after ops4 X (Proc.devRef .tc main_v3) = X (Proc.devRef .tc main_v3) := by
  after_results <;> rfl
theorem keep4_v6 (X : Valuation τ sig (Elt F)) : after ops4 X (Proc.devRef .tc main_v6) = X (Proc.devRef .tc main_v6) := by
  after_results <;> rfl
theorem keep4_v29 (X : Valuation τ sig (Elt F)) : after ops4 X (Proc.devRef .tc main_v29) = X (Proc.devRef .tc main_v29) := by
  after_results <;> rfl
theorem keep4_arg3 (X : Valuation τ sig (Elt F)) : after ops4 X (Proc.devRef .tc main_arg3) = X (Proc.devRef .tc main_arg3) := by
  after_results <;> rfl
theorem keep4_arg4 (X : Valuation τ sig (Elt F)) : after ops4 X (Proc.devRef .tc main_arg4) = X (Proc.devRef .tc main_arg4) := by
  after_results <;> rfl
theorem keep4_arg5 (X : Valuation τ sig (Elt F)) : after ops4 X (Proc.devRef .tc main_arg5) = X (Proc.devRef .tc main_arg5) := by
  after_results <;> rfl
theorem keep5_v3 (X : Valuation τ sig (Elt F)) : after ops5 X (Proc.devRef .tc main_v3) = X (Proc.devRef .tc main_v3) := by
  after_results <;> rfl
theorem keep5_v6 (X : Valuation τ sig (Elt F)) : after ops5 X (Proc.devRef .tc main_v6) = X (Proc.devRef .tc main_v6) := by
  after_results <;> rfl
theorem keep5_v29 (X : Valuation τ sig (Elt F)) : after ops5 X (Proc.devRef .tc main_v29) = X (Proc.devRef .tc main_v29) := by
  after_results <;> rfl
theorem keep5_arg4 (X : Valuation τ sig (Elt F)) : after ops5 X (Proc.devRef .tc main_arg4) = X (Proc.devRef .tc main_arg4) := by
  after_results <;> rfl
theorem keep5_arg5 (X : Valuation τ sig (Elt F)) : after ops5 X (Proc.devRef .tc main_arg5) = X (Proc.devRef .tc main_arg5) := by
  after_results <;> rfl
theorem keep6_v6 (X : Valuation τ sig (Elt F)) : after ops6 X (Proc.devRef .tc main_v6) = X (Proc.devRef .tc main_v6) := by
  after_results <;> rfl
theorem keep6_arg5 (X : Valuation τ sig (Elt F)) : after ops6 X (Proc.devRef .tc main_arg5) = X (Proc.devRef .tc main_arg5) := by
  after_results <;> rfl

/-! ## The stretches

The operations of an inlined callee carry each value to its buffer's own type and back; those transports are along
equations that hold by computation, so each is the identity, and they are taken off before two stages are compared. -/

/-- Contents carried to a buffer's own type and back are the contents. -/
theorem ofBuf_toBuf {T : BufTy} (x : TRef sig T) (v : T.Contents (Elt F)) : x.ofBuf (x.toBuf v) = v := by
  obtain ⟨r, h, h2, h3⟩ := x
  subst h
  rfl

theorem s1_src (X : Valuation τ sig (Elt F)) : after ops1 X (Proc.devRef .tc main_v3) = val_main_v3 (F := F) (X (Proc.devRef .tc main_arg1)) := by
  after_results <;> rfl
theorem s1_dst (X : Valuation τ sig (Elt F)) : after ops1 X (Proc.devRef .tc main_v6) = val_main_v6 (F := F) (X (Proc.devRef .tc main_arg1)) := by
  after_results <;> rfl
theorem s1_pos (X : Valuation τ sig (Elt F)) : after ops1 X (Proc.devRef .tc main_v12) = val_main_v12 (F := F) (X (Proc.devRef .tc main_arg1)) := by
  after_results <;> rfl
theorem s1_rsqrt (X : Valuation τ sig (Elt F)) : after ops1 X (Proc.devRef .tc main_v13) = val_main_v13 (F := F) (X (Proc.devRef .tc main_arg1)) := by
  after_results <;> rfl
theorem s1_zero (X : Valuation τ sig (Elt F)) : after ops1 X (Proc.devRef .tc main_cst_2) = val_main_cst_2 (F := F) := by
  after_results <;> rfl

theorem s2_dinv (X : Valuation τ sig (Elt F)) (e : (⟨S2x16000000, .i32⟩ : BufTy).Contents (Elt F))
    (h12 : X (Proc.devRef .tc main_v12) = val_main_v12 (F := F) e) (h13 : X (Proc.devRef .tc main_v13) = val_main_v13 (F := F) e)
    (hc : X (Proc.devRef .tc main_cst_2) = val_main_cst_2 (F := F)) :
    after ops2 X (Proc.devRef .tc main_v14) = val_main_v14 (F := F) e := by
  have i12 : ∀ Z : (⟨S500000, .i1⟩ : BufTy).Contents (Elt F), (TRef.of (T := ⟨S500000, .i1⟩) main_v12).ofBuf Z = Z := fun _ => rfl
  have i13 : ∀ Z : (⟨S500000, .f32⟩ : BufTy).Contents (Elt F), (TRef.of (T := ⟨S500000, .f32⟩) main_v13).ofBuf Z = Z := fun _ => rfl
  have ic : ∀ Z : (⟨S_, .f32⟩ : BufTy).Contents (Elt F), (TRef.of (T := ⟨S_, .f32⟩) main_cst_2).ofBuf Z = Z := fun _ => rfl
  have o14 : ∀ Z : (⟨S500000, .f32⟩ : BufTy).Contents (Elt F), (TRef.of (T := ⟨S500000, .f32⟩) main_v14).toBuf Z = Z := fun _ => rfl
  after_results_simp
  rw [h12, h13, hc]
  simp only [ofBuf_toBuf]
  rw [o14, i12, i13, ic]
  rfl

theorem s3_norm (X : Valuation τ sig (Elt F)) (e : (⟨S2x16000000, .i32⟩ : BufTy).Contents (Elt F))
    (h3 : X (Proc.devRef .tc main_v3) = val_main_v3 (F := F) e) (h6 : X (Proc.devRef .tc main_v6) = val_main_v6 (F := F) e)
    (h14 : X (Proc.devRef .tc main_v14) = val_main_v14 (F := F) e) :
    after ops3 X (Proc.devRef .tc main_v29) = val_main_v29 (F := F) e := by
  after_results
  rw [h3, h6, h14]
  rfl

theorem s4_msg (X : Valuation τ sig (Elt F)) (e : (⟨S2x16000000, .i32⟩ : BufTy).Contents (Elt F)) (x0 : (⟨S500000x5, .f32⟩ : BufTy).Contents (Elt F)) (x2 : (⟨S5x5, .f32⟩ : BufTy).Contents (Elt F))
    (h3 : X (Proc.devRef .tc main_v3) = val_main_v3 (F := F) e) (h29 : X (Proc.devRef .tc main_v29) = val_main_v29 (F := F) e)
    (ha0 : X (Proc.devRef .tc main_arg0) = x0) (ha2 : X (Proc.devRef .tc main_arg2) = x2) :
    after ops4 X (Proc.devRef .tc main_v40) = val_main_v40 (F := F) x0 e x2 := by
  after_results
  rw [h3, h29, ha0, ha2]
  rfl

theorem s5_out (X : Valuation τ sig (Elt F)) (e : (⟨S2x16000000, .i32⟩ : BufTy).Contents (Elt F)) (x0 : (⟨S500000x5, .f32⟩ : BufTy).Contents (Elt F)) (x2 : (⟨S5x5, .f32⟩ : BufTy).Contents (Elt F)) (x3 : (⟨S5, .f32⟩ : BufTy).Contents (Elt F))
    (h40 : X (Proc.devRef .tc main_v40) = val_main_v40 (F := F) x0 e x2) (h6 : X (Proc.devRef .tc main_v6) = val_main_v6 (F := F) e)
    (ha3 : X (Proc.devRef .tc main_arg3) = x3) :
    after ops5 X (Proc.devRef .tc main_v47) = val_main_v47 (F := F) x0 e x2 x3 := by
  have i46 : ∀ Z : (⟨S500000x5, .f32⟩ : BufTy).Contents (Elt F), (TRef.of (T := ⟨S500000x5, .f32⟩) main_v46).ofBuf Z = Z := fun _ => rfl
  have o47 : ∀ Z : (⟨S500000x5, .f32⟩ : BufTy).Contents (Elt F), (TRef.of (T := ⟨S500000x5, .f32⟩) main_v47).toBuf Z = Z := fun _ => rfl
  after_results_simp
  rw [h40, h6, ha3]
  simp only [ofBuf_toBuf]
  rw [o47, i46]
  rfl

theorem s6_msg (X : Valuation τ sig (Elt F)) (e : (⟨S2x16000000, .i32⟩ : BufTy).Contents (Elt F)) (x0 : (⟨S500000x5, .f32⟩ : BufTy).Contents (Elt F)) (x2 : (⟨S5x5, .f32⟩ : BufTy).Contents (Elt F)) (x3 : (⟨S5, .f32⟩ : BufTy).Contents (Elt F)) (x4 : (⟨S5x8, .f32⟩ : BufTy).Contents (Elt F))
    (h47 : X (Proc.devRef .tc main_v47) = val_main_v47 (F := F) x0 e x2 x3)
    (h3 : X (Proc.devRef .tc main_v3) = val_main_v3 (F := F) e) (h29 : X (Proc.devRef .tc main_v29) = val_main_v29 (F := F) e)
    (ha4 : X (Proc.devRef .tc main_arg4) = x4) :
    after ops6 X (Proc.devRef .tc main_v58) = val_main_v58 (F := F) x0 e x2 x3 x4 := by
  after_results
  rw [h47, h3, h29, ha4]
  rfl

theorem s7_biased (X : Valuation τ sig (Elt F)) (e : (⟨S2x16000000, .i32⟩ : BufTy).Contents (Elt F)) (x0 : (⟨S500000x5, .f32⟩ : BufTy).Contents (Elt F)) (x2 : (⟨S5x5, .f32⟩ : BufTy).Contents (Elt F)) (x3 : (⟨S5, .f32⟩ : BufTy).Contents (Elt F)) (x4 : (⟨S5x8, .f32⟩ : BufTy).Contents (Elt F)) (x5 : (⟨S8, .f32⟩ : BufTy).Contents (Elt F))
    (h58 : X (Proc.devRef .tc main_v58) = val_main_v58 (F := F) x0 e x2 x3 x4) (h6 : X (Proc.devRef .tc main_v6) = val_main_v6 (F := F) e)
    (ha5 : X (Proc.devRef .tc main_arg5) = x5) :
    after ops7 X (Proc.devRef .tc main_v64) = val_main_v64 (F := F) x0 e x2 x3 x4 x5 := by
  after_results
  rw [h58, h6, ha5]
  rfl

theorem s8_shifted (X : Valuation τ sig (Elt F)) (e : (⟨S2x16000000, .i32⟩ : BufTy).Contents (Elt F)) (x0 : (⟨S500000x5, .f32⟩ : BufTy).Contents (Elt F)) (x2 : (⟨S5x5, .f32⟩ : BufTy).Contents (Elt F)) (x3 : (⟨S5, .f32⟩ : BufTy).Contents (Elt F)) (x4 : (⟨S5x8, .f32⟩ : BufTy).Contents (Elt F)) (x5 : (⟨S8, .f32⟩ : BufTy).Contents (Elt F))
    (h64 : X (Proc.devRef .tc main_v64) = val_main_v64 (F := F) x0 e x2 x3 x4 x5) :
    after ops8 X (Proc.devRef .tc main_call2_v5) = val_main_call2_v5 (F := F) x0 e x2 x3 x4 x5 := by
  have i64 : ∀ Z : (⟨S500000x8, .f32⟩ : BufTy).Contents (Elt F), (TRef.of (T := ⟨S500000x8, .f32⟩) main_v64).ofBuf Z = Z := fun _ => rfl
  have o5 : ∀ Z : (⟨S500000x8, .f32⟩ : BufTy).Contents (Elt F), (TRef.of (T := ⟨S500000x8, .f32⟩) main_call2_v5).toBuf Z = Z := fun _ => rfl
  after_results_simp
  rw [h64]
  simp only [ofBuf_toBuf]
  rw [o5, i64]
  rfl

theorem s9_result (X : Valuation τ sig (Elt F)) (e : (⟨S2x16000000, .i32⟩ : BufTy).Contents (Elt F)) (x0 : (⟨S500000x5, .f32⟩ : BufTy).Contents (Elt F)) (x2 : (⟨S5x5, .f32⟩ : BufTy).Contents (Elt F)) (x3 : (⟨S5, .f32⟩ : BufTy).Contents (Elt F)) (x4 : (⟨S5x8, .f32⟩ : BufTy).Contents (Elt F)) (x5 : (⟨S8, .f32⟩ : BufTy).Contents (Elt F))
    (h5 : X (Proc.devRef .tc main_call2_v5) = val_main_call2_v5 (F := F) x0 e x2 x3 x4 x5) :
    after ops9 X (Proc.devRef .tc main_v65) = val_main_v65 (F := F) x0 e x2 x3 x4 x5 := by
  have i5 : ∀ Z : (⟨S500000x8, .f32⟩ : BufTy).Contents (Elt F), (TRef.of (T := ⟨S500000x8, .f32⟩) main_call2_v5).ofBuf Z = Z := fun _ => rfl
  have o65 : ∀ Z : (⟨S500000x8, .f32⟩ : BufTy).Contents (Elt F), (TRef.of (T := ⟨S500000x8, .f32⟩) main_v65).toBuf Z = Z := fun _ => rfl
  after_results_simp
  rw [h5]
  simp only [ofBuf_toBuf]
  rw [o65, i5]
  rfl

/-! ## The whole list -/

/-- After all 98 operations the result buffer holds the last stage of what the argument buffers held before them. -/
theorem result_after (X : Valuation τ sig (Elt F)) :
    after Cert.ReferenceIdeal.ValueP.ops X (Proc.devRef .tc main_v65)
      = val_main_v65 (F := F) (X (Proc.devRef .tc main_arg0)) (X (Proc.devRef .tc main_arg1)) (X (Proc.devRef .tc main_arg2)) (X (Proc.devRef .tc main_arg3)) (X (Proc.devRef .tc main_arg4)) (X (Proc.devRef .tc main_arg5)) := by
  rw [ops_split]
  simp only [StableHlo.after_append]
  -- after the first stretch
  have a3 := s1_src X
  have a6 := s1_dst X
  have a12 := s1_pos X
  have a13 := s1_rsqrt X
  have ac := s1_zero X
  have aA0 := keep1_arg0 X
  have aA2 := keep1_arg2 X
  have aA3 := keep1_arg3 X
  have aA4 := keep1_arg4 X
  have aA5 := keep1_arg5 X
  -- after the selection
  have b14 := s2_dinv (after ops1 X) _ a12 a13 ac
  have b3 := (keep2_v3 (after ops1 X)).trans a3
  have b6 := (keep2_v6 (after ops1 X)).trans a6
  have bA0 := (keep2_arg0 (after ops1 X)).trans aA0
  have bA2 := (keep2_arg2 (after ops1 X)).trans aA2
  have bA3 := (keep2_arg3 (after ops1 X)).trans aA3
  have bA4 := (keep2_arg4 (after ops1 X)).trans aA4
  have bA5 := (keep2_arg5 (after ops1 X)).trans aA5
  -- after the weight
  have c29 := s3_norm (after ops2 (after ops1 X)) _ b3 b6 b14
  have c3 := (keep3_v3 (after ops2 (after ops1 X))).trans b3
  have c6 := (keep3_v6 (after ops2 (after ops1 X))).trans b6
  have cA0 := (keep3_arg0 (after ops2 (after ops1 X))).trans bA0
  have cA2 := (keep3_arg2 (after ops2 (after ops1 X))).trans bA2
  have cA3 := (keep3_arg3 (after ops2 (after ops1 X))).trans bA3
  have cA4 := (keep3_arg4 (after ops2 (after ops1 X))).trans bA4
  have cA5 := (keep3_arg5 (after ops2 (after ops1 X))).trans bA5
  -- layer 1
  have d40 := s4_msg (after ops3 (after ops2 (after ops1 X))) _ _ _ c3 c29 cA0 cA2
  have d3 := (keep4_v3 (after ops3 (after ops2 (after ops1 X)))).trans c3
  have d6 := (keep4_v6 (after ops3 (after ops2 (after ops1 X)))).trans c6
  have d29 := (keep4_v29 (after ops3 (after ops2 (after ops1 X)))).trans c29
  have dA3 := (keep4_arg3 (after ops3 (after ops2 (after ops1 X)))).trans cA3
  have dA4 := (keep4_arg4 (after ops3 (after ops2 (after ops1 X)))).trans cA4
  have dA5 := (keep4_arg5 (after ops3 (after ops2 (after ops1 X)))).trans cA5
  have e47 := s5_out (after ops4 (after ops3 (after ops2 (after ops1 X)))) _ _ _ _ d40 d6 dA3
  have e3 := (keep5_v3 (after ops4 (after ops3 (after ops2 (after ops1 X))))).trans d3
  have e6 := (keep5_v6 (after ops4 (after ops3 (after ops2 (after ops1 X))))).trans d6
  have e29 := (keep5_v29 (after ops4 (after ops3 (after ops2 (after ops1 X))))).trans d29
  have eA4 := (keep5_arg4 (after ops4 (after ops3 (after ops2 (after ops1 X))))).trans dA4
  have eA5 := (keep5_arg5 (after ops4 (after ops3 (after ops2 (after ops1 X))))).trans dA5
  -- layer 2
  have f58 := s6_msg (after ops5 (after ops4 (after ops3 (after ops2 (after ops1 X))))) _ _ _ _ _ e47 e3 e29 eA4
  have f6 := (keep6_v6 (after ops5 (after ops4 (after ops3 (after ops2 (after ops1 X)))))).trans e6
  have fA5 := (keep6_arg5 (after ops5 (after ops4 (after ops3 (after ops2 (after ops1 X)))))).trans eA5
  have g64 := s7_biased (after ops6 (after ops5 (after ops4 (after ops3 (after ops2 (after ops1 X)))))) _ _ _ _ _ _ f58 f6 fA5
  -- the log-softmax
  have h5 := s8_shifted (after ops7 (after ops6 (after ops5 (after ops4 (after ops3 (after ops2 (after ops1 X))))))) _ _ _ _ _ _ g64
  exact s9_result (after ops8 (after ops7 (after ops6 (after ops5 (after ops4 (after ops3 (after ops2 (after ops1 X)))))))) _ _ _ _ _ _ h5

/-- On every device, from any memory with zero counters: every weakly fair execution of the reference terminates with its
    result buffer at the last stage of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v65)
        = val_main_v65 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v65).trans (result_after (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq Cert.ReferenceIdeal.ValueP.scopedRefs_eq Cert.ReferenceIdeal.ValueP.scopedSems_eq defs main (fun _ => Cert.ReferenceIdeal.ValueP.ops) Cert.ReferenceIdeal.ValueP.main_eq (fun _ => Cert.ReferenceIdeal.ValueP.ops_sub) m ρ)

end Cert.ReferenceIdeal.Stages

end
-- ==== Proof.HostStages.lean ====
/-
  The host stretches of the kernel's program between its six regions, each read at the buffers a later item uses and
  named in the stages of the reference: the source and destination index vectors (the edge list's two rows, each
  followed by the self-loop indices 0 … 499999), the inverse square root of the in-degree where it is positive, the
  per-edge weight (that quantity gathered at the source times the same gathered at the destination), the gathered
  messages, and the scatter-add of the scaled messages by destination. Every stretch is stated over a variable
  valuation, from what it finds in the buffers it reads, so that the chain through the regions can be assembled
  boundary by boundary. The two programs apply the same host operations to these values; only the order of the first
  few lines differs, which changes no value.
-/
import proofs.«145865_j34368328302938_1_alg».proof.Proof.Gen.KernelIdeal.Launch
import proofs.«145865_j34368328302938_1_alg».proof.Proof.RefRead
import Idealize.ShloMosaic.Lib.StableHlo.Run

set_option maxRecDepth 16384
-- the longer stretches are rewritten one operation and one buffer at a time
set_option maxHeartbeats 4000000

noncomputable section

namespace Cert.KernelIdeal.HostStages

open Idealize.ShloMosaic Idealize.ShloMosaic.TcCoe Idealize.SL.Sem Idealize.ShloMosaic.StableHlo
open Cert.KernelIdeal Cert.KernelIdeal.Gen

variable {F : FTy → Type} [FloatOps F]

/-! ## Buffers a stretch does not write keep their contents -/

theorem keep_hostOps0_arg0 (X : Valuation τ sig (Elt F)) : after hostOps0 X (Proc.devRef .tc main_arg0) = X (Proc.devRef .tc main_arg0) := by
  after_results <;> rfl
theorem keep_hostOps0_arg2 (X : Valuation τ sig (Elt F)) : after hostOps0 X (Proc.devRef .tc main_arg2) = X (Proc.devRef .tc main_arg2) := by
  after_results <;> rfl
theorem keep_hostOps0_arg3 (X : Valuation τ sig (Elt F)) : after hostOps0 X (Proc.devRef .tc main_arg3) = X (Proc.devRef .tc main_arg3) := by
  after_results <;> rfl
theorem keep_hostOps0_arg4 (X : Valuation τ sig (Elt F)) : after hostOps0 X (Proc.devRef .tc main_arg4) = X (Proc.devRef .tc main_arg4) := by
  after_results <;> rfl
theorem keep_hostOps0_arg5 (X : Valuation τ sig (Elt F)) : after hostOps0 X (Proc.devRef .tc main_arg5) = X (Proc.devRef .tc main_arg5) := by
  after_results <;> rfl
theorem keep_hostOps0_1_v5 (X : Valuation τ sig (Elt F)) : after hostOps0_1 X (Proc.devRef .tc main_v5) = X (Proc.devRef .tc main_v5) := by
  after_results <;> rfl
theorem keep_hostOps0_1_v6 (X : Valuation τ sig (Elt F)) : after hostOps0_1 X (Proc.devRef .tc main_v6) = X (Proc.devRef .tc main_v6) := by
  after_results <;> rfl
theorem keep_hostOps0_1_arg0 (X : Valuation τ sig (Elt F)) : after hostOps0_1 X (Proc.devRef .tc main_arg0) = X (Proc.devRef .tc main_arg0) := by
  after_results <;> rfl
theorem keep_hostOps0_1_arg2 (X : Valuation τ sig (Elt F)) : after hostOps0_1 X (Proc.devRef .tc main_arg2) = X (Proc.devRef .tc main_arg2) := by
  after_results <;> rfl
theorem keep_hostOps0_1_arg3 (X : Valuation τ sig (Elt F)) : after hostOps0_1 X (Proc.devRef .tc main_arg3) = X (Proc.devRef .tc main_arg3) := by
  after_results <;> rfl
theorem keep_hostOps0_1_arg4 (X : Valuation τ sig (Elt F)) : after hostOps0_1 X (Proc.devRef .tc main_arg4) = X (Proc.devRef .tc main_arg4) := by
  after_results <;> rfl
theorem keep_hostOps0_1_arg5 (X : Valuation τ sig (Elt F)) : after hostOps0_1 X (Proc.devRef .tc main_arg5) = X (Proc.devRef .tc main_arg5) := by
  after_results <;> rfl
theorem keep_hostOps0_2_v5 (X : Valuation τ sig (Elt F)) : after hostOps0_2 X (Proc.devRef .tc main_v5) = X (Proc.devRef .tc main_v5) := by
  after_results <;> rfl
theorem keep_hostOps0_2_v6 (X : Valuation τ sig (Elt F)) : after hostOps0_2 X (Proc.devRef .tc main_v6) = X (Proc.devRef .tc main_v6) := by
  after_results <;> rfl
theorem keep_hostOps0_2_arg0 (X : Valuation τ sig (Elt F)) : after hostOps0_2 X (Proc.devRef .tc main_arg0) = X (Proc.devRef .tc main_arg0) := by
  after_results <;> rfl
theorem keep_hostOps0_2_arg2 (X : Valuation τ sig (Elt F)) : after hostOps0_2 X (Proc.devRef .tc main_arg2) = X (Proc.devRef .tc main_arg2) := by
  after_results <;> rfl
theorem keep_hostOps0_2_arg3 (X : Valuation τ sig (Elt F)) : after hostOps0_2 X (Proc.devRef .tc main_arg3) = X (Proc.devRef .tc main_arg3) := by
  after_results <;> rfl
theorem keep_hostOps0_2_arg4 (X : Valuation τ sig (Elt F)) : after hostOps0_2 X (Proc.devRef .tc main_arg4) = X (Proc.devRef .tc main_arg4) := by
  after_results <;> rfl
theorem keep_hostOps0_2_arg5 (X : Valuation τ sig (Elt F)) : after hostOps0_2 X (Proc.devRef .tc main_arg5) = X (Proc.devRef .tc main_arg5) := by
  after_results <;> rfl
theorem keep_hostOps1_v5 (X : Valuation τ sig (Elt F)) : after hostOps1 X (Proc.devRef .tc main_v5) = X (Proc.devRef .tc main_v5) := by
  after_results <;> rfl
theorem keep_hostOps1_v6 (X : Valuation τ sig (Elt F)) : after hostOps1 X (Proc.devRef .tc main_v6) = X (Proc.devRef .tc main_v6) := by
  after_results <;> rfl
theorem keep_hostOps1_v30 (X : Valuation τ sig (Elt F)) : after hostOps1 X (Proc.devRef .tc main_v30) = X (Proc.devRef .tc main_v30) := by
  after_results <;> rfl
theorem keep_hostOps1_arg3 (X : Valuation τ sig (Elt F)) : after hostOps1 X (Proc.devRef .tc main_arg3) = X (Proc.devRef .tc main_arg3) := by
  after_results <;> rfl
theorem keep_hostOps1_arg4 (X : Valuation τ sig (Elt F)) : after hostOps1 X (Proc.devRef .tc main_arg4) = X (Proc.devRef .tc main_arg4) := by
  after_results <;> rfl
theorem keep_hostOps1_arg5 (X : Valuation τ sig (Elt F)) : after hostOps1 X (Proc.devRef .tc main_arg5) = X (Proc.devRef .tc main_arg5) := by
  after_results <;> rfl
theorem keep_hostOps2_v5 (X : Valuation τ sig (Elt F)) : after hostOps2 X (Proc.devRef .tc main_v5) = X (Proc.devRef .tc main_v5) := by
  after_results <;> rfl
theorem keep_hostOps2_v6 (X : Valuation τ sig (Elt F)) : after hostOps2 X (Proc.devRef .tc main_v6) = X (Proc.devRef .tc main_v6) := by
  after_results <;> rfl
theorem keep_hostOps2_v30 (X : Valuation τ sig (Elt F)) : after hostOps2 X (Proc.devRef .tc main_v30) = X (Proc.devRef .tc main_v30) := by
  after_results <;> rfl
theorem keep_hostOps2_arg4 (X : Valuation τ sig (Elt F)) : after hostOps2 X (Proc.devRef .tc main_arg4) = X (Proc.devRef .tc main_arg4) := by
  after_results <;> rfl
theorem keep_hostOps2_arg5 (X : Valuation τ sig (Elt F)) : after hostOps2 X (Proc.devRef .tc main_arg5) = X (Proc.devRef .tc main_arg5) := by
  after_results <;> rfl
theorem keep_hostOps4_v6 (X : Valuation τ sig (Elt F)) : after hostOps4 X (Proc.devRef .tc main_v6) = X (Proc.devRef .tc main_v6) := by
  after_results <;> rfl
theorem keep_hostOps4_arg5 (X : Valuation τ sig (Elt F)) : after hostOps4 X (Proc.devRef .tc main_arg5) = X (Proc.devRef .tc main_arg5) := by
  after_results <;> rfl

/-! ## The index vectors, the degree test and the inverse square root (the first stretch) -/

theorem src_eq (X : Valuation τ sig (Elt F)) :
    after hostOps0 X (Proc.devRef .tc main_v5) = Cert.ReferenceIdeal.ReadP.val_main_v3 (F := F) (X (Proc.devRef .tc main_arg1)) := by
  after_results <;> rfl

theorem dst_eq (X : Valuation τ sig (Elt F)) :
    after hostOps0 X (Proc.devRef .tc main_v6) = Cert.ReferenceIdeal.ReadP.val_main_v6 (F := F) (X (Proc.devRef .tc main_arg1)) := by
  after_results <;> rfl

theorem degPos_eq (X : Valuation τ sig (Elt F)) :
    after hostOps0 X (Proc.devRef .tc main_v12) = Cert.ReferenceIdeal.ReadP.val_main_v12 (F := F) (X (Proc.devRef .tc main_arg1)) := by
  after_results <;> rfl

theorem degRsqrt_eq (X : Valuation τ sig (Elt F)) :
    after hostOps0 X (Proc.devRef .tc main_v13) = Cert.ReferenceIdeal.ReadP.val_main_v13 (F := F) (X (Proc.devRef .tc main_arg1)) := by
  after_results <;> rfl

theorem zero_eq (X : Valuation τ sig (Elt F)) :
    after hostOps0 X (Proc.devRef .tc main_cst_2) = Cert.ReferenceIdeal.ReadP.val_main_cst_2 (F := F) := by
  after_results <;> rfl

/-! ## The inverse square root of the degree where it is positive, zero elsewhere (the selection) -/

theorem dinv_eq (X : Valuation τ sig (Elt F)) (e : (⟨S2x16000000, .i32⟩ : BufTy).Contents (Elt F))
    (h12 : X (Proc.devRef .tc main_v12) = Cert.ReferenceIdeal.ReadP.val_main_v12 (F := F) e) (h13 : X (Proc.devRef .tc main_v13) = Cert.ReferenceIdeal.ReadP.val_main_v13 (F := F) e)
    (hc : X (Proc.devRef .tc main_cst_2) = Cert.ReferenceIdeal.ReadP.val_main_cst_2 (F := F)) :
    after hostOps0_1 X (Proc.devRef .tc main_v14) = Cert.ReferenceIdeal.ReadP.val_main_v14 (F := F) e := by
  after_results
  all_goals (try simp only [TRef.ofBuf, TRef.toBuf, cast_eq])
  rw [h12, h13, hc]
  rfl

/-! ## The per-edge weight as a column -/

theorem norm_eq (X : Valuation τ sig (Elt F)) (e : (⟨S2x16000000, .i32⟩ : BufTy).Contents (Elt F))
    (h14 : X (Proc.devRef .tc main_v14) = Cert.ReferenceIdeal.ReadP.val_main_v14 (F := F) e) (h5 : X (Proc.devRef .tc main_v5) = Cert.ReferenceIdeal.ReadP.val_main_v3 (F := F) e)
    (h6 : X (Proc.devRef .tc main_v6) = Cert.ReferenceIdeal.ReadP.val_main_v6 (F := F) e) :
    after hostOps0_2 X (Proc.devRef .tc main_v30)
      = shapeCast S16500000x1 (Cert.ReferenceIdeal.ReadP.val_main_v29 (F := F) e) Facts₀.shapeCasts_S16500000_S16500000x1 := by
  after_results
  rw [h14, h5, h6]
  rfl

/-! ## Layer 1: the gathered messages and the weights, each padded by 4000 zero rows -/

theorem msg1_eq (X : Valuation τ sig (Elt F)) (e : (⟨S2x16000000, .i32⟩ : BufTy).Contents (Elt F))
    (x0 : (⟨S500000x5, .f32⟩ : BufTy).Contents (Elt F)) (x2 : (⟨S5x5, .f32⟩ : BufTy).Contents (Elt F))
    (h31 : X (Proc.devRef .tc main_v31) = Cert.ReferenceIdeal.ReadP.val_main_v30 (F := F) x0 x2) (h5 : X (Proc.devRef .tc main_v5) = Cert.ReferenceIdeal.ReadP.val_main_v3 (F := F) e) :
    after hostOps1 X (Proc.devRef .tc main_v40)
      = concatenate S16504000x5 0 [⟨S16500000x5, Cert.ReferenceIdeal.ReadP.val_main_v37 (F := F) x0 e x2⟩,
          ⟨S4000x5, broadcastInDim S4000x5 ![] Facts₀.bcast_S_S4000x5 (constant (F := F) S_ .f32 0x00000000#32)⟩]
          Facts₀.concatenates_S16500000x5_S4000x5_S16504000x5_d0 := by
  after_results
  rw [h31, h5]
  rfl

theorem norm1_eq (X : Valuation τ sig (Elt F)) (N : (⟨S16500000x1, .f32⟩ : BufTy).Contents (Elt F))
    (h30 : X (Proc.devRef .tc main_v30) = N) :
    after hostOps1 X (Proc.devRef .tc main_v42)
      = concatenate S16504000x1 0 [⟨S16500000x1, N⟩,
          ⟨S4000x1, broadcastInDim S4000x1 ![] Facts₀.bcast_S_S4000x1 (constant (F := F) S_ .f32 0x00000000#32)⟩]
          Facts₀.concatenates_S16500000x1_S4000x1_S16504000x1_d0 := by
  after_results
  rw [h30]

/-! ## Layer 1: the scatter-add of the scaled messages by destination, and the bias as a row -/

theorem agg1_eq (X : Valuation τ sig (Elt F)) (e : (⟨S2x16000000, .i32⟩ : BufTy).Contents (Elt F))
    (x0 : (⟨S500000x5, .f32⟩ : BufTy).Contents (Elt F)) (x2 : (⟨S5x5, .f32⟩ : BufTy).Contents (Elt F))
    (h43 : extractStridedSlice S16500000x5 ![0, 0] (X (Proc.devRef .tc main_v43)) Facts₀.slices_S16504000x5_S16500000x5_0_0
            = Cert.ReferenceIdeal.ReadP.val_main_v40 (F := F) x0 e x2)
    (h6 : X (Proc.devRef .tc main_v6) = Cert.ReferenceIdeal.ReadP.val_main_v6 (F := F) e) :
    after hostOps2 X (Proc.devRef .tc main_v47) = Cert.ReferenceIdeal.ReadP.val_main_v43 (F := F) x0 e x2 := by
  after_results
  rw [h43, h6]
  rfl

theorem bias1_eq (X : Valuation τ sig (Elt F)) :
    after hostOps2 X (Proc.devRef .tc main_v48)
      = shapeCast S1x5 (X (Proc.devRef .tc main_arg3)) Facts₀.shapeCasts_S5_S1x5 := by
  after_results <;> rfl

/-! ## Layer 2: the gathered messages and the weights, padded -/

theorem msg2_eq (X : Valuation τ sig (Elt F)) (e : (⟨S2x16000000, .i32⟩ : BufTy).Contents (Elt F))
    (x0 : (⟨S500000x5, .f32⟩ : BufTy).Contents (Elt F)) (x2 : (⟨S5x5, .f32⟩ : BufTy).Contents (Elt F))
    (x3 : (⟨S5, .f32⟩ : BufTy).Contents (Elt F)) (x4 : (⟨S5x8, .f32⟩ : BufTy).Contents (Elt F))
    (h50 : X (Proc.devRef .tc main_v50) = Cert.ReferenceIdeal.ReadP.val_main_v48 (F := F) x0 e x2 x3 x4) (h5 : X (Proc.devRef .tc main_v5) = Cert.ReferenceIdeal.ReadP.val_main_v3 (F := F) e) :
    after hostOps4 X (Proc.devRef .tc main_v59)
      = concatenate S16504000x8 0 [⟨S16500000x8, Cert.ReferenceIdeal.ReadP.val_main_v55 (F := F) x0 e x2 x3 x4⟩,
          ⟨S4000x8, broadcastInDim S4000x8 ![] Facts₀.bcast_S_S4000x8 (constant (F := F) S_ .f32 0x00000000#32)⟩]
          Facts₀.concatenates_S16500000x8_S4000x8_S16504000x8_d0 := by
  after_results
  rw [h50, h5]
  rfl

theorem norm2_eq (X : Valuation τ sig (Elt F)) (N : (⟨S16500000x1, .f32⟩ : BufTy).Contents (Elt F))
    (h30 : X (Proc.devRef .tc main_v30) = N) :
    after hostOps4 X (Proc.devRef .tc main_v61)
      = concatenate S16504000x1 0 [⟨S16500000x1, N⟩,
          ⟨S4000x1, broadcastInDim S4000x1 ![] Facts₀.bcast_S_S4000x1 (constant (F := F) S_ .f32 0x00000000#32)⟩]
          Facts₀.concatenates_S16500000x1_S4000x1_S16504000x1_d0 := by
  after_results
  rw [h30]

/-! ## Layer 2: the scatter-add by destination, and the bias as a row -/

theorem agg2_eq (X : Valuation τ sig (Elt F)) (e : (⟨S2x16000000, .i32⟩ : BufTy).Contents (Elt F))
    (x0 : (⟨S500000x5, .f32⟩ : BufTy).Contents (Elt F)) (x2 : (⟨S5x5, .f32⟩ : BufTy).Contents (Elt F))
    (x3 : (⟨S5, .f32⟩ : BufTy).Contents (Elt F)) (x4 : (⟨S5x8, .f32⟩ : BufTy).Contents (Elt F))
    (h62 : extractStridedSlice S16500000x8 ![0, 0] (X (Proc.devRef .tc main_v62)) Facts₀.slices_S16504000x8_S16500000x8_0_0
            = Cert.ReferenceIdeal.ReadP.val_main_v58 (F := F) x0 e x2 x3 x4)
    (h6 : X (Proc.devRef .tc main_v6) = Cert.ReferenceIdeal.ReadP.val_main_v6 (F := F) e) :
    after hostOps5 X (Proc.devRef .tc main_v66) = Cert.ReferenceIdeal.ReadP.val_main_v61 (F := F) x0 e x2 x3 x4 := by
  after_results
  rw [h62, h6]
  rfl

theorem bias2_eq (X : Valuation τ sig (Elt F)) :
    after hostOps5 X (Proc.devRef .tc main_v67)
      = shapeCast S1x8 (X (Proc.devRef .tc main_arg5)) Facts₀.shapeCasts_S8_S1x8 := by
  after_results <;> rfl

end Cert.KernelIdeal.HostStages

end
-- ==== Proof.LibColumns.lean ====
/-
  Layout operations of the "keepdims" kind read at an index, and the index a one-axis reduction sums over.

  A row-wise reduction `[a, b] → [a]` that keeps its axis is printed as the reduction, a cast of the `[a]` result to the
  column `[a, 1]`, and a broadcast of that column back over `[a, b]`. Each lemma reads one of these at an index given by
  its coordinates: the column at `(r, ·)` is the vector at `r`; the broadcast at `(r, c)` is the column at `r`; and the
  indices a reduction along axis 1 (or axis 0) sums over, for the kept coordinate `r`, are `(r, k)` (or `(k, r)`).
-/
import Idealize.ShloMosaic.Lib.Pipeline.Value
import Idealize.ShloMosaic.Lib.ValueLayout
import Idealize.ShloMosaic.PureOps.Ideal.Laws

noncomputable section

namespace Cert.LibColumns

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column's entry of row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Reducing axis 1 of `[a, b]`: the kept coordinate `r` with the reduced coordinate `k` put back is `(r, k)`. -/
theorem lift_axis1 {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Reducing axis 0 of `[a, b]`: the kept coordinate `c` with the reduced coordinate `k` put back is `(k, c)`. -/
theorem lift_axis0 {a b : ℕ} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- A float sum along axis 1 of `[a, b]`, at the ideal values: at `r` it is the sum over the row's `b` entries. -/
theorem rowSum_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (r : Fin a) : multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_axis1 h r k)

/-- A float sum along axis 0 of `[a, b]`, at the ideal values: at `c` it is the sum over the column's `a` entries. -/
theorem colSum_apply {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ) (hacc : acc = FKind.add.neutral φ hφ)
    (c : Fin b) : multiReduction .add [0] ⟨1, ![b]⟩ src acc h hφ hacc (ix1 c) = ∑ k : Fin a, src (ix2 k c) := by
  refine (Ideal.multiReduction_add_single src acc h hφ hacc (ix1 c)).trans ?_
  exact Finset.sum_congr rfl fun k _ => congrArg src (lift_axis0 h c k)

/-- A float maximum along axis 1 of `[a, b]`, at the ideal values: at `r` it is the fold of `max`, from the accumulator's
    value, over the row's `b` entries. -/
theorem rowMax_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (r : Fin a) : multiReduction .maximumf [1] ⟨1, ![a]⟩ src acc h hφ hacc (ix1 r)
      = (Finset.univ : Finset (Fin b)).fold max (Ideal.ofBits φ acc) fun k => src (ix2 r k) := by
  refine (Ideal.multiReduction_maximumf_single src acc h hφ hacc (ix1 r)).trans ?_
  have hf : (src ∘ h.lift (ix1 r)) = fun k : Fin b => src (ix2 r k) := funext fun k => congrArg src (lift_axis1 h r k)
  exact congrArg (fun f => Finset.fold max (Ideal.ofBits φ acc) f (Finset.univ : Finset (Fin b))) hf

end Cert.LibColumns

end
-- ==== Proof.Reg0.lean ====
/-
  The first dense layer, block by block: each grid point multiplies 5000 rows of the node features by the 5×5 weight
  matrix, and the 100 blocks tile the 500000 rows, so the result array is the whole matrix product.
-/
import proofs.«145865_j34368328302938_1_alg».proof.Proof.Gen.KernelIdeal.Frame
import proofs.«145865_j34368328302938_1_alg».proof.Proof.LibColumns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg0

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## One block: the contraction read at an entry -/

/-- The left operand's row coordinate at an output entry is the entry's row. -/
theorem lhs_blk_0 (i : S5000x5.Idx) (q : dot_S5000x5_S5x5_S5000x5_1_0_0_1_n_n.contr.Idx) :
    (dot_S5000x5_S5x5_S5000x5_1_0_0_1_n_n.lhsIdx i q 0).val = (i 0).val := by
  unfold DotDims.lhsIdx
  rw [dif_neg (show ¬(0 : Fin S5000x5.rank) ∈ dot_S5000x5_S5x5_S5000x5_1_0_0_1_n_n.lhsBatch by decide), dif_pos (show (0 : Fin S5000x5.rank) ∈ dot_S5000x5_S5x5_S5000x5_1_0_0_1_n_n.lhsNonContracting by decide)]
  rfl
/-- The left operand's column coordinate is the contraction index. -/
theorem lhs_blk_1 (i : S5000x5.Idx) (q : dot_S5000x5_S5x5_S5000x5_1_0_0_1_n_n.contr.Idx) :
    (dot_S5000x5_S5x5_S5000x5_1_0_0_1_n_n.lhsIdx i q 1).val = (q ⟨0, by decide⟩).val :=
  dot_S5000x5_S5x5_S5000x5_1_0_0_1_n_n.lhsIdx_val_of_single rfl i q
/-- The right operand's row coordinate is the contraction index. -/
theorem rhs_blk_0 (i : S5000x5.Idx) (q : dot_S5000x5_S5x5_S5000x5_1_0_0_1_n_n.contr.Idx) :
    (dot_S5000x5_S5x5_S5000x5_1_0_0_1_n_n.rhsIdx i q 0).val = (q ⟨0, by decide⟩).val :=
  dot_S5000x5_S5x5_S5000x5_1_0_0_1_n_n.rhsIdx_val_of_single rfl i q
/-- The right operand's column coordinate at an output entry is the entry's column. -/
theorem rhs_blk_1 (i : S5000x5.Idx) (q : dot_S5000x5_S5x5_S5000x5_1_0_0_1_n_n.contr.Idx) :
    (dot_S5000x5_S5x5_S5000x5_1_0_0_1_n_n.rhsIdx i q 1).val = (i 1).val := by
  unfold DotDims.rhsIdx
  rw [dif_neg (show ¬(1 : Fin S5x5.rank) ∈ dot_S5000x5_S5x5_S5000x5_1_0_0_1_n_n.rhsBatch by decide), dif_pos (show (1 : Fin S5x5.rank) ∈ dot_S5000x5_S5x5_S5000x5_1_0_0_1_n_n.rhsNonContracting by decide)]
  rfl

/-- Entry (p, q) of the block product: the change of float format is the identity on ideal values and the product
    into the zero array is the plain contraction, ∑ₖ x0 (p, k) · x1 (k, q). -/
theorem pay_apply (x0 : Vec Ideal S5000x5 .f32) (x1 : Vec Ideal S5x5 .f32) (p : Fin 5000) (q : Fin 5) :
    k0_pay1 (F := Ideal) x0 x1 (ix2 p q) = ∑ k : Fin 5, x0 (ix2 p k) * x1 (ix2 k q) := by
  unfold k0_pay1
  simp only [matmul]
  refine (Ideal.matmul_constant_zero_apply dot_S5000x5_S5x5_S5000x5_1_0_0_1_n_n none _ _ (ix2 p q)).trans ?_
  rw [← Equiv.sum_comp (ValueIdx.contrEquiv1 dot_S5000x5_S5x5_S5000x5_1_0_0_1_n_n 5 rfl rfl).symm]
  refine Finset.sum_congr rfl fun k _ => ?_
  have hk := ValueIdx.contrEquiv1_symm_val dot_S5000x5_S5x5_S5000x5_1_0_0_1_n_n 5 rfl rfl k
  have el : dot_S5000x5_S5x5_S5000x5_1_0_0_1_n_n.lhsIdx (ix2 p q) ((ValueIdx.contrEquiv1 dot_S5000x5_S5x5_S5000x5_1_0_0_1_n_n 5 rfl rfl).symm k) = ix2 p k := funext fun a => Fin.ext (by
    match a with
    | ⟨0, _⟩ => exact lhs_blk_0 _ _
    | ⟨1, _⟩ => exact (lhs_blk_1 _ _).trans hk)
  have er : dot_S5000x5_S5x5_S5000x5_1_0_0_1_n_n.rhsIdx (ix2 p q) ((ValueIdx.contrEquiv1 dot_S5000x5_S5x5_S5000x5_1_0_0_1_n_n 5 rfl rfl).symm k) = ix2 k q := funext fun a => Fin.ext (by
    match a with
    | ⟨0, _⟩ => exact (rhs_blk_0 _ _).trans hk
    | ⟨1, _⟩ => exact rhs_blk_1 _ _)
  rw [el, er]
  rfl

/-! ## From blocks to the array -/

theorem hz : (![0, 0] : Fin 2 → Nat) = fun _ => 0 := funext fun a => by fin_cases a <;> rfl

/-- The whole product, entry by entry: row i₀ of the features against column i₁ of the weights. -/
abbrev G (X : S500000x5.Idx → Elt Ideal .f32) (W : S5x5.Idx → Elt Ideal .f32) : S500000x5.Idx → Elt Ideal .f32 :=
  fun i => ∑ k : Fin 5, X (ix2 (i 0) k) * W (ix2 k (i 1))

/-- The block index maps over the grid: the feature window and the result window sit at block (t, 0), the weight
    window at block (0, 0) at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the feature block at point t is row 5000·t + p of the feature array. -/
theorem feat_blk_apply (c : Dev nD) (t : Fin cfg0.N) (p : Fin 5000) (k : Fin 5) (r : Fin 500000)
    (hr : r.val = t.val * 5000 + p.val) :
    (iblk0 V c 0 t : Vec Ideal S5000x5 .f32) (ix2 p k) = (V c main_arg0 : S500000x5.Idx → Elt Ideal .f32) (ix2 r k) := by
  obtain ⟨e0, e1, -, -, -, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * p.val = r.val; omega
  | ⟨1, _⟩ => show win0_0.index t (1 : Fin 2) * 5 + 1 * k.val = k.val; omega

/-- The weight block at every point is the whole weight matrix. -/
theorem wt_blk_apply (c : Dev nD) (t : Fin cfg0.N) (k : Fin 5) (q : Fin 5) :
    (iblk0 V c 1 t : Vec Ideal S5x5 .f32) (ix2 k q) = (V c main_arg2 : S5x5.Idx → Elt Ideal .f32) (ix2 k q) := by
  obtain ⟨-, -, e2, e3, -, -⟩ := idx_facts t
  unfold iblk0
  rw [View.read_apply]
  show V c main_arg2 _ = V c main_arg2 _
  congr 1
  funext a
  apply Fin.ext
  match a with
  | ⟨0, _⟩ => show win0_1.index t (0 : Fin 2) * 5 + 1 * k.val = k.val; omega
  | ⟨1, _⟩ => show win0_1.index t (1 : Fin 2) * 5 + 1 * q.val = q.val; omega

/-- Entry (p, q) of point t's block product is entry (5000·t + p, q) of the whole product. -/
theorem point_eq (c : Dev nD) (t : Fin cfg0.N) (p : Fin 5000) (q : Fin 5) (r : Fin 500000)
    (hr : r.val = t.val * 5000 + p.val) :
    k0_pay1 (F := Ideal) (iblk0 V c 0 t) (iblk0 V c 1 t) (ix2 p q) = G (V c main_arg0) (V c main_arg2) (ix2 r q) := by
  refine (pay_apply _ _ p q).trans ?_
  refine Finset.sum_congr rfl fun k _ => ?_
  exact congrArg₂ (· * ·) (feat_blk_apply V c t p k r hr) (wt_blk_apply V c t k q)

/-- What point t writes back is block t of the whole product. -/
theorem flushed_eq (c : Dev nD) (t : Fin cfg0.N) :
    (dat0 V c).flushed 2 t = ((cfg0.win 2).blk t).view.read (Elt Ideal) (G (V c main_arg0) (V c main_arg2)) := by
  show (cfg0.win 2).cut (grid0.coords t) ((dat0 V c).after 2 t) = _
  rw [after0_2]
  unfold out0_2
  rw [View.canon_unit_zero hz]
  simp only [View.ld_unit_zero (S := S5000x5) hz, View.ld_unit_zero (S := S5x5) hz]
  funext j
  have hj0 : (j 0).val < 5000 := (j 0).isLt
  have hj1 : (j 1).val < 5 := (j 1).isLt
  have hN : cfg0.N = 100 := N_0
  have ht : t.val < 100 := hN ▸ t.isLt
  obtain ⟨-, -, -, -, e4, e5⟩ := idx_facts t
  have key := point_eq V c t ⟨(j 0).val, hj0⟩ ⟨(j 1).val, hj1⟩ ⟨t.val * 5000 + (j 0).val, by omega⟩ rfl
  rw [View.read_apply]
  show k0_pay1 (F := Ideal) (iblk0 V c 0 t) (iblk0 V c 1 t) j = G (V c main_arg0) (V c main_arg2) (((cfg0.win 2).blk t).view.emb j)
  have ej : (j : S5000x5.Idx) = ix2 (⟨(j 0).val, hj0⟩ : Fin 5000) (⟨(j 1).val, hj1⟩ : Fin 5) := by
    funext a
    match a with
    | ⟨0, _⟩ => rfl
    | ⟨1, _⟩ => rfl
  have ee : ((cfg0.win 2).blk t).view.emb j = ix2 (⟨t.val * 5000 + (j 0).val, by omega⟩ : Fin 500000) (⟨(j 1).val, hj1⟩ : Fin 5) := by
    funext a
    apply Fin.ext
    match a with
    | ⟨0, _⟩ => show win0_2.index t (0 : Fin 2) * 5000 + 1 * (j 0).val = t.val * 5000 + (j 0).val; omega
    | ⟨1, _⟩ => show win0_2.index t (1 : Fin 2) * 5 + 1 * (j 1).val = (j 1).val; omega
  rw [ee]
  exact (congrArg (k0_pay1 (F := Ideal) (iblk0 V c 0 t) (iblk0 V c 1 t)) ej).trans key

/-- An index of the result array is in point t's block iff each coordinate is in the block's range on its axis. -/
theorem mem_blk (t : Fin cfg0.N) (i : S500000x5.Idx) :
    i ∈ ((cfg0.win 2).blk t).view.set ↔ ∀ a : Fin 2, win0_2.index t a * S5000x5.size a ≤ (i a).val ∧ (i a).val < win0_2.index t a * S5000x5.size a + S5000x5.size a := by
  show i ∈ ((View.whole main_v31).slice (win0_2.rect t)).set ↔ _
  rw [View.set_slice_whole, Rect.mem_set_unit]
  exact Iff.rfl

/-- Row r of the result array is in the block of point r / 5000: the 100 blocks of 5000 rows tile the 500000 rows. -/
theorem cover (i : S500000x5.Idx) :
    ∃ t : Fin cfg0.N, (cfg0.win 2).flush t = true ∧ i ∈ ((cfg0.win 2).blk t).view.set := by
  have hi0 : (i 0).val < 500000 := (i 0).isLt
  have hi1 : (i 1).val < 5 := (i 1).isLt
  have hN : cfg0.N = 100 := N_0
  let t : Fin cfg0.N := ⟨(i 0).val / 5000, by rw [hN]; omega⟩
  have htv : t.val = (i 0).val / 5000 := rfl
  obtain ⟨-, -, -, -, e4, e5⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 5 ≤ (i 1).val ∧ (i 1).val < win0_2.index t (1 : Fin 2) * 5 + 5; omega

/-- After the region the result array holds the whole product, entry by entry. -/
theorem arr_G (c : Dev nD) : (dat0 V c).arrAt 2 cfg0.N = G (V c main_arg0) (V c main_arg2) :=
  (dat0 V c).arrAt_eq_of_cover 2 (G (V c main_arg0) (V c main_arg2)) (fun t _ => flushed_eq V c t) cover

/-! ## The host's contraction read at an entry -/

/-- The host's product of a [500000,5] array by a [5,5] matrix at entry i is the same sum over the 5 features. -/
theorem host_apply (X : FVec Ideal S500000x5 .f32) (W : FVec Ideal S5x5 .f32) (i : S500000x5.Idx) :
    Host.dotGeneral (F := Ideal) (φ₁ := .f32) (φ₂ := .f32) (DotDims.plain 500000 5 5) none X W i
      = ∑ k : Fin 5, X (ix2 (i 0) k) * W (ix2 k (i 1)) := by
  simp only [Host.dotGeneral]
  rw [Ideal.dotGeneral_apply, ← Equiv.sum_comp (ValueIdx.contrEquiv1 (DotDims.plain 500000 5 5) 5 rfl rfl).symm]
  refine Finset.sum_congr rfl fun k _ => ?_
  have hk := ValueIdx.contrEquiv1_symm_val (DotDims.plain 500000 5 5) 5 rfl rfl k
  have el : (DotDims.plain 500000 5 5).lhsIdx i ((ValueIdx.contrEquiv1 (DotDims.plain 500000 5 5) 5 rfl rfl).symm k) = ix2 (i 0) k := funext fun a => Fin.ext (by
    match a with
    | ⟨0, _⟩ => rfl
    | ⟨1, _⟩ => exact hk)
  have er : (DotDims.plain 500000 5 5).rhsIdx i ((ValueIdx.contrEquiv1 (DotDims.plain 500000 5 5) 5 rfl rfl).symm k) = ix2 k (i 1) := funext fun a => Fin.ext (by
    match a with
    | ⟨0, _⟩ => exact hk
    | ⟨1, _⟩ => rfl)
  rw [el, er]
  rfl

/-- After the region the result array is the product of the node-feature array and the weight matrix, as one
    contraction over the 5 input features. -/
theorem arr_eq (c : Dev nD) :
    (dat0 V c).arrAt 2 cfg0.N
      = Host.dotGeneral (F := Ideal) (φ₁ := .f32) (φ₂ := .f32) (DotDims.plain 500000 5 5) none
          (V c main_arg0 : FVec Ideal S500000x5 .f32) (V c main_arg2 : FVec Ideal S5x5 .f32) := by
  rw [arr_G]
  funext i
  exact (host_apply _ _ i).symm

end Cert.KernelIdeal.Reg0

end
-- ==== Proof.Reg1.lean ====
/-
  The per-edge scaling of the first layer's messages, block by block over 2063 blocks of 8000 padded edge rows.
-/
import proofs.«145865_j34368328302938_1_alg».proof.Proof.Gen.KernelIdeal.Frame
import proofs.«145865_j34368328302938_1_alg».proof.Proof.LibColumns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The zero offsets of a whole-block load or store, as a constant function. -/
theorem zero_offsets : (![0, 0] : Fin 2 → Nat) = fun _ => 0 := funext fun a => by fin_cases a <;> rfl

/-- The region's result as one function of its two operand arrays: entry `(r, q)` is the first operand's entry `(r, q)`
    times the one-column second operand's entry of row `r`. -/
abbrev scaled (X : FVec Ideal S16504000x5 .f32) (Y : FVec Ideal S16504000x1 .f32) : FVec Ideal S16504000x5 .f32 :=
  fun i => X i * Y (ix2 (n0 := 16504000) (n1 := 1) (i 0) 0)

/-- The body's arithmetic at one entry of a block: entry `(p, q)` of the first block times entry `(p, 0)` of the
    one-column second block (the two casts are to the operands' own shapes; the column is broadcast along the rows). -/
theorem payload_apply (x0 : Vec Ideal S8000x5 .f32) (x1 : Vec Ideal S8000x1 .f32) (p : Fin 8000) (q : Fin 5) :
    k1_pay1 x0 x1 (ix2 p q) = x0 (ix2 p q) * x1 (ix2 p (0 : Fin 1)) := by
  unfold k1_pay1
  refine (mulf_apply _ _ (ix2 p q)).trans ?_
  rw [shapeCast_self, shapeCast_self]
  exact congrArg (x0 (ix2 p q) * ·) (Cert.LibColumns.broadcastTo_a1_ab_apply x1 _ p q)

/-- The three windows' block indices, decided over the grid: at point `t` every window is at block `(t, 0)`. -/
theorem block_index : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The first operand's block at point `t` holds rows `8000 t … 8000 t + 7999` of the array: entry `(p, q)` is the
    array's entry at row `8000 t + p`, column `q`. -/
theorem block0_apply (c : Dev nD) (t : Fin cfg1.N) (p : Fin 8000) (q : Fin 5) (k : S16504000x5.Idx)
    (hk0 : (k 0).val = t.val * 8000 + p.val) (hk1 : (k 1).val = q.val) :
    (iblk1 V c 0 t : Vec Ideal S8000x5 .f32) (ix2 p q) = (V c main_v40 : FVec Ideal S16504000x5 .f32) k := by
  obtain ⟨e0, e1, -⟩ := block_index t
  unfold iblk1
  rw [View.read_apply]
  show (V c main_v40 : FVec Ideal S16504000x5 .f32) _ = (V c main_v40 : FVec Ideal S16504000x5 .f32) k
  congr 1
  funext a
  apply Fin.ext
  match a with
  | ⟨0, _⟩ => show win1_0.index t (0 : Fin 2) * 8000 + 1 * p.val = (k 0).val; rw [e0, hk0]; omega
  | ⟨1, _⟩ => show win1_0.index t (1 : Fin 2) * 5 + 1 * q.val = (k 1).val; rw [e1, hk1]; omega

/-- The second operand's block at point `t` holds rows `8000 t … 8000 t + 7999` of the one-column array. -/
theorem block1_apply (c : Dev nD) (t : Fin cfg1.N) (p : Fin 8000) (u : Fin 1) (k : S16504000x1.Idx)
    (hk0 : (k 0).val = t.val * 8000 + p.val) (hk1 : (k 1).val = u.val) :
    (iblk1 V c 1 t : Vec Ideal S8000x1 .f32) (ix2 p u) = (V c main_v42 : FVec Ideal S16504000x1 .f32) k := by
  obtain ⟨-, -, e0, e1, -⟩ := block_index t
  unfold iblk1
  rw [View.read_apply]
  show (V c main_v42 : FVec Ideal S16504000x1 .f32) _ = (V c main_v42 : FVec Ideal S16504000x1 .f32) k
  congr 1
  funext a
  apply Fin.ext
  match a with
  | ⟨0, _⟩ => show win1_1.index t (0 : Fin 2) * 8000 + 1 * p.val = (k 0).val; rw [e0, hk0]; omega
  | ⟨1, _⟩ => show win1_1.index t (1 : Fin 2) * 1 + 1 * u.val = (k 1).val; rw [e1, hk1]; omega

/-- What point `t` writes back is block `t` of the scaled array: at entry `(p, q)` of the block, the body's product of the
    two operands' blocks is the product of the arrays' entries at row `8000 t + p`. -/
theorem flushed_eq (c : Dev nD) (t : Fin cfg1.N) :
    (dat1 V c).flushed 2 t = ((cfg1.win 2).blk t).view.read (Elt Ideal) (scaled (V c main_v40) (V c main_v42)) := by
  show (cfg1.win 2).cut (grid1.coords t) ((dat1 V c).after 2 t) = _
  rw [after1_2]
  unfold out1_2
  rw [View.canon_unit_zero zero_offsets]
  simp only [View.ld_unit_zero (S := S8000x5) zero_offsets, View.ld_unit_zero (S := S8000x1) zero_offsets]
  obtain ⟨-, -, -, -, e0, e1⟩ := block_index t
  funext j
  obtain ⟨p, q, rfl⟩ : ∃ (p : Fin 8000) (q : Fin 5), (j : S8000x5.Idx) = ix2 p q := ⟨j 0, j 1, eq_ix2 (n0 := 8000) (n1 := 5) j⟩
  show k1_pay1 (iblk1 V c 0 t) (iblk1 V c 1 t) (ix2 p q)
    = scaled (V c main_v40) (V c main_v42) (((cfg1.win 2).blk t).view.emb (ix2 p q))
  have h0 : ((((cfg1.win 2).blk t).view.emb (ix2 p q) : S16504000x5.Idx) 0).val = t.val * 8000 + p.val := by
    show win1_2.index t (0 : Fin 2) * 8000 + 1 * p.val = _; rw [e0]; omega
  have h1 : ((((cfg1.win 2).blk t).view.emb (ix2 p q) : S16504000x5.Idx) 1).val = q.val := by
    show win1_2.index t (1 : Fin 2) * 5 + 1 * q.val = _; rw [e1]; omega
  rw [payload_apply, block0_apply V c t p q _ h0 h1, block1_apply V c t p 0 (ix2 (n0 := 16504000) (n1 := 1) ((((cfg1.win 2).blk t).view.emb (ix2 p q) : S16504000x5.Idx) 0) 0) h0 rfl]

/-- An index of the array is in point `t`'s block iff each coordinate is in the block's range on its axis. -/
theorem mem_block (t : Fin cfg1.N) (i : S16504000x5.Idx) :
    i ∈ ((cfg1.win 2).blk t).view.set ↔ ∀ a : Fin 2, win1_2.index t a * S8000x5.size a ≤ (i a).val ∧ (i a).val < win1_2.index t a * S8000x5.size a + S8000x5.size a := by
  show i ∈ ((View.whole main_v43).slice (win1_2.rect t)).set ↔ _
  rw [View.set_slice_whole, Rect.mem_set_unit]
  exact Iff.rfl

/-- The blocks tile the array: row `r` lies in the block of point `r / 8000`, and every point writes its block back. -/
theorem covered (i : S16504000x5.Idx) :
    ∃ t : Fin cfg1.N, (cfg1.win 2).flush t = true ∧ i ∈ ((cfg1.win 2).blk t).view.set := by
  have hi0 : (i 0).val < 16504000 := idx2_lt0 i
  have hi1 : (i 1).val < 5 := idx2_lt1 i
  have hN : cfg1.N = 2063 := N_1
  have ht : (i 0).val / 8000 < cfg1.N := by rw [hN]; omega
  refine ⟨⟨(i 0).val / 8000, ht⟩, flush1_2 _, ?_⟩
  rw [mem_block]
  obtain ⟨-, -, -, -, e0, e1⟩ := block_index ⟨(i 0).val / 8000, ht⟩
  intro a
  match a with
  | ⟨0, _⟩ =>
    show win1_2.index ⟨(i 0).val / 8000, ht⟩ (0 : Fin 2) * 8000 ≤ (i 0).val ∧ (i 0).val < win1_2.index ⟨(i 0).val / 8000, ht⟩ (0 : Fin 2) * 8000 + 8000
    rw [e0]; show (i 0).val / 8000 * 8000 ≤ (i 0).val ∧ (i 0).val < (i 0).val / 8000 * 8000 + 8000; omega
  | ⟨1, _⟩ =>
    show win1_2.index ⟨(i 0).val / 8000, ht⟩ (1 : Fin 2) * 5 ≤ (i 1).val ∧ (i 1).val < win1_2.index ⟨(i 0).val / 8000, ht⟩ (1 : Fin 2) * 5 + 5
    rw [e1]; omega

/-- The array after the region: the first operand with row `r` scaled by the second operand's entry `r`. -/
theorem result_eq (c : Dev nD) : (dat1 V c).arrAt 2 cfg1.N = scaled (V c main_v40) (V c main_v42) :=
  (dat1 V c).arrAt_eq_of_cover 2 (scaled (V c main_v40) (V c main_v42)) (fun t _ => flushed_eq V c t) covered

/-- The region scales row `r` of its first operand by entry `r` of its one-column second operand. When the operands are the
    gathered messages `H` and the edge weights `n` as a column, each followed by 4000 padding rows, the first 16500000 rows
    of the result are `H` with row `r` scaled by `n r`, whatever the padding rows hold. -/
theorem slice_eq (c : Dev nD)
    (H : FVec Ideal S16500000x5 .f32) (n : FVec Ideal S16500000 .f32) (Z : FVec Ideal S4000x5 .f32) (Z1 : FVec Ideal S4000x1 .f32)
    (hc : Shape.Concatenates [S16500000x5, S4000x5] S16504000x5 0) (hc1 : Shape.Concatenates [S16500000x1, S4000x1] S16504000x1 0)
    (hsc : S16500000.ShapeCasts S16500000x1) (hs : S16504000x5.Slices ![0, 0] S16500000x5)
    (hb0 : S16500000.BroadcastsInDim S16500000x1 (![0] : Fin 1 → Fin S16500000x1.rank))
    (hb1 : S16500000x1.BroadcastsInDim S16500000x5 (![0, 1] : Fin 2 → Fin S16500000x5.rank))
    (hH : V c main_v40 = concatenate S16504000x5 0 [⟨S16500000x5, H⟩, ⟨S4000x5, Z⟩] hc)
    (hn : V c main_v42 = concatenate S16504000x1 0 [⟨S16500000x1, shapeCast S16500000x1 n hsc⟩, ⟨S4000x1, Z1⟩] hc1) :
    extractStridedSlice S16500000x5 ![0, 0] ((dat1 V c).arrAt 2 cfg1.N) hs
      = mulf H (broadcastInDim S16500000x5 ![0, 1] hb1 (broadcastInDim S16500000x1 ![0] hb0 n)) := by
  rw [result_eq V c, hH, hn]
  funext j
  obtain ⟨r, q, rfl⟩ : ∃ (r : Fin 16500000) (q : Fin 5), j = ix2 r q := ⟨j 0, j 1, eq_ix2 j⟩
  have hr : r.val < 16504000 := by have := r.isLt; omega
  -- the slice at zero offsets reads the same coordinates of the scaled array
  refine (extractStridedSlice_apply ![0, 0] _ hs (ix2 r q) (ix2 (⟨r.val, hr⟩ : Fin 16504000) q) fun a => ?_).trans ?_
  · match a with
    | ⟨0, _⟩ => show r.val = 0 + r.val; omega
    | ⟨1, _⟩ => show q.val = 0 + q.val; omega
  show concatenate S16504000x5 0 [⟨S16500000x5, H⟩, ⟨S4000x5, Z⟩] hc (ix2 (⟨r.val, hr⟩ : Fin 16504000) q)
      * concatenate S16504000x1 0 [⟨S16500000x1, shapeCast S16500000x1 n hsc⟩, ⟨S4000x1, Z1⟩] hc1 (ix2 (⟨r.val, hr⟩ : Fin 16504000) (0 : Fin 1))
    = H (ix2 r q) * broadcastInDim S16500000x5 ![0, 1] hb1 (broadcastInDim S16500000x1 ![0] hb0 n) (ix2 r q)
  -- a row below 16500000 of each concatenation lies in its first piece
  have eH : concatenate S16504000x5 0 [⟨S16500000x5, H⟩, ⟨S4000x5, Z⟩] hc (ix2 (⟨r.val, hr⟩ : Fin 16504000) q) = H (ix2 r q) :=
    concatenate_pair_apply_left 0 H Z hc _ rfl (ix2 r q) fun b => by
      match b with
      | ⟨0, _⟩ => rfl
      | ⟨1, _⟩ => rfl
  have eN : concatenate S16504000x1 0 [⟨S16500000x1, shapeCast S16500000x1 n hsc⟩, ⟨S4000x1, Z1⟩] hc1 (ix2 (⟨r.val, hr⟩ : Fin 16504000) (0 : Fin 1))
      = shapeCast S16500000x1 n hsc (ix2 r (0 : Fin 1)) :=
    concatenate_pair_apply_left 0 (shapeCast S16500000x1 n hsc) Z1 hc1 _ rfl (ix2 r (0 : Fin 1)) fun b => by
      match b with
      | ⟨0, _⟩ => rfl
      | ⟨1, _⟩ => rfl
  -- the column cast at (r, 0) is the weight of row r, and so are the two broadcasts at (r, q)
  have eB : broadcastInDim S16500000x5 ![0, 1] hb1 (broadcastInDim S16500000x1 ![0] hb0 n) (ix2 r q) = n (ix1 r) := by
    refine (broadcastInDim_apply ![0, 1] hb1 _ (ix2 r q) (ix2 r (0 : Fin 1)) fun a => ?_).trans ?_
    · match a with
      | ⟨0, _⟩ => show r.val = if (16500000 : Nat) = 1 then 0 else r.val; rw [if_neg (by omega)]
      | ⟨1, _⟩ => rfl
    refine broadcastInDim_apply ![0] hb0 n (ix2 r (0 : Fin 1)) (ix1 r) fun a => ?_
    match a with
    | ⟨0, _⟩ => show r.val = if (16500000 : Nat) = 1 then 0 else r.val; rw [if_neg (by omega)]
  rw [eH, eN, eB, Cert.LibColumns.shapeCast_a_a1_apply n hsc r 0]

end Cert.KernelIdeal.Reg1

end
-- ==== Proof.Reg2.lean ====
/-
  The first layer's bias and rectifier, block by block: each grid point adds the bias row to 5000 rows of the aggregate
  and takes the maximum with zero.
-/
import proofs.«145865_j34368328302938_1_alg».proof.Proof.Gen.KernelIdeal.Frame
import proofs.«145865_j34368328302938_1_alg».proof.Proof.LibColumns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg2

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The offsets of a whole block. -/
theorem hz : (![0, 0] : Fin 2 → Nat) = fun _ => 0 := funext fun a => match a with | ⟨0, _⟩ => rfl | ⟨1, _⟩ => rfl

/-- The region's whole-array function: entry (r, q) is the aggregate's entry plus the bias row's entry q, clamped below
    at the zero word's value. -/
abbrev G (A' : S500000x5.Idx → Elt Ideal .f32) (B : S1x5.Idx → Elt Ideal .f32) : S500000x5.Idx → Elt Ideal .f32 :=
  fun i => (max ((A' i : Ideal .f32) + (B (ix2 (0 : Fin 1) (i 1)) : Ideal .f32)) (Ideal.ofBits .f32 0x00000000#32) : Ideal .f32)

/-- The body's value at entry (p, q) of a block: the block's entry plus the bias row's entry q, clamped below at the
    zero word's value. -/
theorem pay_apply (x0 : Vec Ideal S5000x5 .f32) (x1 : Vec Ideal S1x5 .f32) (p : Fin 5000) (q : Fin 5) :
    k2_pay1 x0 x1 (ix2 p q)
      = (max ((x0 (ix2 p q) : Ideal .f32) + (x1 (ix2 (0 : Fin 1) q) : Ideal .f32)) (Ideal.ofBits .f32 0x00000000#32) : Ideal .f32) := by
  unfold k2_pay1
  rw [shapeCast_self, shapeCast_self]
  refine (maximumf_apply _ _ _).trans ?_
  rw [addf_apply, broadcast_apply, broadcastTo_1b_ab_apply]
  rfl

/-- The printed index maps over the grid: windows 0 and 2 sit at block (t, 0), window 1 at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The aggregate's block at point t, read at (p, q), is the aggregate at row 5000 t + p, column q. -/
theorem aggBlock_apply (c : Dev nD) (t : Fin cfg2.N) (p : Fin 5000) (q : Fin 5) (k : S500000x5.Idx)
    (hk0 : (k 0).val = t.val * 5000 + p.val) (hk1 : (k 1).val = q.val) :
    (iblk2 V c 0 t : Vec Ideal S5000x5 .f32) (ix2 p q) = (V c main_v47 : S500000x5.Idx → Elt Ideal .f32) k := by
  obtain ⟨e0, e1, -⟩ := idx_facts t
  unfold iblk2
  rw [View.read_apply]
  refine congrArg (V c main_v47 : S500000x5.Idx → Elt Ideal .f32) (funext fun a => Fin.ext ?_)
  match a with
  | ⟨0, _⟩ => show win2_0.index t (0 : Fin 2) * 5000 + 1 * p.val = (k 0).val; rw [e0, hk0]; omega
  | ⟨1, _⟩ => show win2_0.index t (1 : Fin 2) * 5 + 1 * q.val = (k 1).val; rw [e1, hk1]; omega

/-- The bias row's block at any point, read at (u, q), is the bias row at (0, q). -/
theorem biasBlock_apply (c : Dev nD) (t : Fin cfg2.N) (u : Fin 1) (q : Fin 5) (k : S1x5.Idx)
    (hk0 : (k 0).val = 0) (hk1 : (k 1).val = q.val) :
    (iblk2 V c 1 t : Vec Ideal S1x5 .f32) (ix2 u q) = (V c main_v48 : S1x5.Idx → Elt Ideal .f32) k := by
  obtain ⟨-, -, e2, e3, -⟩ := idx_facts t
  have hu : u.val = 0 := by omega
  unfold iblk2
  rw [View.read_apply]
  refine congrArg (V c main_v48 : S1x5.Idx → Elt Ideal .f32) (funext fun a => Fin.ext ?_)
  match a with
  | ⟨0, _⟩ => show win2_1.index t (0 : Fin 2) * 1 + 1 * u.val = (k 0).val; rw [e2, hk0, hu]
  | ⟨1, _⟩ => show win2_1.index t (1 : Fin 2) * 5 + 1 * q.val = (k 1).val; rw [e3, hk1]; omega

/-- What point t writes back is block t of the whole-array function of the arrays as the region finds them. -/
theorem flushed_eq (c : Dev nD) (t : Fin cfg2.N) :
    (dat2 V c).flushed 2 t = ((cfg2.win 2).blk t).view.read (Elt Ideal) (G (V c main_v47) (V c main_v48)) := by
  show (cfg2.win 2).cut (grid2.coords t) ((dat2 V c).after 2 t) = _
  rw [after2_2]
  unfold out2_2
  rw [View.canon_unit_zero hz]
  simp only [View.ld_unit_zero (S := S5000x5) hz, View.ld_unit_zero (S := S1x5) hz]
  obtain ⟨-, -, -, -, e4, e5⟩ := idx_facts t
  funext j
  obtain ⟨p, q, rfl⟩ : ∃ (p : Fin 5000) (q : Fin 5), j = ix2 p q := ⟨j 0, j 1, eq_ix2 j⟩
  show k2_pay1 (iblk2 V c 0 t) (iblk2 V c 1 t) (ix2 p q)
    = G (V c main_v47) (V c main_v48) (((cfg2.win 2).blk t).view.emb (ix2 p q))
  refine (pay_apply (iblk2 V c 0 t) (iblk2 V c 1 t) p q).trans ?_
  have h0 : (iblk2 V c 0 t : Vec Ideal S5000x5 .f32) (ix2 p q)
      = (V c main_v47 : S500000x5.Idx → Elt Ideal .f32) (((cfg2.win 2).blk t).view.emb (ix2 p q)) :=
    aggBlock_apply V c t p q _
      (by show win2_2.index t (0 : Fin 2) * 5000 + 1 * p.val = _; rw [e4]; omega)
      (by show win2_2.index t (1 : Fin 2) * 5 + 1 * q.val = _; rw [e5]; omega)
  have h1 : (iblk2 V c 1 t : Vec Ideal S1x5 .f32) (ix2 (0 : Fin 1) q)
      = (V c main_v48 : S1x5.Idx → Elt Ideal .f32) (ix2 (0 : Fin 1) ((((cfg2.win 2).blk t).view.emb (ix2 p q)) 1)) :=
    biasBlock_apply V c t 0 q _ rfl
      (by show (((cfg2.win 2).blk t).view.emb (ix2 p q) 1).val = q.val
          show win2_2.index t (1 : Fin 2) * 5 + 1 * q.val = _; rw [e5]; omega)
  rw [h0, h1]

/-- An index of the array is in point t's block iff each coordinate is in the block's range on its axis. -/
theorem mem_blk (t : Fin cfg2.N) (i : S500000x5.Idx) :
    i ∈ ((cfg2.win 2).blk t).view.set ↔ ∀ a : Fin 2, win2_2.index t a * S5000x5.size a ≤ (i a).val ∧ (i a).val < win2_2.index t a * S5000x5.size a + S5000x5.size a := by
  show i ∈ ((View.whole main_v49).slice (win2_2.rect t)).set ↔ _
  rw [View.set_slice_whole, Rect.mem_set_unit]
  exact Iff.rfl

/-- Every row r of the array lies in the block of point r / 5000. -/
theorem cover (i : S500000x5.Idx) :
    ∃ t : Fin cfg2.N, (cfg2.win 2).flush t = true ∧ i ∈ ((cfg2.win 2).blk t).view.set := by
  have hi0 : (i 0).val < 500000 := (i 0).isLt
  have hi1 : (i 1).val < 5 := (i 1).isLt
  have hN : cfg2.N = 100 := N_2
  obtain ⟨t, ht⟩ : ∃ t : Fin cfg2.N, t.val = (i 0).val / 5000 := ⟨⟨(i 0).val / 5000, by rw [hN]; omega⟩, rfl⟩
  obtain ⟨-, -, -, -, e4, e5⟩ := idx_facts t
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; rw [e4, ht]; omega
  | ⟨1, _⟩ => show win2_2.index t (1 : Fin 2) * 5 ≤ (i 1).val ∧ (i 1).val < win2_2.index t (1 : Fin 2) * 5 + 5; rw [e5]; omega

/-- The array after the region is the whole-array function of the arrays as the region finds them. -/
theorem final (c : Dev nD) : (dat2 V c).arrAt 2 cfg2.N = G (V c main_v47) (V c main_v48) :=
  (dat2 V c).arrAt_eq_of_cover 2 (G (V c main_v47) (V c main_v48)) (fun t _ => flushed_eq V c t) cover

/-- After the region the result array is the aggregate plus the bias (the one-row bias broadcast down the rows), clamped
    below at zero: the host's broadcast of the bias vector along axis 1, its add and its maximum with a zero splat. -/
theorem arr_eq (c : Dev nD) (A : FVec Ideal S500000x5 .f32) (b : FVec Ideal S5 .f32)
    (hsc : S5.ShapeCasts S1x5)
    (hb0 : S5.BroadcastsInDim S1x5 (![1] : Fin 1 → Fin S1x5.rank))
    (hb1 : S1x5.BroadcastsInDim S500000x5 (![0, 1] : Fin 2 → Fin S500000x5.rank))
    (hbz : S_.BroadcastsInDim S500000x5 (![] : Fin 0 → Fin S500000x5.rank))
    (hA : V c main_v47 = A) (hb : V c main_v48 = shapeCast S1x5 b hsc) :
    (dat2 V c).arrAt 2 cfg2.N
      = maximumf (addf A (broadcastInDim S500000x5 ![0, 1] hb1 (broadcastInDim S1x5 ![1] hb0 b)))
          (broadcastInDim S500000x5 ![] hbz (constant (F := Ideal) S_ .f32 0x00000000#32)) := by
  rw [final V c, hA, hb]
  funext i
  obtain ⟨r, q, rfl⟩ : ∃ (r : Fin 500000) (q : Fin 5), i = ix2 r q := ⟨i 0, i 1, eq_ix2 i⟩
  -- the bias row [1,5] at (0, q) is the bias vector at q
  have hrow : shapeCast S1x5 b hsc (ix2 (0 : Fin 1) q) = b (ix1 q) := shapeCast_a_1a_apply b hsc 0 q
  -- the host's two broadcasts of the bias, [5] → [1,5] along axis 1 then [1,5] → [500000,5], at (r, q) read the bias at q
  have hbias : broadcastInDim S500000x5 ![0, 1] hb1 (broadcastInDim S1x5 ![1] hb0 b) (ix2 r q) = b (ix1 q) :=
    (broadcastInDim_apply ![0, 1] hb1 _ (ix2 r q) (ix2 (0 : Fin 1) q)
        (fun a => match a with | ⟨0, _⟩ => rfl | ⟨1, _⟩ => rfl)).trans
      (broadcastInDim_apply ![1] hb0 b (ix2 (0 : Fin 1) q) (ix1 q) (fun a => match a with | ⟨0, _⟩ => rfl))
  -- the zero splat at any index is the zero word's value
  have hzero : broadcastInDim S500000x5 ![] hbz (constant (F := Ideal) S_ .f32 0x00000000#32) (ix2 r q)
      = Ideal.ofBits .f32 0x00000000#32 :=
    (broadcastInDim_apply ![] hbz _ (ix2 r q) ix0 (fun a => a.elim0)).trans (constant_apply _ _)
  show (max ((A (ix2 r q) : Ideal .f32) + shapeCast S1x5 b hsc (ix2 (0 : Fin 1) q)) (Ideal.ofBits .f32 0x00000000#32) : Ideal .f32)
    = max (A (ix2 r q) + broadcastInDim S500000x5 ![0, 1] hb1 (broadcastInDim S1x5 ![1] hb0 b) (ix2 r q))
        (broadcastInDim S500000x5 ![] hbz (constant (F := Ideal) S_ .f32 0x00000000#32) (ix2 r q))
  rw [hrow, hbias, hzero]

end Cert.KernelIdeal.Reg2

end
-- ==== Proof.Reg3.lean ====
/-
  The second dense layer, block by block: each grid point multiplies 5000 rows of the hidden features by the 5×8 weight
  matrix, and the 100 blocks tile the 500000 rows, so the result array is the whole matrix product.
-/
import proofs.«145865_j34368328302938_1_alg».proof.Proof.Gen.KernelIdeal.Frame
import proofs.«145865_j34368328302938_1_alg».proof.Proof.LibColumns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg3

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## One block: the contraction read at an entry -/

/-- The left operand's row coordinate at an output entry is the entry's row. -/
theorem lhs_blk_0 (i : S5000x8.Idx) (q : dot_S5000x5_S5x8_S5000x8_1_0_0_1_n_n.contr.Idx) :
    (dot_S5000x5_S5x8_S5000x8_1_0_0_1_n_n.lhsIdx i q 0).val = (i 0).val := by
  unfold DotDims.lhsIdx
  rw [dif_neg (show ¬(0 : Fin S5000x5.rank) ∈ dot_S5000x5_S5x8_S5000x8_1_0_0_1_n_n.lhsBatch by decide), dif_pos (show (0 : Fin S5000x5.rank) ∈ dot_S5000x5_S5x8_S5000x8_1_0_0_1_n_n.lhsNonContracting by decide)]
  rfl
/-- The left operand's column coordinate is the contraction index. -/
theorem lhs_blk_1 (i : S5000x8.Idx) (q : dot_S5000x5_S5x8_S5000x8_1_0_0_1_n_n.contr.Idx) :
    (dot_S5000x5_S5x8_S5000x8_1_0_0_1_n_n.lhsIdx i q 1).val = (q ⟨0, by decide⟩).val :=
  dot_S5000x5_S5x8_S5000x8_1_0_0_1_n_n.lhsIdx_val_of_single rfl i q
/-- The right operand's row coordinate is the contraction index. -/
theorem rhs_blk_0 (i : S5000x8.Idx) (q : dot_S5000x5_S5x8_S5000x8_1_0_0_1_n_n.contr.Idx) :
    (dot_S5000x5_S5x8_S5000x8_1_0_0_1_n_n.rhsIdx i q 0).val = (q ⟨0, by decide⟩).val :=
  dot_S5000x5_S5x8_S5000x8_1_0_0_1_n_n.rhsIdx_val_of_single rfl i q
/-- The right operand's column coordinate at an output entry is the entry's column. -/
theorem rhs_blk_1 (i : S5000x8.Idx) (q : dot_S5000x5_S5x8_S5000x8_1_0_0_1_n_n.contr.Idx) :
    (dot_S5000x5_S5x8_S5000x8_1_0_0_1_n_n.rhsIdx i q 1).val = (i 1).val := by
  unfold DotDims.rhsIdx
  rw [dif_neg (show ¬(1 : Fin S5x8.rank) ∈ dot_S5000x5_S5x8_S5000x8_1_0_0_1_n_n.rhsBatch by decide), dif_pos (show (1 : Fin S5x8.rank) ∈ dot_S5000x5_S5x8_S5000x8_1_0_0_1_n_n.rhsNonContracting by decide)]
  rfl

/-- Entry (p, q) of the block product: the cast of the left block to its own shape and the change of float format are
    the identity on ideal values, and the product into the zero array is the plain contraction, ∑ₖ x0 (p, k) · x1 (k, q). -/
theorem pay_apply (x0 : Vec Ideal S5000x5 .f32) (x1 : Vec Ideal S5x8 .f32) (p : Fin 5000) (q : Fin 8) :
    k3_pay1 (F := Ideal) x0 x1 (ix2 p q) = ∑ k : Fin 5, x0 (ix2 p k) * x1 (ix2 k q) := by
  unfold k3_pay1
  simp only [matmul]
  refine (Ideal.matmul_constant_zero_apply dot_S5000x5_S5x8_S5000x8_1_0_0_1_n_n none _ _ (ix2 p q)).trans ?_
  rw [← Equiv.sum_comp (ValueIdx.contrEquiv1 dot_S5000x5_S5x8_S5000x8_1_0_0_1_n_n 5 rfl rfl).symm]
  refine Finset.sum_congr rfl fun k _ => ?_
  have hk := ValueIdx.contrEquiv1_symm_val dot_S5000x5_S5x8_S5000x8_1_0_0_1_n_n 5 rfl rfl k
  have el : dot_S5000x5_S5x8_S5000x8_1_0_0_1_n_n.lhsIdx (ix2 p q) ((ValueIdx.contrEquiv1 dot_S5000x5_S5x8_S5000x8_1_0_0_1_n_n 5 rfl rfl).symm k) = ix2 p k := funext fun a => Fin.ext (by
    match a with
    | ⟨0, _⟩ => exact lhs_blk_0 _ _
    | ⟨1, _⟩ => exact (lhs_blk_1 _ _).trans hk)
  have er : dot_S5000x5_S5x8_S5000x8_1_0_0_1_n_n.rhsIdx (ix2 p q) ((ValueIdx.contrEquiv1 dot_S5000x5_S5x8_S5000x8_1_0_0_1_n_n 5 rfl rfl).symm k) = ix2 k q := funext fun a => Fin.ext (by
    match a with
    | ⟨0, _⟩ => exact (rhs_blk_0 _ _).trans hk
    | ⟨1, _⟩ => exact rhs_blk_1 _ _)
  rw [el, er]
  show (shapeCast S5000x5 x0 shapeCasts_S5000x5_S5000x5) (ix2 p k) * x1 (ix2 k q) = x0 (ix2 p k) * x1 (ix2 k q)
  rw [shapeCast_self]

/-! ## From blocks to the array -/

theorem hz : (![0, 0] : Fin 2 → Nat) = fun _ => 0 := funext fun a => by fin_cases a <;> rfl

/-- The whole product, entry by entry: row i₀ of the hidden features against column i₁ of the weights. -/
abbrev G (X : S500000x5.Idx → Elt Ideal .f32) (W : S5x8.Idx → Elt Ideal .f32) : S500000x8.Idx → Elt Ideal .f32 :=
  fun i => ∑ k : Fin 5, X (ix2 (i 0) k) * W (ix2 k (i 1))

/-- The block index maps over the grid: the feature window and the result window sit at block (t, 0), the weight
    window at block (0, 0) at every point. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row p of the feature block at point t is row 5000·t + p of the feature array. -/
theorem feat_blk_apply (c : Dev nD) (t : Fin cfg3.N) (p : Fin 5000) (k : Fin 5) (r : Fin 500000)
    (hr : r.val = t.val * 5000 + p.val) :
    (iblk3 V c 0 t : Vec Ideal S5000x5 .f32) (ix2 p k) = (V c main_v49 : S500000x5.Idx → Elt Ideal .f32) (ix2 r k) := by
  obtain ⟨e0, e1, -, -, -, -⟩ := idx_facts t
  unfold iblk3
  rw [View.read_apply]
  show V c main_v49 _ = V c main_v49 _
  congr 1
  funext a
  apply Fin.ext
  match a with
  | ⟨0, _⟩ => show win3_0.index t (0 : Fin 2) * 5000 + 1 * p.val = r.val; omega
  | ⟨1, _⟩ => show win3_0.index t (1 : Fin 2) * 5 + 1 * k.val = k.val; omega

/-- The weight block at every point is the whole weight matrix. -/
theorem wt_blk_apply (c : Dev nD) (t : Fin cfg3.N) (k : Fin 5) (q : Fin 8) :
    (iblk3 V c 1 t : Vec Ideal S5x8 .f32) (ix2 k q) = (V c main_arg4 : S5x8.Idx → Elt Ideal .f32) (ix2 k q) := by
  obtain ⟨-, -, e2, e3, -, -⟩ := idx_facts t
  unfold iblk3
  rw [View.read_apply]
  show V c main_arg4 _ = V c main_arg4 _
  congr 1
  funext a
  apply Fin.ext
  match a with
  | ⟨0, _⟩ => show win3_1.index t (0 : Fin 2) * 5 + 1 * k.val = k.val; omega
  | ⟨1, _⟩ => show win3_1.index t (1 : Fin 2) * 8 + 1 * q.val = q.val; omega

/-- Entry (p, q) of point t's block product is entry (5000·t + p, q) of the whole product. -/
theorem point_eq (c : Dev nD) (t : Fin cfg3.N) (p : Fin 5000) (q : Fin 8) (r : Fin 500000)
    (hr : r.val = t.val * 5000 + p.val) :
    k3_pay1 (F := Ideal) (iblk3 V c 0 t) (iblk3 V c 1 t) (ix2 p q) = G (V c main_v49) (V c main_arg4) (ix2 r q) := by
  refine (pay_apply _ _ p q).trans ?_
  refine Finset.sum_congr rfl fun k _ => ?_
  exact congrArg₂ (· * ·) (feat_blk_apply V c t p k r hr) (wt_blk_apply V c t k q)

/-- What point t writes back is block t of the whole product. -/
theorem flushed_eq (c : Dev nD) (t : Fin cfg3.N) :
    (dat3 V c).flushed 2 t = ((cfg3.win 2).blk t).view.read (Elt Ideal) (G (V c main_v49) (V c main_arg4)) := by
  show (cfg3.win 2).cut (grid3.coords t) ((dat3 V c).after 2 t) = _
  rw [after3_2]
  unfold out3_2
  rw [View.canon_unit_zero hz]
  simp only [View.ld_unit_zero (S := S5000x5) hz, View.ld_unit_zero (S := S5x8) hz]
  funext j
  have hj0 : (j 0).val < 5000 := (j 0).isLt
  have hj1 : (j 1).val < 8 := (j 1).isLt
  have hN : cfg3.N = 100 := N_3
  have ht : t.val < 100 := hN ▸ t.isLt
  obtain ⟨-, -, -, -, e4, e5⟩ := idx_facts t
  have key := point_eq V c t ⟨(j 0).val, hj0⟩ ⟨(j 1).val, hj1⟩ ⟨t.val * 5000 + (j 0).val, by omega⟩ rfl
  rw [View.read_apply]
  show k3_pay1 (F := Ideal) (iblk3 V c 0 t) (iblk3 V c 1 t) j = G (V c main_v49) (V c main_arg4) (((cfg3.win 2).blk t).view.emb j)
  have ej : (j : S5000x8.Idx) = ix2 (⟨(j 0).val, hj0⟩ : Fin 5000) (⟨(j 1).val, hj1⟩ : Fin 8) := by
    funext a
    match a with
    | ⟨0, _⟩ => rfl
    | ⟨1, _⟩ => rfl
  have ee : ((cfg3.win 2).blk t).view.emb j = ix2 (⟨t.val * 5000 + (j 0).val, by omega⟩ : Fin 500000) (⟨(j 1).val, hj1⟩ : Fin 8) := by
    funext a
    apply Fin.ext
    match a with
    | ⟨0, _⟩ => show win3_2.index t (0 : Fin 2) * 5000 + 1 * (j 0).val = t.val * 5000 + (j 0).val; omega
    | ⟨1, _⟩ => show win3_2.index t (1 : Fin 2) * 8 + 1 * (j 1).val = (j 1).val; omega
  rw [ee]
  exact (congrArg (k3_pay1 (F := Ideal) (iblk3 V c 0 t) (iblk3 V c 1 t)) ej).trans key

/-- An index of the result array is in point t's block iff each coordinate is in the block's range on its axis. -/
theorem mem_blk (t : Fin cfg3.N) (i : S500000x8.Idx) :
    i ∈ ((cfg3.win 2).blk t).view.set ↔ ∀ a : Fin 2, win3_2.index t a * S5000x8.size a ≤ (i a).val ∧ (i a).val < win3_2.index t a * S5000x8.size a + S5000x8.size a := by
  show i ∈ ((View.whole main_v50).slice (win3_2.rect t)).set ↔ _
  rw [View.set_slice_whole, Rect.mem_set_unit]
  exact Iff.rfl

/-- Row r of the result array is in the block of point r / 5000: the 100 blocks of 5000 rows tile the 500000 rows. -/
theorem cover (i : S500000x8.Idx) :
    ∃ t : Fin cfg3.N, (cfg3.win 2).flush t = true ∧ i ∈ ((cfg3.win 2).blk t).view.set := by
  have hi0 : (i 0).val < 500000 := (i 0).isLt
  have hi1 : (i 1).val < 8 := (i 1).isLt
  have hN : cfg3.N = 100 := N_3
  let t : Fin cfg3.N := ⟨(i 0).val / 5000, by rw [hN]; omega⟩
  have htv : t.val = (i 0).val / 5000 := rfl
  obtain ⟨-, -, -, -, e4, e5⟩ := idx_facts t
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 8 ≤ (i 1).val ∧ (i 1).val < win3_2.index t (1 : Fin 2) * 8 + 8; omega

/-- After the region the result array holds the whole product, entry by entry. -/
theorem arr_G (c : Dev nD) : (dat3 V c).arrAt 2 cfg3.N = G (V c main_v49) (V c main_arg4) :=
  (dat3 V c).arrAt_eq_of_cover 2 (G (V c main_v49) (V c main_arg4)) (fun t _ => flushed_eq V c t) cover

/-! ## The host's contraction read at an entry -/

/-- The host's product of a [500000,5] array by a [5,8] matrix at entry i is the same sum over the 5 features. -/
theorem host_apply (X : FVec Ideal S500000x5 .f32) (W : FVec Ideal S5x8 .f32) (i : S500000x8.Idx) :
    Host.dotGeneral (F := Ideal) (φ₁ := .f32) (φ₂ := .f32) (DotDims.plain 500000 5 8) none X W i
      = ∑ k : Fin 5, X (ix2 (i 0) k) * W (ix2 k (i 1)) := by
  simp only [Host.dotGeneral]
  rw [Ideal.dotGeneral_apply, ← Equiv.sum_comp (ValueIdx.contrEquiv1 (DotDims.plain 500000 5 8) 5 rfl rfl).symm]
  refine Finset.sum_congr rfl fun k _ => ?_
  have hk := ValueIdx.contrEquiv1_symm_val (DotDims.plain 500000 5 8) 5 rfl rfl k
  have el : (DotDims.plain 500000 5 8).lhsIdx i ((ValueIdx.contrEquiv1 (DotDims.plain 500000 5 8) 5 rfl rfl).symm k) = ix2 (i 0) k := funext fun a => Fin.ext (by
    match a with
    | ⟨0, _⟩ => rfl
    | ⟨1, _⟩ => exact hk)
  have er : (DotDims.plain 500000 5 8).rhsIdx i ((ValueIdx.contrEquiv1 (DotDims.plain 500000 5 8) 5 rfl rfl).symm k) = ix2 k (i 1) := funext fun a => Fin.ext (by
    match a with
    | ⟨0, _⟩ => exact hk
    | ⟨1, _⟩ => rfl)
  rw [el, er]
  rfl

/-- After the region the result array is the product of the hidden-feature array and the weight matrix, as one
    contraction over the 5 hidden features. -/
theorem arr_eq (c : Dev nD) :
    (dat3 V c).arrAt 2 cfg3.N
      = Host.dotGeneral (F := Ideal) (φ₁ := .f32) (φ₂ := .f32) (DotDims.plain 500000 5 8) none
          (V c main_v49 : FVec Ideal S500000x5 .f32) (V c main_arg4 : FVec Ideal S5x8 .f32) := by
  rw [arr_G]
  funext i
  exact (host_apply _ _ i).symm

end Cert.KernelIdeal.Reg3

end
-- ==== Proof.Reg4.lean ====
/-
  The per-edge scaling of the second layer's messages, block by block over 2063 blocks of 8000 padded edge rows.
-/
import proofs.«145865_j34368328302938_1_alg».proof.Proof.Gen.KernelIdeal.Frame
import proofs.«145865_j34368328302938_1_alg».proof.Proof.LibColumns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg4

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The zero offsets of a whole-block load or store, as a constant function. -/
theorem zero_offsets : (![0, 0] : Fin 2 → Nat) = fun _ => 0 := funext fun a => by fin_cases a <;> rfl

/-- The region's result as one function of its two operand arrays: entry `(r, q)` is the first operand's entry `(r, q)`
    times the one-column second operand's entry of row `r`. -/
abbrev scaled (X : FVec Ideal S16504000x8 .f32) (Y : FVec Ideal S16504000x1 .f32) : FVec Ideal S16504000x8 .f32 :=
  fun i => X i * Y (ix2 (n0 := 16504000) (n1 := 1) (i 0) 0)

/-- The body's arithmetic at one entry of a block: entry `(p, q)` of the first block times entry `(p, 0)` of the
    one-column second block (the two casts are to the operands' own shapes; the column is broadcast along the rows). -/
theorem payload_apply (x0 : Vec Ideal S8000x8 .f32) (x1 : Vec Ideal S8000x1 .f32) (p : Fin 8000) (q : Fin 8) :
    k4_pay1 x0 x1 (ix2 p q) = x0 (ix2 p q) * x1 (ix2 p (0 : Fin 1)) := by
  unfold k4_pay1
  refine (mulf_apply _ _ (ix2 p q)).trans ?_
  rw [shapeCast_self, shapeCast_self]
  exact congrArg (x0 (ix2 p q) * ·) (Cert.LibColumns.broadcastTo_a1_ab_apply x1 _ p q)

/-- The three windows' block indices, decided over the grid: at point `t` every window is at block `(t, 0)`. -/
theorem block_index : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- The first operand's block at point `t` holds rows `8000 t … 8000 t + 7999` of the array: entry `(p, q)` is the
    array's entry at row `8000 t + p`, column `q`. -/
theorem block0_apply (c : Dev nD) (t : Fin cfg4.N) (p : Fin 8000) (q : Fin 8) (k : S16504000x8.Idx)
    (hk0 : (k 0).val = t.val * 8000 + p.val) (hk1 : (k 1).val = q.val) :
    (iblk4 V c 0 t : Vec Ideal S8000x8 .f32) (ix2 p q) = (V c main_v59 : FVec Ideal S16504000x8 .f32) k := by
  obtain ⟨e0, e1, -⟩ := block_index t
  unfold iblk4
  rw [View.read_apply]
  show (V c main_v59 : FVec Ideal S16504000x8 .f32) _ = (V c main_v59 : FVec Ideal S16504000x8 .f32) k
  congr 1
  funext a
  apply Fin.ext
  match a with
  | ⟨0, _⟩ => show win4_0.index t (0 : Fin 2) * 8000 + 1 * p.val = (k 0).val; rw [e0, hk0]; omega
  | ⟨1, _⟩ => show win4_0.index t (1 : Fin 2) * 8 + 1 * q.val = (k 1).val; rw [e1, hk1]; omega

/-- The second operand's block at point `t` holds rows `8000 t … 8000 t + 7999` of the one-column array. -/
theorem block1_apply (c : Dev nD) (t : Fin cfg4.N) (p : Fin 8000) (u : Fin 1) (k : S16504000x1.Idx)
    (hk0 : (k 0).val = t.val * 8000 + p.val) (hk1 : (k 1).val = u.val) :
    (iblk4 V c 1 t : Vec Ideal S8000x1 .f32) (ix2 p u) = (V c main_v61 : FVec Ideal S16504000x1 .f32) k := by
  obtain ⟨-, -, e0, e1, -⟩ := block_index t
  unfold iblk4
  rw [View.read_apply]
  show (V c main_v61 : FVec Ideal S16504000x1 .f32) _ = (V c main_v61 : FVec Ideal S16504000x1 .f32) k
  congr 1
  funext a
  apply Fin.ext
  match a with
  | ⟨0, _⟩ => show win4_1.index t (0 : Fin 2) * 8000 + 1 * p.val = (k 0).val; rw [e0, hk0]; omega
  | ⟨1, _⟩ => show win4_1.index t (1 : Fin 2) * 1 + 1 * u.val = (k 1).val; rw [e1, hk1]; omega

/-- What point `t` writes back is block `t` of the scaled array: at entry `(p, q)` of the block, the body's product of the
    two operands' blocks is the product of the arrays' entries at row `8000 t + p`. -/
theorem flushed_eq (c : Dev nD) (t : Fin cfg4.N) :
    (dat4 V c).flushed 2 t = ((cfg4.win 2).blk t).view.read (Elt Ideal) (scaled (V c main_v59) (V c main_v61)) := by
  show (cfg4.win 2).cut (grid4.coords t) ((dat4 V c).after 2 t) = _
  rw [after4_2]
  unfold out4_2
  rw [View.canon_unit_zero zero_offsets]
  simp only [View.ld_unit_zero (S := S8000x8) zero_offsets, View.ld_unit_zero (S := S8000x1) zero_offsets]
  obtain ⟨-, -, -, -, e0, e1⟩ := block_index t
  funext j
  obtain ⟨p, q, rfl⟩ : ∃ (p : Fin 8000) (q : Fin 8), (j : S8000x8.Idx) = ix2 p q := ⟨j 0, j 1, eq_ix2 (n0 := 8000) (n1 := 8) j⟩
  show k4_pay1 (iblk4 V c 0 t) (iblk4 V c 1 t) (ix2 p q)
    = scaled (V c main_v59) (V c main_v61) (((cfg4.win 2).blk t).view.emb (ix2 p q))
  have h0 : ((((cfg4.win 2).blk t).view.emb (ix2 p q) : S16504000x8.Idx) 0).val = t.val * 8000 + p.val := by
    show win4_2.index t (0 : Fin 2) * 8000 + 1 * p.val = _; rw [e0]; omega
  have h1 : ((((cfg4.win 2).blk t).view.emb (ix2 p q) : S16504000x8.Idx) 1).val = q.val := by
    show win4_2.index t (1 : Fin 2) * 8 + 1 * q.val = _; rw [e1]; omega
  rw [payload_apply, block0_apply V c t p q _ h0 h1, block1_apply V c t p 0 (ix2 (n0 := 16504000) (n1 := 1) ((((cfg4.win 2).blk t).view.emb (ix2 p q) : S16504000x8.Idx) 0) 0) h0 rfl]

/-- An index of the array is in point `t`'s block iff each coordinate is in the block's range on its axis. -/
theorem mem_block (t : Fin cfg4.N) (i : S16504000x8.Idx) :
    i ∈ ((cfg4.win 2).blk t).view.set ↔ ∀ a : Fin 2, win4_2.index t a * S8000x8.size a ≤ (i a).val ∧ (i a).val < win4_2.index t a * S8000x8.size a + S8000x8.size a := by
  show i ∈ ((View.whole main_v62).slice (win4_2.rect t)).set ↔ _
  rw [View.set_slice_whole, Rect.mem_set_unit]
  exact Iff.rfl

/-- The blocks tile the array: row `r` lies in the block of point `r / 8000`, and every point writes its block back. -/
theorem covered (i : S16504000x8.Idx) :
    ∃ t : Fin cfg4.N, (cfg4.win 2).flush t = true ∧ i ∈ ((cfg4.win 2).blk t).view.set := by
  have hi0 : (i 0).val < 16504000 := idx2_lt0 i
  have hi1 : (i 1).val < 8 := idx2_lt1 i
  have hN : cfg4.N = 2063 := N_4
  have ht : (i 0).val / 8000 < cfg4.N := by rw [hN]; omega
  refine ⟨⟨(i 0).val / 8000, ht⟩, flush4_2 _, ?_⟩
  rw [mem_block]
  obtain ⟨-, -, -, -, e0, e1⟩ := block_index ⟨(i 0).val / 8000, ht⟩
  intro a
  match a with
  | ⟨0, _⟩ =>
    show win4_2.index ⟨(i 0).val / 8000, ht⟩ (0 : Fin 2) * 8000 ≤ (i 0).val ∧ (i 0).val < win4_2.index ⟨(i 0).val / 8000, ht⟩ (0 : Fin 2) * 8000 + 8000
    rw [e0]; show (i 0).val / 8000 * 8000 ≤ (i 0).val ∧ (i 0).val < (i 0).val / 8000 * 8000 + 8000; omega
  | ⟨1, _⟩ =>
    show win4_2.index ⟨(i 0).val / 8000, ht⟩ (1 : Fin 2) * 8 ≤ (i 1).val ∧ (i 1).val < win4_2.index ⟨(i 0).val / 8000, ht⟩ (1 : Fin 2) * 8 + 8
    rw [e1]; omega

/-- The array after the region: the first operand with row `r` scaled by the second operand's entry `r`. -/
theorem result_eq (c : Dev nD) : (dat4 V c).arrAt 2 cfg4.N = scaled (V c main_v59) (V c main_v61) :=
  (dat4 V c).arrAt_eq_of_cover 2 (scaled (V c main_v59) (V c main_v61)) (fun t _ => flushed_eq V c t) covered

/-- The region scales row `r` of its first operand by entry `r` of its one-column second operand. When the operands are the
    gathered messages `H` and the edge weights `n` as a column, each followed by 4000 padding rows, the first 16500000 rows
    of the result are `H` with row `r` scaled by `n r`, whatever the padding rows hold. -/
theorem slice_eq (c : Dev nD)
    (H : FVec Ideal S16500000x8 .f32) (n : FVec Ideal S16500000 .f32) (Z : FVec Ideal S4000x8 .f32) (Z1 : FVec Ideal S4000x1 .f32)
    (hc : Shape.Concatenates [S16500000x8, S4000x8] S16504000x8 0) (hc1 : Shape.Concatenates [S16500000x1, S4000x1] S16504000x1 0)
    (hsc : S16500000.ShapeCasts S16500000x1) (hs : S16504000x8.Slices ![0, 0] S16500000x8)
    (hb0 : S16500000.BroadcastsInDim S16500000x1 (![0] : Fin 1 → Fin S16500000x1.rank))
    (hb1 : S16500000x1.BroadcastsInDim S16500000x8 (![0, 1] : Fin 2 → Fin S16500000x8.rank))
    (hH : V c main_v59 = concatenate S16504000x8 0 [⟨S16500000x8, H⟩, ⟨S4000x8, Z⟩] hc)
    (hn : V c main_v61 = concatenate S16504000x1 0 [⟨S16500000x1, shapeCast S16500000x1 n hsc⟩, ⟨S4000x1, Z1⟩] hc1) :
    extractStridedSlice S16500000x8 ![0, 0] ((dat4 V c).arrAt 2 cfg4.N) hs
      = mulf H (broadcastInDim S16500000x8 ![0, 1] hb1 (broadcastInDim S16500000x1 ![0] hb0 n)) := by
  rw [result_eq V c, hH, hn]
  funext j
  obtain ⟨r, q, rfl⟩ : ∃ (r : Fin 16500000) (q : Fin 8), j = ix2 r q := ⟨j 0, j 1, eq_ix2 j⟩
  have hr : r.val < 16504000 := by have := r.isLt; omega
  -- the slice at zero offsets reads the same coordinates of the scaled array
  refine (extractStridedSlice_apply ![0, 0] _ hs (ix2 r q) (ix2 (⟨r.val, hr⟩ : Fin 16504000) q) fun a => ?_).trans ?_
  · match a with
    | ⟨0, _⟩ => show r.val = 0 + r.val; omega
    | ⟨1, _⟩ => show q.val = 0 + q.val; omega
  show concatenate S16504000x8 0 [⟨S16500000x8, H⟩, ⟨S4000x8, Z⟩] hc (ix2 (⟨r.val, hr⟩ : Fin 16504000) q)
      * concatenate S16504000x1 0 [⟨S16500000x1, shapeCast S16500000x1 n hsc⟩, ⟨S4000x1, Z1⟩] hc1 (ix2 (⟨r.val, hr⟩ : Fin 16504000) (0 : Fin 1))
    = H (ix2 r q) * broadcastInDim S16500000x8 ![0, 1] hb1 (broadcastInDim S16500000x1 ![0] hb0 n) (ix2 r q)
  -- a row below 16500000 of each concatenation lies in its first piece
  have eH : concatenate S16504000x8 0 [⟨S16500000x8, H⟩, ⟨S4000x8, Z⟩] hc (ix2 (⟨r.val, hr⟩ : Fin 16504000) q) = H (ix2 r q) :=
    concatenate_pair_apply_left 0 H Z hc _ rfl (ix2 r q) fun b => by
      match b with
      | ⟨0, _⟩ => rfl
      | ⟨1, _⟩ => rfl
  have eN : concatenate S16504000x1 0 [⟨S16500000x1, shapeCast S16500000x1 n hsc⟩, ⟨S4000x1, Z1⟩] hc1 (ix2 (⟨r.val, hr⟩ : Fin 16504000) (0 : Fin 1))
      = shapeCast S16500000x1 n hsc (ix2 r (0 : Fin 1)) :=
    concatenate_pair_apply_left 0 (shapeCast S16500000x1 n hsc) Z1 hc1 _ rfl (ix2 r (0 : Fin 1)) fun b => by
      match b with
      | ⟨0, _⟩ => rfl
      | ⟨1, _⟩ => rfl
  -- the column cast at (r, 0) is the weight of row r, and so are the two broadcasts at (r, q)
  have eB : broadcastInDim S16500000x8 ![0, 1] hb1 (broadcastInDim S16500000x1 ![0] hb0 n) (ix2 r q) = n (ix1 r) := by
    refine (broadcastInDim_apply ![0, 1] hb1 _ (ix2 r q) (ix2 r (0 : Fin 1)) fun a => ?_).trans ?_
    · match a with
      | ⟨0, _⟩ => show r.val = if (16500000 : Nat) = 1 then 0 else r.val; rw [if_neg (by omega)]
      | ⟨1, _⟩ => rfl
    refine broadcastInDim_apply ![0] hb0 n (ix2 r (0 : Fin 1)) (ix1 r) fun a => ?_
    match a with
    | ⟨0, _⟩ => show r.val = if (16500000 : Nat) = 1 then 0 else r.val; rw [if_neg (by omega)]
  rw [eH, eN, eB, Cert.LibColumns.shapeCast_a_a1_apply n hsc r 0]

end Cert.KernelIdeal.Reg4

end
-- ==== Proof.Reg5.lean ====
/-
  The second layer's bias and row-wise log-softmax, block by block: each grid point adds the bias row to 5000 rows of the
  aggregate, subtracts each row's maximum, and subtracts the logarithm of the row's sum of exponentials.
-/
import proofs.«145865_j34368328302938_1_alg».proof.Proof.Gen.KernelIdeal.Frame
import proofs.«145865_j34368328302938_1_alg».proof.Proof.LibColumns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg5

open Idealize.ShloMosaic Idealize.ShloMosaic.TcCoe Idealize.ShloMosaic.ValueIdx Idealize.SL.Sem
open Idealize.ShloMosaic.Pipeline (Dat)
open Cert.KernelIdeal Cert.KernelIdeal.Gen

/-- The column shape the host's log-softmax keeps its row maxima and row sums in. -/
abbrev S500000x1 : Shape := ⟨2, ![500000, 1]⟩

variable (V : (c : Dev nD) → (b : Ref sig .tc) → Buf (Elt Ideal) ((c : Thread nD τ).loc b))

/-- The host's log-softmax along axis 1 of a 500000×8 array: the row maximum (a max-reduce from −∞, then the maximum with a
    −∞ splat), the shifted array, and the shifted array less the logarithm of its row sums of exponentials. -/
def logSoftmaxRows (Zv : FVec Ideal S500000x8 .f32)
    (hred : S500000x8.ReducesTo [1] S500000) (hu : 0 < S_.numel)
    (hbs : S_.BroadcastsInDim S500000 (![] : Fin 0 → Fin S500000.rank))
    (hb10 : S500000.BroadcastsInDim S500000x1 (![0] : Fin 1 → Fin S500000x1.rank))
    (hb81 : S500000x1.BroadcastsInDim S500000x8 (![0, 1] : Fin 2 → Fin S500000x8.rank)) : FVec Ideal S500000x8 .f32 :=
  let M0 : FVec Ideal S500000 .f32 := Host.reduce FloatOps.maximumf Zv (constant (F := Ideal) S_ .f32 0xFF800000#32) hred hu
  let M : FVec Ideal S500000 .f32 := maximumf (broadcastInDim S500000 ![] hbs (constant (F := Ideal) S_ .f32 0xFF800000#32)) M0
  let D : FVec Ideal S500000x8 .f32 := subf Zv (broadcastInDim S500000x8 ![0, 1] hb81 (broadcastInDim S500000x1 ![0] hb10 M))
  let Sm : FVec Ideal S500000 .f32 := Host.reduceAdd (Host.exp D) (constant (F := Ideal) S_ .f32 0x00000000#32) hred hu
  subf D (broadcastInDim S500000x8 ![0, 1] hb81 (Host.log (broadcastInDim S500000x1 ![0] hb10 Sm)))

/-! ## One row -/

/-- A row's maximum: the fold of `max` over its eight entries, from the value of the word the reduction starts from. -/
def rowMaxOf (z : Fin 8 → EReal) : EReal :=
  (Finset.univ : Finset (Fin 8)).fold max (Ideal.ofBits .f32 0xFF800000#32) z

/-- The log-softmax of one row of eight extended reals, at entry `q`: the entry less the row's maximum, less the
    logarithm of the sum of the exponentials of the row's entries less the maximum. -/
def lsmRow (z : Fin 8 → EReal) (q : Fin 8) : EReal :=
  (z q - rowMaxOf z) - Ideal.log (∑ k : Fin 8, Ideal.exp (z k - rowMaxOf z))

/-! ## The body's payload at an index -/

/-- The biased block at `(p, k)`: the block's entry plus the bias row's entry of column `k`. -/
theorem biased_apply (x0 : FVec Ideal S5000x8 .f32) (x1 : FVec Ideal S1x8 .f32) (h0 : S5000x8.ShapeCasts S5000x8)
    (h1 : S1x8.ShapeCasts S1x8) (hb : S1x8.Broadcasts S5000x8) (p : Fin 5000) (k : Fin 8) :
    addf (F := Ideal) (shapeCast S5000x8 x0 h0) (broadcastTo S5000x8 (shapeCast S1x8 x1 h1) hb) (ix2 p k)
      = x0 (ix2 p k) + x1 (ix2 (0 : Fin 1) k) := by
  rw [shapeCast_self, shapeCast_self]
  refine (addf_apply _ _ _).trans ?_
  exact congrArg (x0 (ix2 p k) + ·) (broadcastTo_1b_ab_apply x1 hb p k)

/-- The row maxima of a block `[5000, 8]` as the body lays them back over the block: reduced along the columns, cast to a
    column, broadcast over the columns. -/
abbrev maxBack (z : FVec Ideal S5000x8 .f32) (hr : S5000x8.Reduces [1] S5000) (hφ : FKind.Formats .f32)
    (hacc : (0xFF800000#32 : BitVec 32) = FKind.maximumf.neutral .f32 hφ) (hc : S5000.ShapeCasts S5000x1)
    (hb : S5000x1.Broadcasts S5000x8) : FVec Ideal S5000x8 .f32 :=
  broadcastTo S5000x8 (shapeCast S5000x1 (multiReduction .maximumf [1] S5000 z 0xFF800000#32 hr hφ hacc) hc) hb

/-- Laid back over the block, the row maxima read at `(p, q)` the fold of `max` over row `p`. -/
theorem maxBack_apply (z : FVec Ideal S5000x8 .f32) (hr : S5000x8.Reduces [1] S5000) (hφ : FKind.Formats .f32)
    (hacc : (0xFF800000#32 : BitVec 32) = FKind.maximumf.neutral .f32 hφ) (hc : S5000.ShapeCasts S5000x1)
    (hb : S5000x1.Broadcasts S5000x8) (p : Fin 5000) (q : Fin 8) :
    maxBack z hr hφ hacc hc hb (ix2 p q) = rowMaxOf fun k => z (ix2 p k) := by
  refine (Cert.LibColumns.broadcastTo_a1_ab_apply _ hb p q).trans ?_
  refine (Cert.LibColumns.shapeCast_a_a1_apply _ hc p 0).trans ?_
  exact Cert.LibColumns.rowMax_apply z _ hr hφ hacc p

/-- The logarithm of the row sums of a block `[5000, 8]`, the sums cast to a column and the logarithm broadcast back, at
    `(p, q)`: the logarithm of the sum over row `p`. -/
theorem logSumBack_apply (e : FVec Ideal S5000x8 .f32) (hr : S5000x8.Reduces [1] S5000) (hφ : FKind.Formats .f32)
    (hacc : (0x00000000#32 : BitVec 32) = FKind.add.neutral .f32 hφ) (hc : S5000.ShapeCasts S5000x1)
    (hb : S5000x1.Broadcasts S5000x8) (p : Fin 5000) (q : Fin 8) :
    broadcastTo S5000x8 (log (F := Ideal) (shapeCast S5000x1 (multiReduction .add [1] S5000 e 0x00000000#32 hr hφ hacc) hc)) hb (ix2 p q)
      = Ideal.log (∑ k : Fin 8, e (ix2 p k)) := by
  refine (Cert.LibColumns.broadcastTo_a1_ab_apply _ hb p q).trans ?_
  show Ideal.log (shapeCast S5000x1 (multiReduction .add [1] S5000 e 0x00000000#32 hr hφ hacc) hc (ix2 p (0 : Fin 1))) = _
  refine congrArg Ideal.log ?_
  refine (Cert.LibColumns.shapeCast_a_a1_apply _ hc p 0).trans ?_
  exact Cert.LibColumns.rowSum_apply e _ hr hφ hacc p

/-- The row-wise log-softmax of a block as the body computes it, at `(p, q)`: the log-softmax of row `p` at entry `q`. -/
theorem lsm_apply (z : FVec Ideal S5000x8 .f32) (hr : S5000x8.Reduces [1] S5000) (hφ : FKind.Formats .f32)
    (hmax : (0xFF800000#32 : BitVec 32) = FKind.maximumf.neutral .f32 hφ)
    (hadd : (0x00000000#32 : BitVec 32) = FKind.add.neutral .f32 hφ) (hc : S5000.ShapeCasts S5000x1)
    (hb : S5000x1.Broadcasts S5000x8) (p : Fin 5000) (q : Fin 8) :
    subf (F := Ideal) (subf z (maxBack z hr hφ hmax hc hb))
        (broadcastTo S5000x8 (log (F := Ideal) (shapeCast S5000x1
          (multiReduction .add [1] S5000 (exp (F := Ideal) (subf z (maxBack z hr hφ hmax hc hb))) 0x00000000#32 hr hφ hadd) hc)) hb)
        (ix2 p q)
      = lsmRow (fun k => z (ix2 p k)) q := by
  have hd : ∀ k : Fin 8, subf (F := Ideal) z (maxBack z hr hφ hmax hc hb) (ix2 p k)
      = z (ix2 p k) - rowMaxOf fun k => z (ix2 p k) := fun k =>
    (subf_apply _ _ _).trans (congrArg (z (ix2 p k) - ·) (maxBack_apply z hr hφ hmax hc hb p k))
  refine (subf_apply _ _ _).trans ?_
  unfold lsmRow
  refine congrArg₂ (· - ·) (hd q) ?_
  refine (logSumBack_apply _ hr hφ hadd hc hb p q).trans ?_
  refine congrArg Ideal.log (Finset.sum_congr rfl fun k _ => ?_)
  show Ideal.exp (subf (F := Ideal) z (maxBack z hr hφ hmax hc hb) (ix2 p k)) = _
  exact congrArg Ideal.exp (hd k)

/-- The body's payload at `(p, q)`: the log-softmax of the biased row `p` at entry `q`. -/
theorem pay_apply (x0 : Vec Ideal S5000x8 .f32) (x1 : Vec Ideal S1x8 .f32) (p : Fin 5000) (q : Fin 8) :
    k5_pay1 x0 x1 (ix2 p q) = lsmRow (fun k => x0 (ix2 p k) + x1 (ix2 (0 : Fin 1) k)) q := by
  unfold k5_pay1
  refine (lsm_apply _ _ _ _ _ _ _ p q).trans ?_
  exact congrArg (fun z => lsmRow z q) (funext fun k => biased_apply x0 x1 _ _ _ p k)

/-! ## From blocks to the array -/

/-- What the result array ends holding: row by row, the log-softmax of the aggregate's row plus the bias row. -/
def G (A' : FVec Ideal S500000x8 .f32) (B : FVec Ideal S1x8 .f32) : FVec Ideal S500000x8 .f32 :=
  fun i => lsmRow (fun k => A' (ix2 (i 0 : Fin 500000) k) + B (ix2 (0 : Fin 1) k)) (i 1 : Fin 8)

/-- The zero offsets of a whole-buffer access. -/
theorem hz : (![0, 0] : Fin 2 → Nat) = fun _ => 0 := funext fun a => by fin_cases a <;> rfl

/-- The index maps at every point of the grid: the aggregate's and the result's blocks are block `(t, 0)` at point `t`,
    the bias row's is block `(0, 0)` at every point. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Two blocks `[5000, 8]` equal at every `(p, q)` are equal. -/
theorem block_ext (X Y : Vec Ideal S5000x8 .f32) (h : ∀ (p : Fin 5000) (q : Fin 8), X (ix2 p q) = Y (ix2 p q)) : X = Y :=
  funext fun j => by rw [eq_ix2 j]; exact h _ _

/-- The aggregate's block at point `t` is rows `5000 t … 5000 t + 4999` of the aggregate. -/
theorem iblk0_apply (c : Dev nD) (t : Fin cfg5.N) (p : Fin 5000) (k : Fin 8) (i : S500000x8.Idx)
    (h0 : (i 0).val = t.val * 5000 + p.val) (h1 : (i 1).val = k.val) :
    (iblk5 V c 0 t : Vec Ideal S5000x8 .f32) (ix2 p k) = (V c main_v66 : S500000x8.Idx → EReal) i := by
  obtain ⟨e0, e1, -⟩ := idx_facts t
  unfold iblk5
  rw [View.read_apply]
  show V c main_v66 _ = V c main_v66 i
  congr 1
  funext a
  apply Fin.ext
  match a with
  | ⟨0, _⟩ => show win5_0.index t 0 * 5000 + 1 * p.val = (i 0).val; rw [e0, h0]; omega
  | ⟨1, _⟩ => show win5_0.index t 1 * 8 + 1 * k.val = (i 1).val; rw [e1, h1]; omega

/-- The bias row's block at every point is the bias row. -/
theorem iblk1_apply (c : Dev nD) (t : Fin cfg5.N) (k : Fin 8) :
    (iblk5 V c 1 t : Vec Ideal S1x8 .f32) (ix2 (0 : Fin 1) k) = (V c main_v67 : S1x8.Idx → EReal) (ix2 (0 : Fin 1) k) := by
  obtain ⟨-, -, e2, e3, -⟩ := idx_facts t
  unfold iblk5
  rw [View.read_apply]
  show V c main_v67 _ = V c main_v67 _
  congr 1
  funext a
  apply Fin.ext
  match a with
  | ⟨0, _⟩ => show win5_1.index t 0 * 1 + 1 * 0 = 0; rw [e2]
  | ⟨1, _⟩ => show win5_1.index t 1 * 8 + 1 * k.val = k.val; rw [e3]; omega

/-- The result's block at point `t`, read off a whole-array function, is its rows `5000 t … 5000 t + 4999`. -/
theorem oblk_apply (t : Fin cfg5.N) (Gf : FVec Ideal S500000x8 .f32) (p : Fin 5000) (q : Fin 8) (i : S500000x8.Idx)
    (h0 : (i 0).val = t.val * 5000 + p.val) (h1 : (i 1).val = q.val) :
    (((cfg5.win 2).blk t).view.read (Elt Ideal) Gf : Vec Ideal S5000x8 .f32) (ix2 p q) = Gf i := by
  obtain ⟨-, -, -, -, e4, e5⟩ := idx_facts t
  rw [View.read_apply]
  refine congrArg Gf (funext fun a => Fin.ext ?_)
  match a with
  | ⟨0, _⟩ => show win5_2.index t 0 * 5000 + 1 * p.val = (i 0).val; rw [e4, h0]; omega
  | ⟨1, _⟩ => show win5_2.index t 1 * 8 + 1 * q.val = (i 1).val; rw [e5, h1]; omega

/-- WHAT POINT `t` WRITES BACK is block `t` of `G` of the aggregate and the bias row as the region finds them. -/
theorem flushed_eq (c : Dev nD) (t : Fin cfg5.N) :
    (dat5 V c).flushed 2 t = ((cfg5.win 2).blk t).view.read (Elt Ideal) (G (V c main_v66) (V c main_v67)) := by
  show (cfg5.win 2).cut (grid5.coords t) ((dat5 V c).after 2 t) = _
  rw [after5_2]
  unfold out5_2
  rw [View.canon_unit_zero hz]
  simp only [View.ld_unit_zero (S := S5000x8) hz, View.ld_unit_zero (S := S1x8) hz]
  have ht : t.val < 100 := lt_of_lt_of_eq t.isLt N_5
  refine block_ext _ _ fun p q => ?_
  refine (pay_apply _ _ p q).trans ?_
  refine Eq.trans ?_ (oblk_apply t _ p q (ix2 (⟨t.val * 5000 + p.val, by omega⟩ : Fin 500000) q) rfl rfl).symm
  refine congrArg (fun z => lsmRow z q) (funext fun k => ?_)
  exact congrArg₂ (· + ·) (iblk0_apply V c t p k (ix2 (⟨t.val * 5000 + p.val, by omega⟩ : Fin 500000) k) rfl rfl)
    (iblk1_apply V c t k)

/-- An index of the array is in point `t`'s block iff each coordinate is in the block's range on its axis. -/
theorem mem_blk (t : Fin cfg5.N) (i : S500000x8.Idx) :
    i ∈ ((cfg5.win 2).blk t).view.set ↔ ∀ a : Fin 2, win5_2.index t a * S5000x8.size a ≤ (i a).val ∧ (i a).val < win5_2.index t a * S5000x8.size a + S5000x8.size a := by
  show i ∈ ((View.whole main_v68).slice (win5_2.rect t)).set ↔ _
  rw [View.set_slice_whole, Rect.mem_set_unit]
  exact Iff.rfl

/-- Every row of the array is in some point's block: row `r` in point `r / 5000`'s. -/
theorem covered (i : S500000x8.Idx) :
    ∃ t : Fin cfg5.N, (cfg5.win 2).flush t = true ∧ i ∈ ((cfg5.win 2).blk t).view.set := by
  have hi0 : (i 0).val < 500000 := (i 0).isLt
  have hi1 : (i 1).val < 8 := (i 1).isLt
  have hN : cfg5.N = 100 := N_5
  have hlt : (i 0).val / 5000 < cfg5.N := by rw [hN]; omega
  obtain ⟨-, -, -, -, e4, e5⟩ := idx_facts ⟨(i 0).val / 5000, hlt⟩
  refine ⟨⟨(i 0).val / 5000, hlt⟩, flush5_2 _, ?_⟩
  rw [mem_blk]
  intro a
  match a with
  | ⟨0, _⟩ =>
    show win5_2.index ⟨(i 0).val / 5000, hlt⟩ (0 : Fin 2) * 5000 ≤ (i 0).val
      ∧ (i 0).val < win5_2.index ⟨(i 0).val / 5000, hlt⟩ (0 : Fin 2) * 5000 + 5000
    rw [e4]
    show (i 0).val / 5000 * 5000 ≤ (i 0).val ∧ (i 0).val < (i 0).val / 5000 * 5000 + 5000
    omega
  | ⟨1, _⟩ =>
    show win5_2.index ⟨(i 0).val / 5000, hlt⟩ (1 : Fin 2) * 8 ≤ (i 1).val
      ∧ (i 1).val < win5_2.index ⟨(i 0).val / 5000, hlt⟩ (1 : Fin 2) * 8 + 8
    rw [e5]
    omega

/-- THE ARRAY after the region: `G` of the aggregate and the bias row as the region finds them. -/
theorem final (c : Dev nD) : (dat5 V c).arrAt 2 cfg5.N = G (V c main_v66) (V c main_v67) :=
  (dat5 V c).arrAt_eq_of_cover 2 (G (V c main_v66) (V c main_v67)) (fun t _ => flushed_eq V c t) covered

/-! ## The host's log-softmax at an index -/

/-- The word the row maxima start from denotes −∞. -/
theorem ofBits_negInf : Ideal.ofBits .f32 0xFF800000#32 = ⊥ := by simp [Ideal.ofBits, Ideal.ieee]

/-- A column `[500000, 1]` broadcast over the eight columns reads, at `(r, q)`, the column's entry of row `r`. -/
theorem bcast81_apply (v : FVec Ideal S500000x1 .f32)
    (hb81 : S500000x1.BroadcastsInDim S500000x8 (![0, 1] : Fin 2 → Fin S500000x8.rank)) (r : Fin 500000) (q : Fin 8) :
    broadcastInDim S500000x8 ![0, 1] hb81 v (ix2 r q) = v (ix2 r (0 : Fin 1)) := by
  refine broadcastInDim_apply _ hb81 v (ix2 r q) (ix2 r (0 : Fin 1)) fun a => ?_
  match a with
  | ⟨0, _⟩ => show r.val = if (500000 : ℕ) = 1 then 0 else r.val; rw [if_neg (by omega)]
  | ⟨1, _⟩ => rfl

/-- A vector `[500000]` laid out as a column reads, at `(r, u)`, the vector's entry `r`. -/
theorem bcast10_apply (m : FVec Ideal S500000 .f32)
    (hb10 : S500000.BroadcastsInDim S500000x1 (![0] : Fin 1 → Fin S500000x1.rank)) (r : Fin 500000) (u : Fin 1) :
    broadcastInDim S500000x1 ![0] hb10 m (ix2 r u) = m (ix1 r) := by
  refine broadcastInDim_apply _ hb10 m (ix2 r u) (ix1 r) fun a => ?_
  match a with
  | ⟨0, _⟩ => show r.val = if (500000 : ℕ) = 1 then 0 else r.val; rw [if_neg (by omega)]

/-- The host's biased aggregate at `(r, k)`: the aggregate's entry plus the bias's entry `k`. -/
theorem hostBiased_apply (A : FVec Ideal S500000x8 .f32) (b : FVec Ideal S8 .f32)
    (hb0 : S8.BroadcastsInDim S1x8 (![1] : Fin 1 → Fin S1x8.rank))
    (hb1 : S1x8.BroadcastsInDim S500000x8 (![0, 1] : Fin 2 → Fin S500000x8.rank)) (r : Fin 500000) (k : Fin 8) :
    addf (F := Ideal) A (broadcastInDim S500000x8 ![0, 1] hb1 (broadcastInDim S1x8 ![1] hb0 b)) (ix2 r k)
      = A (ix2 r k) + b (ix1 k) := by
  refine (addf_apply _ _ _).trans (congrArg (A (ix2 r k) + ·) ?_)
  refine (broadcastInDim_apply _ hb1 _ (ix2 r k) (ix2 (0 : Fin 1) k) fun a => ?_).trans ?_
  · match a with
    | ⟨0, _⟩ => rfl
    | ⟨1, _⟩ => show k.val = if (8 : ℕ) = 1 then 0 else k.val; rw [if_neg (by omega)]
  · refine broadcastInDim_apply _ hb0 b (ix2 (0 : Fin 1) k) (ix1 k) fun a => ?_
    match a with
    | ⟨0, _⟩ => show k.val = if (8 : ℕ) = 1 then 0 else k.val; rw [if_neg (by omega)]

/-- The host's max-reduce along the columns, from the −∞ word, at `r`: the fold of `max` over row `r`. -/
theorem hostRowMax_apply (Zv : FVec Ideal S500000x8 .f32) (hred : S500000x8.ReducesTo [1] S500000) (hu : 0 < S_.numel)
    (r : Fin 500000) :
    Host.reduce (FloatOps.maximumf (F := Ideal) (φ := .f32)) Zv (constant (F := Ideal) S_ .f32 0xFF800000#32) hred hu (ix1 r)
      = rowMaxOf fun k => Zv (ix2 r k) := by
  have hR : S500000x8.Reduces [1] S500000 := ⟨hred.1, Nat.zero_lt_one, hred.2⟩
  refine (Host.reduce_eq_fold_single (FloatOps.maximumf (F := Ideal) (φ := .f32)) Zv _ hred hR hu (ix1 r)).trans ?_
  have hf : (Zv ∘ hR.lift (ix1 r)) = fun k : Fin 8 => Zv (ix2 r k) :=
    funext fun k => congrArg Zv (Cert.LibColumns.lift_axis1 hR r k)
  exact congrArg (fun f => Finset.fold max (Ideal.ofBits .f32 0xFF800000#32) f (Finset.univ : Finset (Fin 8))) hf

/-- The maximum with a −∞ splat changes nothing. -/
theorem hostMaxSplat_apply (m : FVec Ideal S500000 .f32)
    (hbs : S_.BroadcastsInDim S500000 (![] : Fin 0 → Fin S500000.rank)) (r : Fin 500000) :
    maximumf (F := Ideal) (broadcastInDim S500000 ![] hbs (constant (F := Ideal) S_ .f32 0xFF800000#32)) m (ix1 r) = m (ix1 r) := by
  refine (maximumf_apply _ _ _).trans ?_
  have h : broadcastInDim S500000 ![] hbs (constant (F := Ideal) S_ .f32 0xFF800000#32) (ix1 r) = ⊥ :=
    (broadcastInDim_apply _ hbs _ (ix1 r) ix0 fun a => a.elim0).trans ofBits_negInf
  rw [h]
  exact max_bot_left _

/-- The host's sum along the columns, from the zero word, at `r`: the sum over row `r`. -/
theorem hostRowSum_apply (E : FVec Ideal S500000x8 .f32) (hred : S500000x8.ReducesTo [1] S500000) (hu : 0 < S_.numel)
    (r : Fin 500000) :
    Host.reduceAdd (F := Ideal) E (constant (F := Ideal) S_ .f32 0x00000000#32) hred hu (ix1 r) = ∑ k : Fin 8, E (ix2 r k) := by
  have hR : S500000x8.Reduces [1] S500000 := ⟨hred.1, Nat.zero_lt_one, hred.2⟩
  show Ideal.hostReduceAdd hred E (Ideal.ofBits .f32 0x00000000#32) (ix1 r) = _
  refine (Ideal.hostReduceAdd_single hred hR E _ (ix1 r)).trans ?_
  rw [Ideal.ofBits_zero_f32, zero_add]
  exact Finset.sum_congr rfl fun k _ => congrArg E (Cert.LibColumns.lift_axis1 hR r k)

/-- The host's shifted array: the array less its row maxima laid back over the rows. -/
abbrev hostShifted (Zv : FVec Ideal S500000x8 .f32) (hred : S500000x8.ReducesTo [1] S500000) (hu : 0 < S_.numel)
    (hbs : S_.BroadcastsInDim S500000 (![] : Fin 0 → Fin S500000.rank))
    (hb10 : S500000.BroadcastsInDim S500000x1 (![0] : Fin 1 → Fin S500000x1.rank))
    (hb81 : S500000x1.BroadcastsInDim S500000x8 (![0, 1] : Fin 2 → Fin S500000x8.rank)) : FVec Ideal S500000x8 .f32 :=
  subf Zv (broadcastInDim S500000x8 ![0, 1] hb81 (broadcastInDim S500000x1 ![0] hb10
    (maximumf (broadcastInDim S500000 ![] hbs (constant (F := Ideal) S_ .f32 0xFF800000#32))
      (Host.reduce FloatOps.maximumf Zv (constant (F := Ideal) S_ .f32 0xFF800000#32) hred hu))))

/-- The shifted array at `(r, k)`: the entry less the fold of `max` over row `r`. -/
theorem hostShifted_apply (Zv : FVec Ideal S500000x8 .f32) (hred : S500000x8.ReducesTo [1] S500000) (hu : 0 < S_.numel)
    (hbs : S_.BroadcastsInDim S500000 (![] : Fin 0 → Fin S500000.rank))
    (hb10 : S500000.BroadcastsInDim S500000x1 (![0] : Fin 1 → Fin S500000x1.rank))
    (hb81 : S500000x1.BroadcastsInDim S500000x8 (![0, 1] : Fin 2 → Fin S500000x8.rank)) (r : Fin 500000) (k : Fin 8) :
    hostShifted Zv hred hu hbs hb10 hb81 (ix2 r k) = Zv (ix2 r k) - rowMaxOf fun k => Zv (ix2 r k) := by
  refine (subf_apply _ _ _).trans (congrArg (Zv (ix2 r k) - ·) ?_)
  refine (bcast81_apply _ hb81 r k).trans ?_
  refine (bcast10_apply _ hb10 r 0).trans ?_
  refine (hostMaxSplat_apply _ hbs r).trans ?_
  exact hostRowMax_apply Zv hred hu r

/-- The host's logarithm and exponential act entry by entry. -/
theorem hostLog_apply {s : Shape} (x : FVec Ideal s .f32) (i : s.Idx) : Host.log (F := Ideal) x i = Ideal.log (x i) := rfl
theorem hostExp_apply {s : Shape} (x : FVec Ideal s .f32) (i : s.Idx) : Host.exp (F := Ideal) x i = Ideal.exp (x i) := rfl

/-- A shifted array less the logarithm of its row sums of exponentials, as the host lays it out, at `(r, q)`. -/
theorem hostLogSum_apply (D : FVec Ideal S500000x8 .f32) (hred : S500000x8.ReducesTo [1] S500000) (hu : 0 < S_.numel)
    (hb10 : S500000.BroadcastsInDim S500000x1 (![0] : Fin 1 → Fin S500000x1.rank))
    (hb81 : S500000x1.BroadcastsInDim S500000x8 (![0, 1] : Fin 2 → Fin S500000x8.rank)) (r : Fin 500000) (q : Fin 8) :
    subf (F := Ideal) D (broadcastInDim S500000x8 ![0, 1] hb81 (Host.log (F := Ideal) (broadcastInDim S500000x1 ![0] hb10
        (Host.reduceAdd (F := Ideal) (Host.exp (F := Ideal) D) (constant (F := Ideal) S_ .f32 0x00000000#32) hred hu)))) (ix2 r q)
      = D (ix2 r q) - Ideal.log (∑ k : Fin 8, Ideal.exp (D (ix2 r k))) := by
  refine (subf_apply _ _ _).trans (congrArg (D (ix2 r q) - ·) ?_)
  refine (bcast81_apply _ hb81 r q).trans ?_
  refine (hostLog_apply _ _).trans (congrArg Ideal.log ?_)
  refine (bcast10_apply _ hb10 r 0).trans ?_
  refine (hostRowSum_apply (Host.exp (F := Ideal) D) hred hu r).trans ?_
  exact Finset.sum_congr rfl fun k _ => hostExp_apply D (ix2 r k)

/-- The host's log-softmax at `(r, q)`: the log-softmax of row `r` at entry `q`. -/
theorem logSoftmaxRows_apply (Zv : FVec Ideal S500000x8 .f32) (hred : S500000x8.ReducesTo [1] S500000) (hu : 0 < S_.numel)
    (hbs : S_.BroadcastsInDim S500000 (![] : Fin 0 → Fin S500000.rank))
    (hb10 : S500000.BroadcastsInDim S500000x1 (![0] : Fin 1 → Fin S500000x1.rank))
    (hb81 : S500000x1.BroadcastsInDim S500000x8 (![0, 1] : Fin 2 → Fin S500000x8.rank)) (r : Fin 500000) (q : Fin 8) :
    logSoftmaxRows Zv hred hu hbs hb10 hb81 (ix2 r q) = lsmRow (fun k => Zv (ix2 r k)) q := by
  have hd : ∀ k : Fin 8, hostShifted Zv hred hu hbs hb10 hb81 (ix2 r k) = Zv (ix2 r k) - rowMaxOf fun k => Zv (ix2 r k) :=
    fun k => hostShifted_apply Zv hred hu hbs hb10 hb81 r k
  unfold logSoftmaxRows
  dsimp only
  refine (hostLogSum_apply (hostShifted Zv hred hu hbs hb10 hb81) hred hu hb10 hb81 r q).trans ?_
  unfold lsmRow
  exact congrArg₂ (· - ·) (hd q) (congrArg Ideal.log (Finset.sum_congr rfl fun k _ => congrArg Ideal.exp (hd k)))

/-- After the region the result array is the host's log-softmax of the aggregate plus the bias (the one-row bias broadcast
    down the rows). -/
theorem arr_eq (c : Dev nD) (A : FVec Ideal S500000x8 .f32) (b : FVec Ideal S8 .f32)
    (hsc : S8.ShapeCasts S1x8)
    (hb0 : S8.BroadcastsInDim S1x8 (![1] : Fin 1 → Fin S1x8.rank))
    (hb1 : S1x8.BroadcastsInDim S500000x8 (![0, 1] : Fin 2 → Fin S500000x8.rank))
    (hred : S500000x8.ReducesTo [1] S500000) (hu : 0 < S_.numel)
    (hbs : S_.BroadcastsInDim S500000 (![] : Fin 0 → Fin S500000.rank))
    (hb10 : S500000.BroadcastsInDim S500000x1 (![0] : Fin 1 → Fin S500000x1.rank))
    (hb81 : S500000x1.BroadcastsInDim S500000x8 (![0, 1] : Fin 2 → Fin S500000x8.rank))
    (hA : V c main_v66 = A) (hb : V c main_v67 = shapeCast S1x8 b hsc) :
    (dat5 V c).arrAt 2 cfg5.N
      = logSoftmaxRows (addf A (broadcastInDim S500000x8 ![0, 1] hb1 (broadcastInDim S1x8 ![1] hb0 b))) hred hu hbs hb10 hb81 := by
  rw [final V c, hA, hb]
  funext i
  obtain ⟨r, q, rfl⟩ : ∃ (r : Fin 500000) (q : Fin 8), i = ix2 r q := ⟨i 0, i 1, eq_ix2 i⟩
  refine Eq.trans ?_ (logSoftmaxRows_apply _ hred hu hbs hb10 hb81 r q).symm
  show lsmRow (fun k => A (ix2 r k) + shapeCast S1x8 b hsc (ix2 (0 : Fin 1) k)) q = _
  refine congrArg (fun z => lsmRow z q) (funext fun k => ?_)
  refine Eq.trans ?_ (hostBiased_apply A b hb0 hb1 r k).symm
  exact congrArg (A (ix2 r k) + ·) (shapeCast_a_1a_apply b hsc 0 k)

end Cert.KernelIdeal.Reg5

end
-- ==== Proof.Chain.lean ====
/-
  The kernel's result, walked boundary by boundary. The kernel's program is thirteen segments: host stretches and six
  regions. At each boundary the buffers still to be read hold a stage of the reference: the source and destination
  index vectors and the per-edge weight (computed once, before the first region, and only read afterwards); then, layer
  by layer, the dense transform (a region, equal to the host's contraction), the gather by source (host), the scaling
  by the edge weight (a region over zero-padded rows, whose first 16500000 rows are the host's product), the
  scatter-add by destination (host), and the bias with its activation (a region: the rectifier in layer 1, the
  row-wise log-softmax in layer 2). A region changes only its own arrays and a host stretch only the buffers it
  writes, so every other live buffer is carried across unchanged.
-/
import proofs.«145865_j34368328302938_1_alg».proof.Proof.Gen.KernelIdeal.Frame
import proofs.«145865_j34368328302938_1_alg».proof.Proof.RefRead
import proofs.«145865_j34368328302938_1_alg».proof.Proof.HostStages
import proofs.«145865_j34368328302938_1_alg».proof.Proof.Reg0
import proofs.«145865_j34368328302938_1_alg».proof.Proof.Reg1
import proofs.«145865_j34368328302938_1_alg».proof.Proof.Reg2
import proofs.«145865_j34368328302938_1_alg».proof.Proof.Reg3
import proofs.«145865_j34368328302938_1_alg».proof.Proof.Reg4
import proofs.«145865_j34368328302938_1_alg».proof.Proof.Reg5

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.KernelIdeal.HostStages

variable (m : (ℓ : Loc nD τ sig) → Buf (Elt Ideal) ℓ) (ρ : Dev nD → PrngReg) (c : Dev nD)

/-- The launch contents of the six arguments, typed as the reference's stages take them. -/
abbrev a0 : (⟨S500000x5, .f32⟩ : BufTy).Contents (Elt Ideal) := m ((c : Thread nD τ).loc main_arg0)
abbrev a1 : (⟨S2x16000000, .i32⟩ : BufTy).Contents (Elt Ideal) := m ((c : Thread nD τ).loc main_arg1)
abbrev a2 : (⟨S5x5, .f32⟩ : BufTy).Contents (Elt Ideal) := m ((c : Thread nD τ).loc main_arg2)
abbrev a3 : (⟨S5, .f32⟩ : BufTy).Contents (Elt Ideal) := m ((c : Thread nD τ).loc main_arg3)
abbrev a4 : (⟨S5x8, .f32⟩ : BufTy).Contents (Elt Ideal) := m ((c : Thread nD τ).loc main_arg4)
abbrev a5 : (⟨S8, .f32⟩ : BufTy).Contents (Elt Ideal) := m ((c : Thread nD τ).loc main_arg5)

/-! ## After the first stretch -/

theorem w1_src : W1 m ρ c (Proc.devRef .tc main_v5) = Cert.ReferenceIdeal.ReadP.val_main_v3 (F := Ideal) (a1 m c) := src_eq (W0 m ρ c)
theorem w1_dst : W1 m ρ c (Proc.devRef .tc main_v6) = Cert.ReferenceIdeal.ReadP.val_main_v6 (F := Ideal) (a1 m c) := dst_eq (W0 m ρ c)
theorem w1_degPos : W1 m ρ c (Proc.devRef .tc main_v12) = Cert.ReferenceIdeal.ReadP.val_main_v12 (F := Ideal) (a1 m c) := degPos_eq (W0 m ρ c)
theorem w1_degRsqrt : W1 m ρ c (Proc.devRef .tc main_v13) = Cert.ReferenceIdeal.ReadP.val_main_v13 (F := Ideal) (a1 m c) := degRsqrt_eq (W0 m ρ c)
theorem w1_zero : W1 m ρ c (Proc.devRef .tc main_cst_2) = Cert.ReferenceIdeal.ReadP.val_main_cst_2 (F := Ideal) := zero_eq (W0 m ρ c)
theorem w1_arg0 : W1 m ρ c (Proc.devRef .tc main_arg0) = a0 m c := keep_hostOps0_arg0 (W0 m ρ c)
theorem w1_arg2 : W1 m ρ c (Proc.devRef .tc main_arg2) = a2 m c := keep_hostOps0_arg2 (W0 m ρ c)
theorem w1_arg3 : W1 m ρ c (Proc.devRef .tc main_arg3) = a3 m c := keep_hostOps0_arg3 (W0 m ρ c)
theorem w1_arg4 : W1 m ρ c (Proc.devRef .tc main_arg4) = a4 m c := keep_hostOps0_arg4 (W0 m ρ c)
theorem w1_arg5 : W1 m ρ c (Proc.devRef .tc main_arg5) = a5 m c := keep_hostOps0_arg5 (W0 m ρ c)

/-! ## After the selection -/

theorem w2_dinv : W2 m ρ c (Proc.devRef .tc main_v14) = Cert.ReferenceIdeal.ReadP.val_main_v14 (F := Ideal) (a1 m c) :=
  dinv_eq (W1 m ρ c) (a1 m c) (w1_degPos m ρ c) (w1_degRsqrt m ρ c) (w1_zero m ρ c)
theorem w2_src : W2 m ρ c (Proc.devRef .tc main_v5) = Cert.ReferenceIdeal.ReadP.val_main_v3 (F := Ideal) (a1 m c) := (keep_hostOps0_1_v5 (W1 m ρ c)).trans (w1_src m ρ c)
theorem w2_dst : W2 m ρ c (Proc.devRef .tc main_v6) = Cert.ReferenceIdeal.ReadP.val_main_v6 (F := Ideal) (a1 m c) := (keep_hostOps0_1_v6 (W1 m ρ c)).trans (w1_dst m ρ c)
theorem w2_arg0 : W2 m ρ c (Proc.devRef .tc main_arg0) = a0 m c := (keep_hostOps0_1_arg0 (W1 m ρ c)).trans (w1_arg0 m ρ c)
theorem w2_arg2 : W2 m ρ c (Proc.devRef .tc main_arg2) = a2 m c := (keep_hostOps0_1_arg2 (W1 m ρ c)).trans (w1_arg2 m ρ c)
theorem w2_arg3 : W2 m ρ c (Proc.devRef .tc main_arg3) = a3 m c := (keep_hostOps0_1_arg3 (W1 m ρ c)).trans (w1_arg3 m ρ c)
theorem w2_arg4 : W2 m ρ c (Proc.devRef .tc main_arg4) = a4 m c := (keep_hostOps0_1_arg4 (W1 m ρ c)).trans (w1_arg4 m ρ c)
theorem w2_arg5 : W2 m ρ c (Proc.devRef .tc main_arg5) = a5 m c := (keep_hostOps0_1_arg5 (W1 m ρ c)).trans (w1_arg5 m ρ c)

/-! ## At the first region's entry: the edge weight is there, as a column -/

theorem w3_norm : W3 m ρ c (Proc.devRef .tc main_v30)
    = shapeCast S16500000x1 (Cert.ReferenceIdeal.ReadP.val_main_v29 (F := Ideal) (a1 m c)) Facts₀.shapeCasts_S16500000_S16500000x1 :=
  norm_eq (W2 m ρ c) (a1 m c) (w2_dinv m ρ c) (w2_src m ρ c) (w2_dst m ρ c)
theorem w3_src : W3 m ρ c (Proc.devRef .tc main_v5) = Cert.ReferenceIdeal.ReadP.val_main_v3 (F := Ideal) (a1 m c) := (keep_hostOps0_2_v5 (W2 m ρ c)).trans (w2_src m ρ c)
theorem w3_dst : W3 m ρ c (Proc.devRef .tc main_v6) = Cert.ReferenceIdeal.ReadP.val_main_v6 (F := Ideal) (a1 m c) := (keep_hostOps0_2_v6 (W2 m ρ c)).trans (w2_dst m ρ c)
theorem w3_arg0 : W3 m ρ c (Proc.devRef .tc main_arg0) = a0 m c := (keep_hostOps0_2_arg0 (W2 m ρ c)).trans (w2_arg0 m ρ c)
theorem w3_arg2 : W3 m ρ c (Proc.devRef .tc main_arg2) = a2 m c := (keep_hostOps0_2_arg2 (W2 m ρ c)).trans (w2_arg2 m ρ c)
theorem w3_arg3 : W3 m ρ c (Proc.devRef .tc main_arg3) = a3 m c := (keep_hostOps0_2_arg3 (W2 m ρ c)).trans (w2_arg3 m ρ c)
theorem w3_arg4 : W3 m ρ c (Proc.devRef .tc main_arg4) = a4 m c := (keep_hostOps0_2_arg4 (W2 m ρ c)).trans (w2_arg4 m ρ c)
theorem w3_arg5 : W3 m ρ c (Proc.devRef .tc main_arg5) = a5 m c := (keep_hostOps0_2_arg5 (W2 m ρ c)).trans (w2_arg5 m ρ c)

/-! ## Layer 1, the dense transform (region 0) -/

theorem w4_h : W4 m ρ c (Proc.devRef .tc main_v31) = Cert.ReferenceIdeal.ReadP.val_main_v30 (F := Ideal) (a0 m c) (a2 m c) := by
  refine (W4_arr m ρ c 2).trans ?_
  refine (Reg0.arr_eq (V3 m ρ) c).trans ?_
  show Host.dotGeneral (F := Ideal) (φ₁ := .f32) (φ₂ := .f32) (DotDims.plain 500000 5 5) none
      (W3 m ρ c (Proc.devRef .tc main_arg0)) (W3 m ρ c (Proc.devRef .tc main_arg2)) = _
  rw [w3_arg0 m ρ c, w3_arg2 m ρ c]
  rfl
theorem w4_src : W4 m ρ c (Proc.devRef .tc main_v5) = Cert.ReferenceIdeal.ReadP.val_main_v3 (F := Ideal) (a1 m c) := (W4_of_ne m ρ c main_v5 (by decide)).trans (w3_src m ρ c)
theorem w4_dst : W4 m ρ c (Proc.devRef .tc main_v6) = Cert.ReferenceIdeal.ReadP.val_main_v6 (F := Ideal) (a1 m c) := (W4_of_ne m ρ c main_v6 (by decide)).trans (w3_dst m ρ c)
theorem w4_norm : W4 m ρ c (Proc.devRef .tc main_v30)
    = shapeCast S16500000x1 (Cert.ReferenceIdeal.ReadP.val_main_v29 (F := Ideal) (a1 m c)) Facts₀.shapeCasts_S16500000_S16500000x1 :=
  (W4_of_ne m ρ c main_v30 (by decide)).trans (w3_norm m ρ c)
theorem w4_arg3 : W4 m ρ c (Proc.devRef .tc main_arg3) = a3 m c := (W4_of_ne m ρ c main_arg3 (by decide)).trans (w3_arg3 m ρ c)
theorem w4_arg4 : W4 m ρ c (Proc.devRef .tc main_arg4) = a4 m c := (W4_of_ne m ρ c main_arg4 (by decide)).trans (w3_arg4 m ρ c)
theorem w4_arg5 : W4 m ρ c (Proc.devRef .tc main_arg5) = a5 m c := (W4_of_ne m ρ c main_arg5 (by decide)).trans (w3_arg5 m ρ c)

/-! ## Layer 1, the gather and the padding -/

theorem w5_msg : W5 m ρ c (Proc.devRef .tc main_v40)
    = concatenate S16504000x5 0 [⟨S16500000x5, Cert.ReferenceIdeal.ReadP.val_main_v37 (F := Ideal) (a0 m c) (a1 m c) (a2 m c)⟩,
        ⟨S4000x5, broadcastInDim S4000x5 ![] Facts₀.bcast_S_S4000x5 (constant (F := Ideal) S_ .f32 0x00000000#32)⟩]
        Facts₀.concatenates_S16500000x5_S4000x5_S16504000x5_d0 :=
  msg1_eq (W4 m ρ c) (a1 m c) (a0 m c) (a2 m c) (w4_h m ρ c) (w4_src m ρ c)
theorem w5_norm : W5 m ρ c (Proc.devRef .tc main_v42)
    = concatenate S16504000x1 0 [⟨S16500000x1, shapeCast S16500000x1 (Cert.ReferenceIdeal.ReadP.val_main_v29 (F := Ideal) (a1 m c)) Facts₀.shapeCasts_S16500000_S16500000x1⟩,
        ⟨S4000x1, broadcastInDim S4000x1 ![] Facts₀.bcast_S_S4000x1 (constant (F := Ideal) S_ .f32 0x00000000#32)⟩]
        Facts₀.concatenates_S16500000x1_S4000x1_S16504000x1_d0 :=
  norm1_eq (W4 m ρ c) _ (w4_norm m ρ c)
theorem w5_src : W5 m ρ c (Proc.devRef .tc main_v5) = Cert.ReferenceIdeal.ReadP.val_main_v3 (F := Ideal) (a1 m c) := (keep_hostOps1_v5 (W4 m ρ c)).trans (w4_src m ρ c)
theorem w5_dst : W5 m ρ c (Proc.devRef .tc main_v6) = Cert.ReferenceIdeal.ReadP.val_main_v6 (F := Ideal) (a1 m c) := (keep_hostOps1_v6 (W4 m ρ c)).trans (w4_dst m ρ c)
theorem w5_normcol : W5 m ρ c (Proc.devRef .tc main_v30)
    = shapeCast S16500000x1 (Cert.ReferenceIdeal.ReadP.val_main_v29 (F := Ideal) (a1 m c)) Facts₀.shapeCasts_S16500000_S16500000x1 :=
  (keep_hostOps1_v30 (W4 m ρ c)).trans (w4_norm m ρ c)
theorem w5_arg3 : W5 m ρ c (Proc.devRef .tc main_arg3) = a3 m c := (keep_hostOps1_arg3 (W4 m ρ c)).trans (w4_arg3 m ρ c)
theorem w5_arg4 : W5 m ρ c (Proc.devRef .tc main_arg4) = a4 m c := (keep_hostOps1_arg4 (W4 m ρ c)).trans (w4_arg4 m ρ c)
theorem w5_arg5 : W5 m ρ c (Proc.devRef .tc main_arg5) = a5 m c := (keep_hostOps1_arg5 (W4 m ρ c)).trans (w4_arg5 m ρ c)

/-! ## Layer 1, the scaling (region 1): its first 16500000 rows -/

theorem w6_scaled : extractStridedSlice S16500000x5 ![0, 0] (W6 m ρ c (Proc.devRef .tc main_v43)) Facts₀.slices_S16504000x5_S16500000x5_0_0
    = Cert.ReferenceIdeal.ReadP.val_main_v40 (F := Ideal) (a0 m c) (a1 m c) (a2 m c) := by
  rw [show W6 m ρ c (Proc.devRef .tc main_v43) = (dat1 (V5 m ρ) c).arrAt 2 cfg1.N from W6_arr m ρ c 2]
  exact Reg1.slice_eq (V5 m ρ) c _ _ _ _ _ _ _ _
    Cert.ReferenceIdeal.Facts₀.bcast_S16500000_S16500000x1_0 Cert.ReferenceIdeal.Facts₀.bcast_S16500000x1_S16500000x5_0_1
    (w5_msg m ρ c) (w5_norm m ρ c)
theorem w6_src : W6 m ρ c (Proc.devRef .tc main_v5) = Cert.ReferenceIdeal.ReadP.val_main_v3 (F := Ideal) (a1 m c) := (W6_of_ne m ρ c main_v5 (by decide)).trans (w5_src m ρ c)
theorem w6_dst : W6 m ρ c (Proc.devRef .tc main_v6) = Cert.ReferenceIdeal.ReadP.val_main_v6 (F := Ideal) (a1 m c) := (W6_of_ne m ρ c main_v6 (by decide)).trans (w5_dst m ρ c)
theorem w6_normcol : W6 m ρ c (Proc.devRef .tc main_v30)
    = shapeCast S16500000x1 (Cert.ReferenceIdeal.ReadP.val_main_v29 (F := Ideal) (a1 m c)) Facts₀.shapeCasts_S16500000_S16500000x1 :=
  (W6_of_ne m ρ c main_v30 (by decide)).trans (w5_normcol m ρ c)
theorem w6_arg3 : W6 m ρ c (Proc.devRef .tc main_arg3) = a3 m c := (W6_of_ne m ρ c main_arg3 (by decide)).trans (w5_arg3 m ρ c)
theorem w6_arg4 : W6 m ρ c (Proc.devRef .tc main_arg4) = a4 m c := (W6_of_ne m ρ c main_arg4 (by decide)).trans (w5_arg4 m ρ c)
theorem w6_arg5 : W6 m ρ c (Proc.devRef .tc main_arg5) = a5 m c := (W6_of_ne m ρ c main_arg5 (by decide)).trans (w5_arg5 m ρ c)

/-! ## Layer 1, the scatter-add and the bias row -/

theorem w7_agg : W7 m ρ c (Proc.devRef .tc main_v47) = Cert.ReferenceIdeal.ReadP.val_main_v43 (F := Ideal) (a0 m c) (a1 m c) (a2 m c) :=
  agg1_eq (W6 m ρ c) (a1 m c) (a0 m c) (a2 m c) (w6_scaled m ρ c) (w6_dst m ρ c)
theorem w7_bias : W7 m ρ c (Proc.devRef .tc main_v48) = shapeCast S1x5 (a3 m c) Facts₀.shapeCasts_S5_S1x5 := by
  refine (bias1_eq (W6 m ρ c)).trans ?_
  rw [w6_arg3 m ρ c]
theorem w7_src : W7 m ρ c (Proc.devRef .tc main_v5) = Cert.ReferenceIdeal.ReadP.val_main_v3 (F := Ideal) (a1 m c) := (keep_hostOps2_v5 (W6 m ρ c)).trans (w6_src m ρ c)
theorem w7_dst : W7 m ρ c (Proc.devRef .tc main_v6) = Cert.ReferenceIdeal.ReadP.val_main_v6 (F := Ideal) (a1 m c) := (keep_hostOps2_v6 (W6 m ρ c)).trans (w6_dst m ρ c)
theorem w7_normcol : W7 m ρ c (Proc.devRef .tc main_v30)
    = shapeCast S16500000x1 (Cert.ReferenceIdeal.ReadP.val_main_v29 (F := Ideal) (a1 m c)) Facts₀.shapeCasts_S16500000_S16500000x1 :=
  (keep_hostOps2_v30 (W6 m ρ c)).trans (w6_normcol m ρ c)
theorem w7_arg4 : W7 m ρ c (Proc.devRef .tc main_arg4) = a4 m c := (keep_hostOps2_arg4 (W6 m ρ c)).trans (w6_arg4 m ρ c)
theorem w7_arg5 : W7 m ρ c (Proc.devRef .tc main_arg5) = a5 m c := (keep_hostOps2_arg5 (W6 m ρ c)).trans (w6_arg5 m ρ c)

/-! ## Layer 1, the bias and the rectifier (region 2) -/

theorem w8_out : W8 m ρ c (Proc.devRef .tc main_v49) = Cert.ReferenceIdeal.ReadP.val_main_v47 (F := Ideal) (a0 m c) (a1 m c) (a2 m c) (a3 m c) := by
  refine (W8_arr m ρ c 2).trans ?_
  exact Reg2.arr_eq (V7 m ρ) c _ _ _
    Cert.ReferenceIdeal.Facts₀.bcast_S5_S1x5_1 Cert.ReferenceIdeal.Facts₀.bcast_S1x5_S500000x5_0_1 Cert.ReferenceIdeal.Facts₀.bcast_S_S500000x5
    (w7_agg m ρ c) (w7_bias m ρ c)
theorem w8_src : W8 m ρ c (Proc.devRef .tc main_v5) = Cert.ReferenceIdeal.ReadP.val_main_v3 (F := Ideal) (a1 m c) := (W8_of_ne m ρ c main_v5 (by decide)).trans (w7_src m ρ c)
theorem w8_dst : W8 m ρ c (Proc.devRef .tc main_v6) = Cert.ReferenceIdeal.ReadP.val_main_v6 (F := Ideal) (a1 m c) := (W8_of_ne m ρ c main_v6 (by decide)).trans (w7_dst m ρ c)
theorem w8_normcol : W8 m ρ c (Proc.devRef .tc main_v30)
    = shapeCast S16500000x1 (Cert.ReferenceIdeal.ReadP.val_main_v29 (F := Ideal) (a1 m c)) Facts₀.shapeCasts_S16500000_S16500000x1 :=
  (W8_of_ne m ρ c main_v30 (by decide)).trans (w7_normcol m ρ c)
theorem w8_arg4 : W8 m ρ c (Proc.devRef .tc main_arg4) = a4 m c := (W8_of_ne m ρ c main_arg4 (by decide)).trans (w7_arg4 m ρ c)
theorem w8_arg5 : W8 m ρ c (Proc.devRef .tc main_arg5) = a5 m c := (W8_of_ne m ρ c main_arg5 (by decide)).trans (w7_arg5 m ρ c)

/-! ## Layer 2, the dense transform (region 3) -/

theorem w9_h : W9 m ρ c (Proc.devRef .tc main_v50) = Cert.ReferenceIdeal.ReadP.val_main_v48 (F := Ideal) (a0 m c) (a1 m c) (a2 m c) (a3 m c) (a4 m c) := by
  refine (W9_arr m ρ c 2).trans ?_
  refine (Reg3.arr_eq (V8 m ρ) c).trans ?_
  show Host.dotGeneral (F := Ideal) (φ₁ := .f32) (φ₂ := .f32) (DotDims.plain 500000 5 8) none
      (W8 m ρ c (Proc.devRef .tc main_v49)) (W8 m ρ c (Proc.devRef .tc main_arg4)) = _
  rw [w8_out m ρ c, w8_arg4 m ρ c]
  rfl
theorem w9_src : W9 m ρ c (Proc.devRef .tc main_v5) = Cert.ReferenceIdeal.ReadP.val_main_v3 (F := Ideal) (a1 m c) := (W9_of_ne m ρ c main_v5 (by decide)).trans (w8_src m ρ c)
theorem w9_dst : W9 m ρ c (Proc.devRef .tc main_v6) = Cert.ReferenceIdeal.ReadP.val_main_v6 (F := Ideal) (a1 m c) := (W9_of_ne m ρ c main_v6 (by decide)).trans (w8_dst m ρ c)
theorem w9_normcol : W9 m ρ c (Proc.devRef .tc main_v30)
    = shapeCast S16500000x1 (Cert.ReferenceIdeal.ReadP.val_main_v29 (F := Ideal) (a1 m c)) Facts₀.shapeCasts_S16500000_S16500000x1 :=
  (W9_of_ne m ρ c main_v30 (by decide)).trans (w8_normcol m ρ c)
theorem w9_arg5 : W9 m ρ c (Proc.devRef .tc main_arg5) = a5 m c := (W9_of_ne m ρ c main_arg5 (by decide)).trans (w8_arg5 m ρ c)

/-! ## Layer 2, the gather and the padding -/

theorem w10_msg : W10 m ρ c (Proc.devRef .tc main_v59)
    = concatenate S16504000x8 0 [⟨S16500000x8, Cert.ReferenceIdeal.ReadP.val_main_v55 (F := Ideal) (a0 m c) (a1 m c) (a2 m c) (a3 m c) (a4 m c)⟩,
        ⟨S4000x8, broadcastInDim S4000x8 ![] Facts₀.bcast_S_S4000x8 (constant (F := Ideal) S_ .f32 0x00000000#32)⟩]
        Facts₀.concatenates_S16500000x8_S4000x8_S16504000x8_d0 :=
  msg2_eq (W9 m ρ c) (a1 m c) (a0 m c) (a2 m c) (a3 m c) (a4 m c) (w9_h m ρ c) (w9_src m ρ c)
theorem w10_norm : W10 m ρ c (Proc.devRef .tc main_v61)
    = concatenate S16504000x1 0 [⟨S16500000x1, shapeCast S16500000x1 (Cert.ReferenceIdeal.ReadP.val_main_v29 (F := Ideal) (a1 m c)) Facts₀.shapeCasts_S16500000_S16500000x1⟩,
        ⟨S4000x1, broadcastInDim S4000x1 ![] Facts₀.bcast_S_S4000x1 (constant (F := Ideal) S_ .f32 0x00000000#32)⟩]
        Facts₀.concatenates_S16500000x1_S4000x1_S16504000x1_d0 :=
  norm2_eq (W9 m ρ c) _ (w9_normcol m ρ c)
theorem w10_dst : W10 m ρ c (Proc.devRef .tc main_v6) = Cert.ReferenceIdeal.ReadP.val_main_v6 (F := Ideal) (a1 m c) := (keep_hostOps4_v6 (W9 m ρ c)).trans (w9_dst m ρ c)
theorem w10_arg5 : W10 m ρ c (Proc.devRef .tc main_arg5) = a5 m c := (keep_hostOps4_arg5 (W9 m ρ c)).trans (w9_arg5 m ρ c)

/-! ## Layer 2, the scaling (region 4): its first 16500000 rows -/

theorem w11_scaled : extractStridedSlice S16500000x8 ![0, 0] (W11 m ρ c (Proc.devRef .tc main_v62)) Facts₀.slices_S16504000x8_S16500000x8_0_0
    = Cert.ReferenceIdeal.ReadP.val_main_v58 (F := Ideal) (a0 m c) (a1 m c) (a2 m c) (a3 m c) (a4 m c) := by
  rw [show W11 m ρ c (Proc.devRef .tc main_v62) = (dat4 (V10 m ρ) c).arrAt 2 cfg4.N from W11_arr m ρ c 2]
  exact Reg4.slice_eq (V10 m ρ) c _ _ _ _ _ _ _ _
    Cert.ReferenceIdeal.Facts₀.bcast_S16500000_S16500000x1_0 Cert.ReferenceIdeal.Facts₀.bcast_S16500000x1_S16500000x8_0_1
    (w10_msg m ρ c) (w10_norm m ρ c)
theorem w11_dst : W11 m ρ c (Proc.devRef .tc main_v6) = Cert.ReferenceIdeal.ReadP.val_main_v6 (F := Ideal) (a1 m c) := (W11_of_ne m ρ c main_v6 (by decide)).trans (w10_dst m ρ c)
theorem w11_arg5 : W11 m ρ c (Proc.devRef .tc main_arg5) = a5 m c := (W11_of_ne m ρ c main_arg5 (by decide)).trans (w10_arg5 m ρ c)

/-! ## Layer 2, the scatter-add and the bias row -/

theorem w12_agg : W12 m ρ c (Proc.devRef .tc main_v66) = Cert.ReferenceIdeal.ReadP.val_main_v61 (F := Ideal) (a0 m c) (a1 m c) (a2 m c) (a3 m c) (a4 m c) :=
  agg2_eq (W11 m ρ c) (a1 m c) (a0 m c) (a2 m c) (a3 m c) (a4 m c) (w11_scaled m ρ c) (w11_dst m ρ c)
theorem w12_bias : W12 m ρ c (Proc.devRef .tc main_v67) = shapeCast S1x8 (a5 m c) Facts₀.shapeCasts_S8_S1x8 := by
  refine (bias2_eq (W11 m ρ c)).trans ?_
  rw [w11_arg5 m ρ c]

/-! ## Layer 2, the bias and the row-wise log-softmax (region 5): the result -/

/-- The kernel's result buffer after its run holds the reference's last stage of the launch arguments. -/
theorem result_eq : W13 m ρ c (Proc.devRef .tc main_v68)
    = Cert.ReferenceIdeal.ReadP.val_main_v65 (F := Ideal) (a0 m c) (a1 m c) (a2 m c) (a3 m c) (a4 m c) (a5 m c) := by
  refine (W13_arr m ρ c 2).trans ?_
  exact Reg5.arr_eq (V12 m ρ) c _ _ _
    Cert.ReferenceIdeal.Facts₀.bcast_S8_S1x8_1 Cert.ReferenceIdeal.Facts₀.bcast_S1x8_S500000x8_0_1
    Cert.ReferenceIdeal.Facts₀.reducesTo_S500000x8_S500000_d1 Cert.ReferenceIdeal.Facts₀.h_S_
    Cert.ReferenceIdeal.Facts₀.bcast_S_S500000 Cert.ReferenceIdeal.Facts₀.bcast_S500000_S500000x1_0 Cert.ReferenceIdeal.Facts₀.bcast_S500000x1_S500000x8_0_1
    (w12_agg m ρ c) (w12_bias m ρ c)

end Cert.KernelIdeal.Chain

end
-- ==== Proof.lean ====
/-
  A two-layer graph convolution with self-loops and symmetric normalisation over 500000 nodes and 16000000 edges,
  ending in a row-wise log-softmax, against its jnp reference, over the extended reals.

  Both programs compute, on the host, the source and destination index vectors (the edge list's rows followed by the
  self-loop indices), the in-degree by a scatter-add of ones, its inverse square root where the degree is positive,
  and the per-edge weight: that quantity gathered at the source times the same gathered at the destination. A layer
  is then: transform the node features by the weight matrix, gather the transformed rows by source, scale each
  gathered row by its edge's weight, scatter-add by destination, add the bias; the first layer is followed by the
  rectifier, the second by the log-softmax of each row.

  The kernel's program does the dense transform, the scaling and the bias-with-activation in six pipelined regions and
  leaves the gathers and scatter-adds to the same host operations the reference uses. At the ideal values a change of
  float format is the identity and a block product into a zero accumulator is the plain contraction, so each dense
  region is the host's contraction, 5000 rows at a time; the scaling regions work on 8000-row blocks of the gathered
  messages padded by 4000 zero rows, and the rows kept afterwards are exactly the reference's product; the last two
  regions are, row by row, the reference's bias, rectifier and log-softmax (whose extra maximum with −∞ changes
  nothing). No step moves a factor across a sum or cancels anything, so finiteness of the inputs is never used.

  The kernel's run is the generated frame's launch called again with the result buffer named at the last boundary's
  contents (Proof/KRun.lean); those contents are walked back boundary by boundary to the reference's last stage
  (Proof/Chain.lean over Proof/Reg0 … Reg5 and Proof/HostStages.lean); the reference's operation list and its stages are the
  generated ones, in copies (Proof/RefRun.lean, Proof/RefRead.lean), and its run is read over them in nine stretches
  (Proof/RefStages.lean).
-/
import proofs.«145865_j34368328302938_1_alg».proof.Defs
import proofs.«145865_j34368328302938_1_alg».proof.Proof.Gen.Kernel
import proofs.«145865_j34368328302938_1_alg».proof.Proof.Gen.Kernel.Skeleton
import proofs.«145865_j34368328302938_1_alg».proof.Proof.Gen.Kernel.Launch
import proofs.«145865_j34368328302938_1_alg».proof.Proof.Gen.Kernel.Points
import proofs.«145865_j34368328302938_1_alg».proof.Proof.Gen.Kernel.Frame
import proofs.«145865_j34368328302938_1_alg».proof.Proof.Gen.KernelIdeal
import proofs.«145865_j34368328302938_1_alg».proof.Proof.Gen.KernelIdeal.Skeleton
import proofs.«145865_j34368328302938_1_alg».proof.Proof.Gen.KernelIdeal.Launch
import proofs.«145865_j34368328302938_1_alg».proof.Proof.Gen.KernelIdeal.Points
import proofs.«145865_j34368328302938_1_alg».proof.Proof.Gen.KernelIdeal.Frame
import proofs.«145865_j34368328302938_1_alg».proof.Proof.Gen.ReferenceIdeal
import proofs.«145865_j34368328302938_1_alg».proof.Proof.Gen.Pre_finite_inputs
import proofs.«145865_j34368328302938_1_alg».proof.Proof.KRun
import proofs.«145865_j34368328302938_1_alg».proof.Proof.RefRun
import proofs.«145865_j34368328302938_1_alg».proof.Proof.RefRead
import proofs.«145865_j34368328302938_1_alg».proof.Proof.RefStages
import proofs.«145865_j34368328302938_1_alg».proof.Proof.Chain
import Idealize.ShloMosaic.Adequacy
import Idealize.ShloMosaic.Init

noncomputable section

namespace Cert.Proof

open Idealize.ShloMosaic Idealize.SL.Sem

/-- The word-level kernel terminates without a fault and leaves its arguments as launched. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Stages.run (F := Ideal) m ρ)

/-- The ideal pass rewrote no operation of this kernel. -/
theorem preserves : Cert.preserves_Kernel_KernelIdeal := trivial

/-- From memories agreeing on the arguments both programs end with the reference's last stage of those arguments in their
    result buffers: the kernel's by the chain through its regions, the reference's by its run. -/
theorem algebraic : Cert.algebraic_KernelIdeal_ReferenceIdeal := by
  intro m ρ m' ρ' _ hagree
  refine ⟨fun c => Cert.KernelIdeal.Gen.W13 m ρ c (Proc.devRef .tc Cert.KernelIdeal.main_v68),
    Cert.KernelIdeal.Named.run_named (F := Ideal) m ρ, ?_⟩
  refine (θ_run Cert.ReferenceIdeal.defs _ _).mono (fun _ h c => ⟨(h c).1.trans ?_, (h c).2⟩)
    (Cert.ReferenceIdeal.Stages.run (F := Ideal) m' ρ')
  rw [(hagree c).1, (hagree c).2.1, (hagree c).2.2.1, (hagree c).2.2.2.1, (hagree c).2.2.2.2.1, (hagree c).2.2.2.2.2]
  exact (Cert.KernelIdeal.Chain.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
